-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_temp" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S128 : Shape := ⟨1, ![128]⟩
abbrev S128x64 : Shape := ⟨2, ![128, 64]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel

variable [Facts]

def fn {F : FTy → Type} [FloatOps F] (main_arg0 : FVec F S8x256x128x128 .f32) (main_arg1 : IVec S128 32) (main_arg2 : IVec S128x64 32) (main_arg3 : IVec S128 32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  main_v3
-- ==== Kernel.lean ====
abbrev S8x256x128x128 : Shape := ⟨4, ![8, 256, 128, 128]⟩
abbrev S128 : Shape := ⟨1, ![128]⟩
abbrev S128x64 : Shape := ⟨2, ![128, 64]⟩
abbrev S8x128x128x256 : Shape := ⟨4, ![8, 128, 128, 256]⟩
abbrev S8x16384x256 : Shape := ⟨3, ![8, 16384, 256]⟩
abbrev S128x1 : Shape := ⟨2, ![128, 1]⟩
abbrev S_ : Shape := ⟨0, ![]⟩
abbrev S128x64x1 : Shape := ⟨3, ![128, 64, 1]⟩
abbrev S128x64x2 : Shape := ⟨3, ![128, 64, 2]⟩
abbrev S128x64x256 : Shape := ⟨3, ![128, 64, 256]⟩
abbrev S64x128x256 : Shape := ⟨3, ![64, 128, 256]⟩
abbrev S8192x256 : Shape := ⟨2, ![8192, 256]⟩
abbrev S1x128 : Shape := ⟨2, ![1, 128]⟩
abbrev S64x128 : Shape := ⟨2, ![64, 128]⟩
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S128x256 : Shape := ⟨2, ![128, 256]⟩
abbrev S256x8192 : Shape := ⟨2, ![256, 8192]⟩
abbrev S128x8192 : Shape := ⟨2, ![128, 8192]⟩
abbrev S1 : Shape := ⟨1, ![1]⟩

abbrev nBuf : Space → Nat
  | .hbm => 49
  | .vmem => 12
  | .smem => 0
  | _ => 0

abbrev bufTy : (tb : Table) → Fin (tcTables nBuf tb) → BufTy
  | .hbm, ⟨0, _⟩ => ⟨S8x256x128x128, .f32⟩
  | .hbm, ⟨1, _⟩ => ⟨S128, .i32⟩
  | .hbm, ⟨2, _⟩ => ⟨S128x64, .i32⟩
  | .hbm, ⟨3, _⟩ => ⟨S128, .i32⟩
  | .hbm, ⟨4, _⟩ => ⟨S8x128x128x256, .f32⟩
  | .hbm, ⟨5, _⟩ => ⟨S8x16384x256, .f32⟩
  | .hbm, ⟨6, _⟩ => ⟨S128x1, .i32⟩
  | .hbm, ⟨7, _⟩ => ⟨S_, .i32⟩
  | .hbm, ⟨8, _⟩ => ⟨S128x1, .i32⟩
  | .hbm, ⟨9, _⟩ => ⟨S128x1, .i1⟩
  | .hbm, ⟨10, _⟩ => ⟨S_, .i32⟩
  | .hbm, ⟨11, _⟩ => ⟨S128x1, .i32⟩
  | .hbm, ⟨12, _⟩ => ⟨S128x1, .i32⟩
  | .hbm, ⟨13, _⟩ => ⟨S128x1, .i32⟩
  | .hbm, ⟨14, _⟩ => ⟨S_, .i32⟩
  | .hbm, ⟨15, _⟩ => ⟨S128x64, .i32⟩
  | .hbm, ⟨16, _⟩ => ⟨S128x64, .i1⟩
  | .hbm, ⟨17, _⟩ => ⟨S_, .i32⟩
  | .hbm, ⟨18, _⟩ => ⟨S128x64, .i32⟩
  | .hbm, ⟨19, _⟩ => ⟨S128x64, .i32⟩
  | .hbm, ⟨20, _⟩ => ⟨S128x64, .i32⟩
  | .hbm, ⟨21, _⟩ => ⟨S128x64, .i32⟩
  | .hbm, ⟨22, _⟩ => ⟨S128x64x1, .i32⟩
  | .hbm, ⟨23, _⟩ => ⟨S128x64x1, .i32⟩
  | .hbm, ⟨24, _⟩ => ⟨S128x64x2, .i32⟩
  | .hbm, ⟨25, _⟩ => ⟨S128x64x256, .f32⟩
  | .hbm, ⟨26, _⟩ => ⟨S64x128x256, .f32⟩
  | .hbm, ⟨27, _⟩ => ⟨S8192x256, .f32⟩
  | .hbm, ⟨28, _⟩ => ⟨S8192x256, .bf16⟩
  | .hbm, ⟨29, _⟩ => ⟨S1x128, .i32⟩
  | .hbm, ⟨30, _⟩ => ⟨S64x128, .i32⟩
  | .hbm, ⟨31, _⟩ => ⟨S8192, .i32⟩
  | .hbm, ⟨32, _⟩ => ⟨S_, .i32⟩
  | .hbm, ⟨33, _⟩ => ⟨S128, .i32⟩
  | .hbm, ⟨34, _⟩ => ⟨S128, .i1⟩
  | .hbm, ⟨35, _⟩ => ⟨S128, .f32⟩
  | .hbm, ⟨36, _⟩ => ⟨S1x128, .f32⟩
  | .hbm, ⟨37, _⟩ => ⟨S64x128, .f32⟩
  | .hbm, ⟨38, _⟩ => ⟨S8192, .f32⟩
  | .hbm, ⟨39, _⟩ => ⟨S8192x1, .i32⟩
  | .hbm, ⟨40, _⟩ => ⟨S1x8192, .i32⟩
  | .hbm, ⟨41, _⟩ => ⟨S8192x1, .f32⟩
  | .hbm, ⟨42, _⟩ => ⟨S1x1, .f32⟩
  | .hbm, ⟨43, _⟩ => ⟨S1x1, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S128x256, .bf16⟩
  | .local _ .vmem, ⟨1, _⟩ => ⟨S128x256, .bf16⟩
  | .local _ .vmem, ⟨2, _⟩ => ⟨S8192x256, .bf16⟩
  | .local _ .vmem, ⟨3, _⟩ => ⟨S128x1, .i32⟩
  | .local _ .vmem, ⟨4, _⟩ => ⟨S128x1, .i32⟩
  | .local _ .vmem, ⟨5, _⟩ => ⟨S1x8192, .i32⟩
  | .local _ .vmem, ⟨6, _⟩ => ⟨S128x1, .f32⟩
  | .local _ .vmem, ⟨7, _⟩ => ⟨S128x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst : Ref sig .tc := ⟨.hbm, 47, rfl⟩
abbrev main_v37 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v69 : BitVec 1 := Scalar.cmpi .eq arg0 c63_i32
  let v70 : BitVec 32 := Scalar.extui v69
  let c0_i32_30 : BitVec 32 := 0#32
  let v71 : BitVec 1 := Scalar.cmpi .ne v70 c0_i32_30
  v71

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  transposes_S8x256x128x128_S8x128x128x256_0_2_3_1 : S8x256x128x128.Transposes [0, 2, 3, 1] S8x128x128x256
  shapeCasts_S8x128x128x256_S8x16384x256 : S8x128x128x256.ShapeCasts S8x16384x256
  bcast_S128_S128x1_0 : S128.BroadcastsInDim S128x1 (![0] : Fin 1 → Fin S128x1.rank)
  bcast_S_S128x1 : S_.BroadcastsInDim S128x1 (![] : Fin 0 → Fin S128x1.rank)
  bcast_S_S128x64 : S_.BroadcastsInDim S128x64 (![] : Fin 0 → Fin S128x64.rank)
  bcast_S128x1_S128x64_0_1 : S128x1.BroadcastsInDim S128x64 (![0, 1] : Fin 2 → Fin S128x64.rank)
  bcast_S128x64_S128x64x1_0_1 : S128x64.BroadcastsInDim S128x64x1 (![0, 1] : Fin 2 → Fin S128x64x1.rank)
  concatenates_S128x64x1_S128x64x1_S128x64x2_d2 : Shape.Concatenates [S128x64x1, S128x64x1] S128x64x2 2
  transposes_S128x64x256_S64x128x256_1_0_2 : S128x64x256.Transposes [1, 0, 2] S64x128x256
  shapeCasts_S64x128x256_S8192x256 : S64x128x256.ShapeCasts S8192x256
  bitsLt_bf16_f32 : FTy.bits .bf16 < FTy.bits .f32
  shapeCasts_S128_S1x128 : S128.ShapeCasts S1x128
  bcast_S1x128_S64x128_0_1 : S1x128.BroadcastsInDim S64x128 (![0, 1] : Fin 2 → Fin S64x128.rank)
  shapeCasts_S64x128_S8192 : S64x128.ShapeCasts S8192
  bcast_S_S128 : S_.BroadcastsInDim S128 (![] : Fin 0 → Fin S128.rank)
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S8192x256_S8192x256_0_0 : ∀ a, (![0, 0] : Fin 2 → Nat) a + S8192x256.size a ≤ S8192x256.size a
  h_S8192x256 : 0 < S8192x256.numel
  shapeCasts_S8192x256_S8192x256 : S8192x256.ShapeCasts S8192x256
  transposes_S8192x256_p1_0_S256x8192 : S8192x256.Transposes [1, 0] S256x8192
  reduces_S128x8192_S128 : S128x8192.Reduces [1] S128
  shapeCasts_S128_S128x1 : S128.ShapeCasts S128x1
  broadcasts_S128x1_S128x8192 : S128x1.Broadcasts S128x8192
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S128x8192 : S1x8192.Broadcasts S128x8192
  iota_S128x1_d0_w32 : S128x1.Iotas .tc 32 [0]
  iota_S1x8192_d1_w32 : S1x8192.Iotas .tc 32 [1]
  reduces_S128x1_S1 : S128x1.Reduces [0] S1
  shapeCasts_S1_S1x1 : S1.ShapeCasts S1x1
  shapeCasts_S1x1_S_ : S1x1.ShapeCasts S_
  gather_S8x16384x256_S128x64x2_S128x64x256_2_01_n_n_01_2_11256_wf : GatherDims.WF S8x16384x256 S128x64x2 S128x64x256 [2] [0, 1] [] [0, 1] [] 2 ![1, 1, 256]
  dot_S128x256_S256x8192_S128x8192_1_0_0_1_n_n_wf : DotDims.WF S128x256 S256x8192 S128x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S8192x256.size a
  hwx0_0 : ∀ i : grid0.Coords, EltTy.bits .bf16 = 32 ∨ (Rect.block (s := S8192x256) S128x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .i32 = 32 ∨ (Rect.block (s := S8192x1) S128x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S8192x1.size a
  hwx0_4 : ∀ i : grid0.Coords, EltTy.bits .f32 = 32 ∨ (Rect.block (s := S8192x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

def gather_S8x16384x256_S128x64x2_S128x64x256_2_01_n_n_01_2_11256 : GatherDims S8x16384x256 S128x64x2 S128x64x256 where
  offsetDims := [2]
  collapsedSliceDims := [0, 1]
  operandBatchingDims := []
  startIndicesBatchingDims := []
  startIndexMap := [0, 1]
  indexVectorDim := 2
  sliceSizes := ![1, 1, 256]
  wf := gather_S8x16384x256_S128x64x2_S128x64x256_2_01_n_n_01_2_11256_wf
def dot_S128x256_S256x8192_S128x8192_1_0_0_1_n_n : DotDims S128x256 S256x8192 S128x8192 where
  lhsContracting := [1]
  rhsContracting := [0]
  lhsNonContracting := [0]
  rhsNonContracting := [1]
  lhsBatch := []
  rhsBatch := []
  wf := dot_S128x256_S256x8192_S128x8192_1_0_0_1_n_n_wf

abbrev win0_0 : Pipeline.Window sig grid0 :=
  Pipeline.Window.ofSpec (Memref.whole main_v20) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v32) S128x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v33_0) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v33_1) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x256x128x128 : Shape := ⟨4, ![8, 256, 128, 128]⟩
abbrev S128 : Shape := ⟨1, ![128]⟩
abbrev S128x64 : Shape := ⟨2, ![128, 64]⟩
abbrev S8x128x128x256 : Shape := ⟨4, ![8, 128, 128, 256]⟩
abbrev S8x16384x256 : Shape := ⟨3, ![8, 16384, 256]⟩
abbrev S128x1 : Shape := ⟨2, ![128, 1]⟩
abbrev S_ : Shape := ⟨0, ![]⟩
abbrev S128x64x1 : Shape := ⟨3, ![128, 64, 1]⟩
abbrev S128x64x2 : Shape := ⟨3, ![128, 64, 2]⟩
abbrev S128x64x256 : Shape := ⟨3, ![128, 64, 256]⟩
abbrev S64x128x256 : Shape := ⟨3, ![64, 128, 256]⟩
abbrev S8192x256 : Shape := ⟨2, ![8192, 256]⟩
abbrev S256x8192 : Shape := ⟨2, ![256, 8192]⟩
abbrev S8192x8192 : Shape := ⟨2, ![8192, 8192]⟩
abbrev S8192 : Shape := ⟨1, ![8192]⟩
abbrev S8192x1 : Shape := ⟨2, ![8192, 1]⟩
abbrev S1x128 : Shape := ⟨2, ![1, 128]⟩
abbrev S128x128 : Shape := ⟨2, ![128, 128]⟩
abbrev S1x128x1x128 : Shape := ⟨4, ![1, 128, 1, 128]⟩
abbrev S64x128x64x128 : Shape := ⟨4, ![64, 128, 64, 128]⟩
abbrev S64x128 : Shape := ⟨2, ![64, 128]⟩

abbrev nBuf : Space → Nat
  | .hbm => 91
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S128, .i32⟩
  | .hbm, ⟨2, _⟩ => ⟨S128x64, .i32⟩
  | .hbm, ⟨3, _⟩ => ⟨S128, .i32⟩
  | .hbm, ⟨4, _⟩ => ⟨S8x128x128x256, .f32⟩
  | .hbm, ⟨5, _⟩ => ⟨S8x16384x256, .f32⟩
  | .hbm, ⟨6, _⟩ => ⟨S128x1, .i32⟩
  | .hbm, ⟨7, _⟩ => ⟨S_, .i32⟩
  | .hbm, ⟨8, _⟩ => ⟨S128x1, .i32⟩
  | .hbm, ⟨9, _⟩ => ⟨S128x1, .i1⟩
  | .hbm, ⟨10, _⟩ => ⟨S_, .i32⟩
  | .hbm, ⟨11, _⟩ => ⟨S128x1, .i32⟩
  | .hbm, ⟨12, _⟩ => ⟨S128x1, .i32⟩
  | .hbm, ⟨13, _⟩ => ⟨S128x1, .i32⟩
  | .hbm, ⟨14, _⟩ => ⟨S_, .i32⟩
  | .hbm, ⟨15, _⟩ => ⟨S128x64, .i32⟩
  | .hbm, ⟨16, _⟩ => ⟨S128x64, .i1⟩
  | .hbm, ⟨17, _⟩ => ⟨S_, .i32⟩
  | .hbm, ⟨18, _⟩ => ⟨S128x64, .i32⟩
  | .hbm, ⟨19, _⟩ => ⟨S128x64, .i32⟩
  | .hbm, ⟨20, _⟩ => ⟨S128x64, .i32⟩
  | .hbm, ⟨21, _⟩ => ⟨S128x64, .i32⟩
  | .hbm, ⟨22, _⟩ => ⟨S128x64x1, .i32⟩
  | .hbm, ⟨23, _⟩ => ⟨S128x64x1, .i32⟩
  | .hbm, ⟨24, _⟩ => ⟨S128x64x2, .i32⟩
  | .hbm, ⟨25, _⟩ => ⟨S128x64x256, .f32⟩
  | .hbm, ⟨26, _⟩ => ⟨S64x128x256, .f32⟩
  | .hbm, ⟨27, _⟩ => ⟨S8192x256, .f32⟩
  | .hbm, ⟨28, _⟩ => ⟨S256x8192, .f32⟩
  | .hbm, ⟨29, _⟩ => ⟨S8192x8192, .f32⟩
  | .hbm, ⟨30, _⟩ => ⟨S_, .f32⟩
  | .hbm, ⟨31, _⟩ => ⟨S8192x8192, .f32⟩
  | .hbm, ⟨32, _⟩ => ⟨S8192x8192, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x8192, .f32⟩
  | .hbm, ⟨37, _⟩ => ⟨S8192x8192, .f32⟩
  | .hbm, ⟨38, _⟩ => ⟨S128x1, .i32⟩
  | .hbm, ⟨39, _⟩ => ⟨S1x128, .i32⟩
  | .hbm, ⟨40, _⟩ => ⟨S128x128, .i32⟩
  | .hbm, ⟨41, _⟩ => ⟨S128x128, .i32⟩
  | .hbm, ⟨42, _⟩ => ⟨S128x128, .i1⟩
  | .hbm, ⟨43, _⟩ => ⟨S128x128, .f32⟩
  | .hbm, ⟨44, _⟩ => ⟨S1x128x1x128, .f32⟩
  | .hbm, ⟨45, _⟩ => ⟨S64x128x64x128, .f32⟩
  | .hbm, ⟨46, _⟩ => ⟨S8192x8192, .f32⟩
  | .hbm, ⟨47, _⟩ => ⟨S_, .f32⟩
  | .hbm, ⟨48, _⟩ => ⟨S8192x8192, .f32⟩
  | .hbm, ⟨49, _⟩ => ⟨S8192x8192, .f32⟩
  | .hbm, ⟨50, _⟩ => ⟨S8192x8192, .i32⟩
  | .hbm, ⟨51, _⟩ => ⟨S8192x8192, .i32⟩
  | .hbm, ⟨52, _⟩ => ⟨S_, .i32⟩
  | .hbm, ⟨53, _⟩ => ⟨S8192x8192, .i32⟩
  | .hbm, ⟨54, _⟩ => ⟨S8192x8192, .i32⟩
  | .hbm, ⟨55, _⟩ => ⟨S8192x8192, .i1⟩
  | .hbm, ⟨56, _⟩ => ⟨S8192x8192, .f32⟩
  | .hbm, ⟨57, _⟩ => ⟨S_, .f32⟩
  | .hbm, ⟨58, _⟩ => ⟨S8192x8192, .f32⟩
  | .hbm, ⟨59, _⟩ => ⟨S8192x8192, .f32⟩
  | .hbm, ⟨60, _⟩ => ⟨S8192x8192, .f32⟩
  | .hbm, ⟨61, _⟩ => ⟨S8192x8192, .f32⟩
  | .hbm, ⟨62, _⟩ => ⟨S8192x8192, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S8192x8192, .f32⟩
  | .hbm, ⟨70, _⟩ => ⟨S8192x8192, .f32⟩
  | .hbm, ⟨71, _⟩ => ⟨S_, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S_, .i32⟩
  | .hbm, ⟨77, _⟩ => ⟨S128, .i32⟩
  | .hbm, ⟨78, _⟩ => ⟨S128, .i1⟩
  | .hbm, ⟨79, _⟩ => ⟨S128, .f32⟩
  | .hbm, ⟨80, _⟩ => ⟨S1x128, .f32⟩
  | .hbm, ⟨81, _⟩ => ⟨S64x128, .f32⟩
  | .hbm, ⟨82, _⟩ => ⟨S8192, .f32⟩
  | .hbm, ⟨83, _⟩ => ⟨S8192, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_cst_9 : Ref sig .tc := ⟨.hbm, 73, rfl⟩
abbrev main_v58 : Ref sig .tc := ⟨.hbm, 74, rfl⟩
abbrev main_v59 : Ref sig .tc := ⟨.hbm, 75, rfl⟩
abbrev main_c_10 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_11 : Ref sig .tc := ⟨.hbm, 84, rfl⟩
abbrev main_v67 : Ref sig .tc := ⟨.hbm, 85, rfl⟩
abbrev main_cst_12 : Ref sig .tc := ⟨.hbm, 86, rfl⟩
abbrev main_v68 : Ref sig .tc := ⟨.hbm, 87, rfl⟩
abbrev main_v69 : Ref sig .tc := ⟨.hbm, 88, rfl⟩
abbrev main_cst_13 : Ref sig .tc := ⟨.hbm, 89, rfl⟩
abbrev main_v70 : Ref sig .tc := ⟨.hbm, 90, rfl⟩

abbrev nD : Nat := 1
abbrev τ : Topo := Topo.v7x

variable {F : FTy → Type} [FloatOps F]

class Facts₀ : Prop where
  transposes_S8x256x128x128_S8x128x128x256_0_2_3_1 : S8x256x128x128.Transposes [0, 2, 3, 1] S8x128x128x256
  shapeCasts_S8x128x128x256_S8x16384x256 : S8x128x128x256.ShapeCasts S8x16384x256
  bcast_S128_S128x1_0 : S128.BroadcastsInDim S128x1 (![0] : Fin 1 → Fin S128x1.rank)
  bcast_S_S128x1 : S_.BroadcastsInDim S128x1 (![] : Fin 0 → Fin S128x1.rank)
  bcast_S_S128x64 : S_.BroadcastsInDim S128x64 (![] : Fin 0 → Fin S128x64.rank)
  bcast_S128x1_S128x64_0_1 : S128x1.BroadcastsInDim S128x64 (![0, 1] : Fin 2 → Fin S128x64.rank)
  bcast_S128x64_S128x64x1_0_1 : S128x64.BroadcastsInDim S128x64x1 (![0, 1] : Fin 2 → Fin S128x64x1.rank)
  concatenates_S128x64x1_S128x64x1_S128x64x2_d2 : Shape.Concatenates [S128x64x1, S128x64x1] S128x64x2 2
  transposes_S128x64x256_S64x128x256_1_0_2 : S128x64x256.Transposes [1, 0, 2] S64x128x256
  shapeCasts_S64x128x256_S8192x256 : S64x128x256.ShapeCasts S8192x256
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  shapeCasts_S128x128_S1x128x1x128 : S128x128.ShapeCasts S1x128x1x128
  bcast_S1x128x1x128_S64x128x64x128_0_1_2_3 : S1x128x1x128.BroadcastsInDim S64x128x64x128 (![0, 1, 2, 3] : Fin 4 → Fin S64x128x64x128.rank)
  shapeCasts_S64x128x64x128_S8192x8192 : S64x128x64x128.ShapeCasts S8192x8192
  bcast_S_S128 : S_.BroadcastsInDim S128 (![] : Fin 0 → Fin S128.rank)
  shapeCasts_S128_S1x128 : S128.ShapeCasts S1x128
  bcast_S1x128_S64x128_0_1 : S1x128.BroadcastsInDim S64x128 (![0, 1] : Fin 2 → Fin S64x128.rank)
  shapeCasts_S64x128_S8192 : S64x128.ShapeCasts S8192
  reducesTo_S8192_S_d0 : S8192.ReducesTo [0] S_
  gather_S8x16384x256_S128x64x2_S128x64x256_2_01_n_n_01_2_11256_wf : GatherDims.WF S8x16384x256 S128x64x2 S128x64x256 [2] [0, 1] [] [0, 1] [] 2 ![1, 1, 256]
  dot_S8192x256_S256x8192_S8192x8192_1_0_0_1_n_n_wf : DotDims.WF S8192x256 S256x8192 S8192x8192 [1] [0] [0] [1] [] []

variable [Facts₀]

def gather_S8x16384x256_S128x64x2_S128x64x256_2_01_n_n_01_2_11256 : GatherDims S8x16384x256 S128x64x2 S128x64x256 where
  offsetDims := [2]
  collapsedSliceDims := [0, 1]
  operandBatchingDims := []
  startIndicesBatchingDims := []
  startIndexMap := [0, 1]
  indexVectorDim := 2
  sliceSizes := ![1, 1, 256]
  wf := gather_S8x16384x256_S128x64x2_S128x64x256_2_01_n_n_01_2_11256_wf
def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.IdealRun.Acc.lean ====
/-
  The two running sums the kernel carries across its 64 grid points, and the data of its pipeline built on them.

  At grid point `t` the body reads five blocks — 128 sample rows, all 8192 sample rows (the same array again), the 128
  rows' labels, all labels, the 128 rows' weights — and adds to two one-word scratch cells: the 128 rows' weighted
  means, and their weights. Point 0 zeroes the cells first; point 63 copies them to the two outputs. `accAt n` is the
  pair of cells after point `n`, by recursion on `n`; the invariant between points holds the cells at `accAt`.
  The row-block window and the all-rows window are views of one array, which they hold at half a share each.
-/
import proofs.«413265_j2430951490101_1_alg».proof.Proof.Gen.KernelIdeal.Launch
import proofs.«413265_j2430951490101_1_alg».proof.Proof.Gen.KernelIdeal.Skeleton
import proofs.«413265_j2430951490101_1_alg».proof.Proof.Gen.KernelIdeal.Points
import Idealize.ShloMosaic.Lib.Pipeline.FrameBody
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the 38 host operations before it have run. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The carried sums -/

/-- What point `t` makes of the two cells `s0`, `s1`: `s0` plus the block's weighted means, `s1` plus its weights. -/
def stepAt (c : Dev nD) (t : Fin cfg0.N) (s0 s1 : Vec F S1x1 .f32) : Vec F S1x1 .f32 × Vec F S1x1 .f32 :=
  (k0_pay2 (k0_pay6 (iblk m c 2 t) (iblk m c 3 t)) (k0_pay7 (iblk m c 0 t) (iblk m c 1 t) (iblk m c 2 t) (iblk m c 3 t))
      (k0_pay8 (grid0.coords t)) (iblk m c 4 t) s0,
   k0_pay3 (iblk m c 4 t) s1)

/-- The two cells after point `n`: from zero at point 0, each later point adding its block. -/
def accAt (c : Dev nD) : (n : ℕ) → n < cfg0.N → Vec F S1x1 .f32 × Vec F S1x1 .f32
  | 0, hn => stepAt m c ⟨0, hn⟩ (k0_pay4 (F := F)) (k0_pay5 (F := F))
  | n + 1, hn => stepAt m c ⟨n + 1, hn⟩ (accAt c n (Nat.lt_of_succ_lt hn)).1 (accAt c n (Nat.lt_of_succ_lt hn)).2

theorem accAt_zero (c : Dev nD) (hn : 0 < cfg0.N) :
    accAt m c 0 hn = stepAt m c ⟨0, hn⟩ (k0_pay4 (F := F)) (k0_pay5 (F := F)) := rfl

theorem accAt_succ (c : Dev nD) (n : ℕ) (hn : n + 1 < cfg0.N) :
    accAt m c (n + 1) hn = stepAt m c ⟨n + 1, hn⟩ (accAt m c n (Nat.lt_of_succ_lt hn)).1 (accAt m c n (Nat.lt_of_succ_lt hn)).2 := rfl

/-- At a point after the first, over what the point before left. -/
theorem accAt_pos (c : Dev nD) (t : Fin cfg0.N) (ht : t.val ≠ 0) :
    accAt m c t.val t.isLt = stepAt m c t (accAt m c (t.val - 1) (Nat.lt_of_le_of_lt (Nat.sub_le _ _) t.isLt)).1
      (accAt m c (t.val - 1) (Nat.lt_of_le_of_lt (Nat.sub_le _ _) t.isLt)).2 := by
  obtain ⟨n, hn⟩ := t
  cases n with
  | zero => exact absurd rfl ht
  | succ n => rfl

/-! ## The scratch cells and the invariant between points -/

/-- The two scratch cells, whole scoped buffers of the kernel's own. -/
abbrev cell0 : Memref sig .tc .vmem S1x1 .f32 := Memref.whole cc0_scratch0
abbrev cell1 : Memref sig .tc .vmem S1x1 .f32 := Memref.whole cc0_scratch1

/-- Before the first point the cells hold anything; before point `n + 1` what point `n` left. -/
def PhiS (c : Dev nD) : (n : ℕ) → n ≤ cfg0.N → sProp 𝕄
  | 0, _ => iprop((∃ d, owns (c : Thread nD τ) cell0 fullShare d) ∗ (∃ d, owns (c : Thread nD τ) cell1 fullShare d))
  | n + 1, hn => iprop(owns (c : Thread nD τ) cell0 fullShare (accAt m c n hn).1 ∗ owns (c : Thread nD τ) cell1 fullShare (accAt m c n hn).2)

theorem PhiS_zero (c : Dev nD) (n : ℕ) (h : n ≤ cfg0.N) (hz : n = 0) :
    PhiS m c n h = iprop((∃ d, owns (c : Thread nD τ) cell0 fullShare d) ∗ (∃ d, owns (c : Thread nD τ) cell1 fullShare d)) := by
  subst hz; rfl

theorem PhiS_succ (c : Dev nD) (n : ℕ) (hn : n < cfg0.N) :
    PhiS m c (n + 1) hn = iprop(owns (c : Thread nD τ) cell0 fullShare (accAt m c n hn).1 ∗ owns (c : Thread nD τ) cell1 fullShare (accAt m c n hn).2) := rfl

theorem PhiS_pos (c : Dev nD) (n : ℕ) (h : n ≤ cfg0.N) (hz : n ≠ 0) :
    PhiS m c n h = iprop(owns (c : Thread nD τ) cell0 fullShare (accAt m c (n - 1) (by omega)).1
      ∗ owns (c : Thread nD τ) cell1 fullShare (accAt m c (n - 1) (by omega)).2) := by
  cases n with
  | zero => exact absurd rfl hz
  | succ n => rfl

/-- The scoped buffers that are no staging buffer are the two cells, each at something. -/
theorem scopedRest_cells (c : Dev nD) :
    (Pipeline.scopedRest (Ix := Unit) (Name := ℕ) (U := UR sig nD τ) (Lvl := ℕ) (Val := Elt F) spec0 c : sProp 𝕄)
      = iprop((∃ d, owns (c : Thread nD τ) cell0 fullShare d) ∗ (∃ d, owns (c : Thread nD τ) cell1 fullShare d)) := by
  rw [scopedRest0_eq]; simp only [cell0, cell1, owns_whole]; try rfl

/-! ## The pipeline's proof data -/

/-- On core `c`: the arrays as the region finds them; after the body each input's buffer at its block, the two outputs'
    at the carried sums; the invariant the cells at `accAt`; the shared array at half a share per window; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (accAt m c t.val t.isLt).1
    | ⟨6, _⟩ => (accAt m c t.val t.isLt).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (accAt m c t.val t.isLt).1 := by dsimp only [dats]
theorem after_6 (c : Dev nD) (t : Fin cfg0.N) : (dats m 0 c).after 6 t = (accAt m c t.val t.isLt).2 := by dsimp only [dats]

/-- The grid has 64 points: 63 is the last. -/
theorem lastPt : 63 < cfg0.N := by rw [show cfg0.N = 64 from N_0]; omega

/-- What the five host operations after the region make of the two outputs: a fixed multiple of their quotient. -/
def lossOf (a b : Vec F S1x1 .f32) : (⟨S_, .f32⟩ : BufTy).Contents (Elt F) :=
  mulf (constant S_ .f32 0xBFB6DB6E#32) (Host.divf (shapeCast S_ a shapeCasts_S1x1_S_) (shapeCast S_ b shapeCasts_S1x1_S_))

end Cert.KernelIdeal.Hand

end
-- ==== Proof.IdealRun.Obligation.lean ====
/-
  The kernel's body at every grid point meets the pipeline's obligation for the carried sums: handed the five input
  blocks and the two cells at what the point before left (anything, at the first point), it leaves the inputs as they
  were, the cells at this point's sums and, at the last point, the two outputs at the cells.

  The body has two conditionals on the grid coordinate: the first zeroes the cells at point 0, the second copies them
  to the outputs at point 63. So the 64 points fall into three control cases — the first point, the 62 middle points,
  the last point — and the body's triple is stated once per case, on any whole buffers and over any contents; the
  obligation at a point is the triple of that point's case at the point's buffers and blocks.
-/
import proofs.«413265_j2430951490101_1_alg».proof.Proof.IdealRun.Acc
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Whole-buffer stores -/

/-- Every access of the body is through the rectangle at offsets `[0, 0]`: the zero offsets. -/
theorem hz : (![0, 0] : Fin 2 → Nat) = fun _ => 0 := funext fun a => by fin_cases a <;> rfl

/-- A store through the whole-buffer rectangle, made last, is what the buffer then reads, whatever was stored before. -/
theorem read_writes_cons_unit {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## The two conditions over the grid -/

/-- The first conditional's test, from the grid coordinate: `(coordinate = 0) ≠ 0` as the body computes it. -/
abbrev cond1 (i : grid0.Coords) : Prop :=
  (Scalar.cmpi .ne (Scalar.extui (Scalar.cmpi .eq (BitVec.ofNat 32 (i 0).val) 0#32)) 0#32) = 1#1

/-- The first test holds at the first point only — decided over the grid. -/
theorem hcond1 : ∀ t : Fin cfg0.N, cond1 (grid0.coords t) ↔ t.val = 0 :=
  (by decide +kernel : ∀ t : Fin grid0.N, cond1 (grid0.coords t) ↔ t.val = 0)

/-- The second test holds at the last point only — decided over the grid. -/
theorem hcond2 : ∀ t : Fin cfg0.N, k0_cond2 (grid0.coords t) = 1#1 ↔ t.val = 63 :=
  (by decide +kernel : ∀ t : Fin grid0.N, k0_cond2 (grid0.coords t) = 1#1 ↔ t.val = 63)

/-- Where the second test fails the two outputs are idle and not written back; where it holds they are live. -/
theorem idleAt5 : ∀ t : Fin cfg0.N, ¬k0_cond2 (grid0.coords t) = 1#1 → cfg0.idle 5 (grid0.coords t) = true := by decide +kernel
theorem idleAt6 : ∀ t : Fin cfg0.N, ¬k0_cond2 (grid0.coords t) = 1#1 → cfg0.idle 6 (grid0.coords t) = true := by decide +kernel
theorem noFlush5 : ∀ t : Fin cfg0.N, ¬k0_cond2 (grid0.coords t) = 1#1 → (cfg0.win 5).flush t = false := by decide +kernel
theorem noFlush6 : ∀ t : Fin cfg0.N, ¬k0_cond2 (grid0.coords t) = 1#1 → (cfg0.win 6).flush t = false := by decide +kernel
theorem liveAt5 : ∀ t : Fin cfg0.N, k0_cond2 (grid0.coords t) = 1#1 → cfg0.idle 5 (grid0.coords t) = false := by decide +kernel
theorem liveAt6 : ∀ t : Fin cfg0.N, k0_cond2 (grid0.coords t) = 1#1 → cfg0.idle 6 (grid0.coords t) = false := by decide +kernel

/-! ## What the body finds in the inputs' buffers -/

/-- Each input's current buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The buffers the body is called on at a point -/

/-- Each window's current buffer at point `t`, as the pipeline passes it to the body, and its wholeness. -/
abbrev ms0 (t : Fin cfg0.N) : Memref sig .tc .vmem S128x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)

/-! ## The body's triple in each control case

On whole buffers `a1 … a9` (five inputs, two outputs, two cells), the inputs at contents `x0 … x4`. In every case the
inputs come back as they were, cell `a8` ends at the first payload over what it held and cell `a9` at the second.
The payloads' loads are through the whole-buffer rectangle and read the contents; a cell loaded after a store in the
same pass reads that store's payload. -/

/-- The first point: the first conditional taken, the second not. The cells come at anything and are zeroed first, so
    they end at the payloads over the zero words; the outputs are not touched. -/
theorem runA (c : Dev nD) (i : grid0.Coords)
    (a1 : Memref sig .tc .vmem S128x256 .bf16) (h1 : a1.IsWhole) (a2 : Memref sig .tc .vmem S8192x256 .bf16) (h2 : a2.IsWhole)
    (a3 : Memref sig .tc .vmem S128x1 .i32) (h3 : a3.IsWhole) (a4 : Memref sig .tc .vmem S1x8192 .i32) (h4 : a4.IsWhole)
    (a5 : Memref sig .tc .vmem S128x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (a9 : Memref sig .tc .vmem S1x1 .f32) (h9 : a9.IsWhole)
    (hc1 : cond1 i) (hc2 : ¬k0_cond2 i = 1#1)
    (x0 : Vec F S128x256 .bf16) (x1 : Vec F S8192x256 .bf16) (x2 : Vec F S128x1 .i32) (x3 : Vec F S1x8192 .i32)
    (x4 : Vec F S128x1 .f32) (y5 y6 : Vec F S1x1 .f32) (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
        ∗ owns (c : Thread nD τ) a6 fullShare y5 ∗ owns (c : Thread nD τ) a7 fullShare y6
        ∗ (∃ d, owns (c : Thread nD τ) a8 fullShare d) ∗ (∃ d, owns (c : Thread nD τ) a9 fullShare d)
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
            ∗ owns (c : Thread nD τ) a6 fullShare y5 ∗ owns (c : Thread nD τ) a7 fullShare y6
            ∗ owns (c : Thread nD τ) a8 fullShare (k0_pay2 (k0_pay6 x2 x3) (k0_pay7 x0 x1 x2 x3) (k0_pay8 i) x4 (k0_pay4 (F := F)))
            ∗ owns (c : Thread nD τ) a9 fullShare (k0_pay3 x4 (k0_pay5 (F := F)))) -∗ K ⟨⟩))
      ⊢ wp frame (wpE (defs₀ (F := F)) Variants.none c none) E (cc0_kernel i a1 h1 a2 h2 a3 h3 a4 h4 a5 h5 a6 h6 a7 h7 a8 h8 a9 h9) K := by
  simp only [cc0_kernel_eq_skeleton]; unfold cc0_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc1 | exact hc2)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    (try sl_unfold_words)
    rw [read_writes_cons_unit _ _ hz]
    simp only [View.readAt_eq_ld, h1.read_unread, h2.read_unread, h3.read_unread, h4.read_unread, h5.read_unread,
      h8.read_unread, h9.read_unread, View.ld_unit_zero (S := S128x256) hz, View.ld_unit_zero (S := S8192x256) hz,
      View.ld_unit_zero (S := S128x1) hz, View.ld_unit_zero (S := S1x8192) hz, View.ld_unit_zero (S := S1x1) hz, View.readCov_unit_zero (S := S1x1) _ hz]
  · iexists _; isplitr
    swap; · iexact H9
    ipureintro
    (try sl_unfold_words)
    rw [read_writes_cons_unit _ _ hz]
    simp only [View.readAt_eq_ld, h1.read_unread, h2.read_unread, h3.read_unread, h4.read_unread, h5.read_unread,
      h8.read_unread, h9.read_unread, View.ld_unit_zero (S := S128x256) hz, View.ld_unit_zero (S := S8192x256) hz,
      View.ld_unit_zero (S := S128x1) hz, View.ld_unit_zero (S := S1x8192) hz, View.ld_unit_zero (S := S1x1) hz, View.readCov_unit_zero (S := S1x1) _ hz]

/-- A middle point: neither conditional taken. The cells come at `s0`, `s1` and end at the payloads over them; the
    outputs are not touched. -/
theorem runB (c : Dev nD) (i : grid0.Coords)
    (a1 : Memref sig .tc .vmem S128x256 .bf16) (h1 : a1.IsWhole) (a2 : Memref sig .tc .vmem S8192x256 .bf16) (h2 : a2.IsWhole)
    (a3 : Memref sig .tc .vmem S128x1 .i32) (h3 : a3.IsWhole) (a4 : Memref sig .tc .vmem S1x8192 .i32) (h4 : a4.IsWhole)
    (a5 : Memref sig .tc .vmem S128x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (a9 : Memref sig .tc .vmem S1x1 .f32) (h9 : a9.IsWhole)
    (hc1 : ¬cond1 i) (hc2 : ¬k0_cond2 i = 1#1)
    (x0 : Vec F S128x256 .bf16) (x1 : Vec F S8192x256 .bf16) (x2 : Vec F S128x1 .i32) (x3 : Vec F S1x8192 .i32)
    (x4 : Vec F S128x1 .f32) (y5 y6 s0 s1 : Vec F S1x1 .f32) (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
        ∗ owns (c : Thread nD τ) a6 fullShare y5 ∗ owns (c : Thread nD τ) a7 fullShare y6
        ∗ owns (c : Thread nD τ) a8 fullShare s0 ∗ owns (c : Thread nD τ) a9 fullShare s1
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
            ∗ owns (c : Thread nD τ) a6 fullShare y5 ∗ owns (c : Thread nD τ) a7 fullShare y6
            ∗ owns (c : Thread nD τ) a8 fullShare (k0_pay2 (k0_pay6 x2 x3) (k0_pay7 x0 x1 x2 x3) (k0_pay8 i) x4 s0)
            ∗ owns (c : Thread nD τ) a9 fullShare (k0_pay3 x4 s1)) -∗ K ⟨⟩))
      ⊢ wp frame (wpE (defs₀ (F := F)) Variants.none c none) E (cc0_kernel i a1 h1 a2 h2 a3 h3 a4 h4 a5 h5 a6 h6 a7 h7 a8 h8 a9 h9) K := by
  simp only [cc0_kernel_eq_skeleton]; unfold cc0_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h7.eq_unread hf7; obtain rfl := h8.eq_unread hf8
  obtain rfl := h9.eq_unread hf9
  sl_exec (disch := first | exact hc1 | exact hc2)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    rw [read_writes_cons_unit _ _ hz]
    simp only [View.readAt_eq_ld, h1.read_unread, h2.read_unread, h3.read_unread, h4.read_unread, h5.read_unread,
      h8.read_unread, h9.read_unread, View.ld_unit_zero (S := S128x256) hz, View.ld_unit_zero (S := S8192x256) hz,
      View.ld_unit_zero (S := S128x1) hz, View.ld_unit_zero (S := S1x8192) hz, View.ld_unit_zero (S := S1x1) hz]
  iexists _; isplitr
  swap; · iexact H9
  ipureintro
  rw [read_writes_cons_unit _ _ hz]
  simp only [View.readAt_eq_ld, h1.read_unread, h2.read_unread, h3.read_unread, h4.read_unread, h5.read_unread,
      h8.read_unread, h9.read_unread, View.ld_unit_zero (S := S128x256) hz, View.ld_unit_zero (S := S8192x256) hz,
      View.ld_unit_zero (S := S128x1) hz, View.ld_unit_zero (S := S1x8192) hz, View.ld_unit_zero (S := S1x1) hz]

/-- The last point: the second conditional taken, the first not. The cells as at a middle point; then each output's
    buffer, come at anything, is stored whole with its cell's new contents. -/
theorem runC (c : Dev nD) (i : grid0.Coords)
    (a1 : Memref sig .tc .vmem S128x256 .bf16) (h1 : a1.IsWhole) (a2 : Memref sig .tc .vmem S8192x256 .bf16) (h2 : a2.IsWhole)
    (a3 : Memref sig .tc .vmem S128x1 .i32) (h3 : a3.IsWhole) (a4 : Memref sig .tc .vmem S1x8192 .i32) (h4 : a4.IsWhole)
    (a5 : Memref sig .tc .vmem S128x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (a9 : Memref sig .tc .vmem S1x1 .f32) (h9 : a9.IsWhole)
    (hc1 : ¬cond1 i) (hc2 : k0_cond2 i = 1#1)
    (x0 : Vec F S128x256 .bf16) (x1 : Vec F S8192x256 .bf16) (x2 : Vec F S128x1 .i32) (x3 : Vec F S1x8192 .i32)
    (x4 : Vec F S128x1 .f32) (s0 s1 : Vec F S1x1 .f32) (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
        ∗ (∃ d, owns (c : Thread nD τ) a6 fullShare d) ∗ (∃ d, owns (c : Thread nD τ) a7 fullShare d)
        ∗ owns (c : Thread nD τ) a8 fullShare s0 ∗ owns (c : Thread nD τ) a9 fullShare s1
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
            ∗ owns (c : Thread nD τ) a6 fullShare (k0_pay2 (k0_pay6 x2 x3) (k0_pay7 x0 x1 x2 x3) (k0_pay8 i) x4 s0)
            ∗ owns (c : Thread nD τ) a7 fullShare (k0_pay3 x4 s1)
            ∗ owns (c : Thread nD τ) a8 fullShare (k0_pay2 (k0_pay6 x2 x3) (k0_pay7 x0 x1 x2 x3) (k0_pay8 i) x4 s0)
            ∗ owns (c : Thread nD τ) a9 fullShare (k0_pay3 x4 s1)) -∗ K ⟨⟩))
      ⊢ wp frame (wpE (defs₀ (F := F)) Variants.none c none) E (cc0_kernel i a1 h1 a2 h2 a3 h3 a4 h4 a5 h5 a6 h6 a7 h7 a8 h8 a9 h9) K := by
  simp only [cc0_kernel_eq_skeleton]; unfold cc0_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := h1.eq_unread hf1; obtain rfl := h2.eq_unread hf2; obtain rfl := h3.eq_unread hf3; obtain rfl := h4.eq_unread hf4
  obtain rfl := h5.eq_unread hf5; obtain rfl := h8.eq_unread hf8; obtain rfl := h9.eq_unread hf9
  sl_exec (disch := first | exact hc1 | exact hc2)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    (try sl_unfold_words)
    rw [read_writes_cons_unit _ _ hz]
    simp only [View.readAt_eq_ld, h1.read_unread, h2.read_unread, h3.read_unread, h4.read_unread, h5.read_unread,
      h8.read_unread, h9.read_unread, View.ld_unit_zero (S := S128x256) hz, View.ld_unit_zero (S := S8192x256) hz,
      View.ld_unit_zero (S := S128x1) hz, View.ld_unit_zero (S := S1x8192) hz, View.ld_unit_zero (S := S1x1) hz, View.readCov_unit_zero (S := S1x1) _ hz]
  isplitl [H7]
  · iexists _; isplitr
    swap; · iexact H7
    ipureintro
    (try sl_unfold_words)
    rw [read_writes_cons_unit _ _ hz]
    simp only [View.readAt_eq_ld, h1.read_unread, h2.read_unread, h3.read_unread, h4.read_unread, h5.read_unread,
      h8.read_unread, h9.read_unread, View.ld_unit_zero (S := S128x256) hz, View.ld_unit_zero (S := S8192x256) hz,
      View.ld_unit_zero (S := S128x1) hz, View.ld_unit_zero (S := S1x8192) hz, View.ld_unit_zero (S := S1x1) hz, View.readCov_unit_zero (S := S1x1) _ hz]
  isplitl [H8]
  · iexists _; isplitr
    swap; · iexact H8
    ipureintro
    (try sl_unfold_words)
    rw [read_writes_cons_unit _ _ hz]
    simp only [View.readAt_eq_ld, h1.read_unread, h2.read_unread, h3.read_unread, h4.read_unread, h5.read_unread,
      h8.read_unread, h9.read_unread, View.ld_unit_zero (S := S128x256) hz, View.ld_unit_zero (S := S8192x256) hz,
      View.ld_unit_zero (S := S128x1) hz, View.ld_unit_zero (S := S1x8192) hz, View.ld_unit_zero (S := S1x1) hz, View.readCov_unit_zero (S := S1x1) _ hz]
  · iexists _; isplitr
    swap; · iexact H9
    ipureintro
    (try sl_unfold_words)
    rw [read_writes_cons_unit _ _ hz]
    simp only [View.readAt_eq_ld, h1.read_unread, h2.read_unread, h3.read_unread, h4.read_unread, h5.read_unread,
      h8.read_unread, h9.read_unread, View.ld_unit_zero (S := S128x256) hz, View.ld_unit_zero (S := S8192x256) hz,
      View.ld_unit_zero (S := S128x1) hz, View.ld_unit_zero (S := S1x8192) hz, View.ld_unit_zero (S := S1x1) hz, View.readCov_unit_zero (S := S1x1) _ hz]

/-! ## The sums at a point, case by case -/

theorem stepAt_fst (c : Dev nD) (t : Fin cfg0.N) (s0 s1 : Vec F S1x1 .f32) :
    (stepAt m c t s0 s1).1 = k0_pay2 (k0_pay6 (iblk m c 2 t) (iblk m c 3 t))
      (k0_pay7 (iblk m c 0 t) (iblk m c 1 t) (iblk m c 2 t) (iblk m c 3 t)) (k0_pay8 (grid0.coords t)) (iblk m c 4 t) s0 := rfl

theorem stepAt_snd (c : Dev nD) (t : Fin cfg0.N) (s0 s1 : Vec F S1x1 .f32) :
    (stepAt m c t s0 s1).2 = k0_pay3 (iblk m c 4 t) s1 := rfl

/-- At the first point the sums start from the zeroed cells. -/
theorem accAt_first (c : Dev nD) (t : Fin cfg0.N) (h : t.val = 0) :
    accAt m c t.val t.isLt = stepAt m c t (k0_pay4 (F := F)) (k0_pay5 (F := F)) := by
  obtain ⟨n, hn⟩ := t
  cases n with
  | zero => exact accAt_zero m c hn
  | succ n => exact absurd h (Nat.succ_ne_zero n)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

set_option maxHeartbeats 1600000 in
/-- The body at any point. The inputs' buffers hold their blocks; the point's position says which of the three control
    cases it is in. At the first point the cells come at anything and leave at the first sums; afterwards they come at
    what the point before left and leave at this point's sums. An output comes back untouched before the last point,
    where it is idle and not written back, and at the last point holds its cell. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [show (dats m 0 c).leavesExact 3 t = owns (c : Thread nD τ) (ms3 t) fullShare ((dats m 0 c).after 3 t) from rfl, after_3]
  rw [show (dats m 0 c).leavesExact 4 t = owns (c : Thread nD τ) (ms4 t) fullShare ((dats m 0 c).after 4 t) from rfl, after_4]
  have hN : t.val < 64 := lt_of_lt_of_eq t.isLt (show cfg0.N = 64 from N_0)
  by_cases h0 : t.val = 0
  · have hc1 : cond1 (grid0.coords t) := (hcond1 t).mpr h0
    have hc2 : ¬k0_cond2 (grid0.coords t) = 1#1 := fun h => by have := (hcond2 t).mp h; omega
    rw [Dat.leavesExact_idle (dats m 0 c) 5 t (idleAt5 t hc2) (noFlush5 t hc2),
      Dat.leavesExact_idle (dats m 0 c) 6 t (idleAt6 t hc2) (noFlush6 t hc2)]
    rw [accAt_first m c t h0, stepAt_fst, stepAt_snd]
    rw [PhiS_castSucc m c t, PhiS_zero m c _ _ h0]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) (ms0 t) (hs0 t) (ms1 t) (hs1 t) (ms2 t) (hs2 t) (ms3 t) (hs3 t) (ms4 t) (hs4 t)
      (ms5 t) (hs5 t) (ms6 t) (hs6 t) cell0 (Memref.isWhole_whole _) cell1 (Memref.isWhole_whole _) hc1 hc2
      (iblk m c 0 t) (iblk m c 1 t) (iblk m c 2 t) (iblk m c 3 t) (iblk m c 4 t)
      ((dats m 0 c).before 5 t d5) ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hc1 : ¬cond1 (grid0.coords t) := fun h => h0 ((hcond1 t).mp h)
    rw [PhiS_castSucc m c t, PhiS_pos m c _ _ h0]
    by_cases h63 : t.val = 63
    · have hc2 : k0_cond2 (grid0.coords t) = 1#1 := (hcond2 t).mpr h63
      rw [show (dats m 0 c).leavesExact 5 t = owns (c : Thread nD τ) (ms5 t) fullShare ((dats m 0 c).after 5 t) from by
        unfold Dat.leavesExact; rw [liveAt5 t hc2], after_5]
      rw [show (dats m 0 c).leavesExact 6 t = owns (c : Thread nD τ) (ms6 t) fullShare ((dats m 0 c).after 6 t) from by
        unfold Dat.leavesExact; rw [liveAt6 t hc2], after_6]
      rw [accAt_pos m c t h0, stepAt_fst, stepAt_snd]
      generalize accAt m c (t.val - 1) _ = s
      iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
      iapply (runC c (grid0.coords t) (ms0 t) (hs0 t) (ms1 t) (hs1 t) (ms2 t) (hs2 t) (ms3 t) (hs3 t) (ms4 t) (hs4 t)
        (ms5 t) (hs5 t) (ms6 t) (hs6 t) cell0 (Memref.isWhole_whole _) cell1 (Memref.isWhole_whole _) hc1 hc2
        (iblk m c 0 t) (iblk m c 1 t) (iblk m c 2 t) (iblk m c 3 t) (iblk m c 4 t) s.1 s.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬k0_cond2 (grid0.coords t) = 1#1 := fun h => h63 ((hcond2 t).mp h)
      rw [Dat.leavesExact_idle (dats m 0 c) 5 t (idleAt5 t hc2) (noFlush5 t hc2),
        Dat.leavesExact_idle (dats m 0 c) 6 t (idleAt6 t hc2) (noFlush6 t hc2)]
      rw [accAt_pos m c t h0, stepAt_fst, stepAt_snd]
      generalize accAt m c (t.val - 1) _ = s
      iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) (ms0 t) (hs0 t) (ms1 t) (hs1 t) (ms2 t) (hs2 t) (ms3 t) (hs3 t) (ms4 t) (hs4 t)
        (ms5 t) (hs5 t) (ms6 t) (hs6 t) cell0 (Memref.isWhole_whole _) cell1 (Memref.isWhole_whole _) hc1 hc2
        (iblk m c 0 t) (iblk m c 1 t) (iblk m c 2 t) (iblk m c 3 t) (iblk m c 4 t)
        ((dats m 0 c).before 5 t d5) ((dats m 0 c).before 6 t d6) s.1 s.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealRun.Share.lean ====
/-
  The pipeline's two output arrays at the region's exit: each is one word, its one block the whole array, written back
  at the last point only, so it ends holding the carried sum of that point.
-/
import proofs.«413265_j2430951490101_1_alg».proof.Proof.IdealRun.Acc
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Both output windows' block index is zero at every point: the offsets of their one block vanish. -/
theorem off5_zero (t : Fin cfg0.N) : (fun a => win0_5.index t a * main_v33_0.ty.shape.size a) = fun _ => 0 :=
  funext fun a => by fin_cases a <;> rfl

theorem off6_zero (t : Fin cfg0.N) : (fun a => win0_6.index t a * main_v33_1.ty.shape.size a) = fun _ => 0 :=
  funext fun a => by fin_cases a <;> rfl

/-- The one write-back of the first output, at point 63, writes the first carried sum: the block read through zero
    offsets is the array. -/
theorem flushed5_eq (c : Dev nD) (t : Fin cfg0.N) (hf : (cfg0.win 5).flush t = true) :
    (dats m 0 c).flushed 5 t = ((cfg0.win 5).blk t).view.read (Elt F) (accAt m c 63 lastPt).1 := by
  have hN : cfg0.N = 64 := N_0
  have h63 : t.val = 63 := by have := (flush0_5 t).mp hf; have := t.isLt; omega
  obtain rfl : t = ⟨63, lastPt⟩ := Fin.ext h63
  show (cfg0.win 5).cut (grid0.coords ⟨63, lastPt⟩) ((dats m 0 c).after 5 ⟨63, lastPt⟩) = _
  rw [after_5]
  exact (Memref.read_access_unit_zero (Elt F) main_v33_0 (off5_zero _)
    (fun a => by rw [congrFun (off5_zero _) a]; simp) _).symm

/-- The first output array after the run: the first carried sum after point 63. -/
theorem arrAt_out5 (c : Dev nD) : (dats m 0 c).arrAt 5 cfg0.N = (accAt m c 63 lastPt).1 :=
  (dats m 0 c).arrAt_eq_of_cover 5 _ (flushed5_eq m c) fun i =>
    ⟨⟨63, lastPt⟩, (flush0_5 _).mpr rfl, by
      show i ∈ ((View.whole main_v33_0).slice (win0_5.rect ⟨63, lastPt⟩)).set
      rw [View.set_slice_whole]
      exact View.mem_set_unit_zero (off5_zero _) _ i⟩

/-- The one write-back of the second output, at point 63, writes the second carried sum. -/
theorem flushed6_eq (c : Dev nD) (t : Fin cfg0.N) (hf : (cfg0.win 6).flush t = true) :
    (dats m 0 c).flushed 6 t = ((cfg0.win 6).blk t).view.read (Elt F) (accAt m c 63 lastPt).2 := by
  have hN : cfg0.N = 64 := N_0
  have h63 : t.val = 63 := by have := (flush0_6 t).mp hf; have := t.isLt; omega
  obtain rfl : t = ⟨63, lastPt⟩ := Fin.ext h63
  show (cfg0.win 6).cut (grid0.coords ⟨63, lastPt⟩) ((dats m 0 c).after 6 ⟨63, lastPt⟩) = _
  rw [after_6]
  exact (Memref.read_access_unit_zero (Elt F) main_v33_1 (off6_zero _)
    (fun a => by rw [congrFun (off6_zero _) a]; simp) _).symm

/-- The second output array after the run: the second carried sum after point 63. -/
theorem arrAt_out6 (c : Dev nD) : (dats m 0 c).arrAt 6 cfg0.N = (accAt m c 63 lastPt).2 :=
  (dats m 0 c).arrAt_eq_of_cover 6 _ (flushed6_eq m c) fun i =>
    ⟨⟨63, lastPt⟩, (flush0_6 _).mpr rfl, by
      show i ∈ ((View.whole main_v33_1).slice (win0_6.rect ⟨63, lastPt⟩)).set
      rw [View.set_slice_whole]
      exact View.mem_set_unit_zero (off6_zero _) _ i⟩

end Cert.KernelIdeal.Hand

end
-- ==== Proof.IdealRun.Launch.lean ====
/-
  The whole run of the kernel program: the 38 host operations, the pipelined region over its 64 points, the five host
  operations after it. It terminates without a fault, leaves the four arguments as they were, and leaves in the result
  the fixed multiple of the quotient of the two carried sums after the last point.
-/
import proofs.«413265_j2430951490101_1_alg».proof.Proof.IdealRun.Obligation
import proofs.«413265_j2430951490101_1_alg».proof.Proof.IdealRun.Share

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor

/-- @main reduces to the region continued by the five later operations, at the contents after the 38 earlier ones. -/
theorem hmain : Pipeline.HMainK (Ix := Unit) (Name := ℕ) (U := UR sig nD τ) (Lvl := ℕ) cfgs 0 defs₀ Variants.none m (main (F := F)) (V m)
      (fun _ => Pipeline.chain [StableHlo.seq hostOps1]) := by
  have h := Pipeline.hmain_around (Ix := Unit) (Name := ℕ) (U := UR sig nD τ) (Lvl := ℕ) cfgs 0 defs₀ Variants.none m (main (F := F)) [hostOps0] [hostOps1]
    hostOps0_sub hostOps0_fresh main_chain
  simp only [List.flatten_cons, List.flatten_nil, List.append_nil] at h
  exact h

/-! ## The arguments reach the region, and the end, as launched -/

theorem V_arg0 (c : Dev nD) : V m c main_arg0 = m ((c.tc : Thread nD τ).loc main_arg0) := by
  show StableHlo.after hostOps0 (fun b => m (c, b)) (Proc.devRef .tc main_arg0) = _
  after_results
theorem V_arg1 (c : Dev nD) : V m c main_arg1 = m ((c.tc : Thread nD τ).loc main_arg1) := by
  show StableHlo.after hostOps0 (fun b => m (c, b)) (Proc.devRef .tc main_arg1) = _
  after_results
theorem V_arg2 (c : Dev nD) : V m c main_arg2 = m ((c.tc : Thread nD τ).loc main_arg2) := by
  show StableHlo.after hostOps0 (fun b => m (c, b)) (Proc.devRef .tc main_arg2) = _
  after_results
theorem V_arg3 (c : Dev nD) : V m c main_arg3 = m ((c.tc : Thread nD τ).loc main_arg3) := by
  show StableHlo.after hostOps0 (fun b => m (c, b)) (Proc.devRef .tc main_arg3) = _
  after_results

/-! ## The windows' arrays at entry -/

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl

/-- The six buffers behind the seven windows, each whole at the full share, make the windows' arrays at entry: the
    array the first two windows share is split into its two halves, every other buffer goes to its one window. -/
theorem arrs_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, bigSep_eq_bigSepL_of_eq [main_v20, main_v30, main_v31, main_v32, main_v33_0, main_v33_1] (by decide) (by decide)]
  simp only [bigSepL_cons_cons, bigSepL_singleton, View.set_whole, share_0, share_1, share_2, share_3, share_4, share_5, share_6, Dat.arrAt, A_eq]
  refine (show iprop((((c.tc : Thread nD τ).loc main_v20) ↦{fullShare} V m c main_v20) ∗ (((c.tc : Thread nD τ).loc main_v30) ↦{fullShare} V m c main_v30)
      ∗ (((c.tc : Thread nD τ).loc main_v31) ↦{fullShare} V m c main_v31) ∗ (((c.tc : Thread nD τ).loc main_v32) ↦{fullShare} V m c main_v32)
      ∗ (((c.tc : Thread nD τ).loc main_v33_0) ↦{fullShare} V m c main_v33_0) ∗ (((c.tc : Thread nD τ).loc main_v33_1) ↦{fullShare} V m c main_v33_1)) ⊢ _ from ?_)
  iintro ⟨H0, H2, H3, H4, H5, H6⟩
  ihave H01 := (pointsTo_share (PosShare.mem_left_op_right fullShare)).1 $$ H0
  icases H01 with ⟨H0, H1⟩
  isplitl [H0]; · iexact H0
  isplitl [H1]; · iexact H1
  isplitl [H2]; · iexact H2
  isplitl [H3]; · iexact H3
  isplitl [H4]; · iexact H4
  isplitl [H5]; · iexact H5
  iexact H6

/-! ## The five operations after the region -/

/-- The buffers the five later operations touch: the two outputs, and five buffers that bypass the region. -/
abbrev tailList : List (Ref sig .tc) := [main_v33_0, main_v33_1, main_v34, main_v35, main_v36, main_cst, main_v37]
def tailSet : Finset (DevRef τ sig) := tailList.toFinset.map ⟨Proc.devRef (sig := sig) .tc, Proc.devRef_injective _⟩

theorem mem_tailSet {b : Ref sig .tc} (h : b ∈ tailList) : Proc.devRef (τ := τ) .tc b ∈ tailSet :=
  Finset.mem_map_of_mem _ (List.mem_toFinset.mpr h)

/-- Held at a valuation, they are seven points-tos. -/
theorem held_tail (c : Dev nD) (Wv : Valuation τ sig (Elt F)) :
    (StableHlo.held (c.tc : Thread nD τ) tailSet Wv : sProp 𝕄)
      = bigSepL tailList fun b => (((c.tc : Thread nD τ).loc b) ↦{fullShare} Wv (Proc.devRef .tc b) : sProp 𝕄) := by
  unfold StableHlo.held tailSet
  rw [bigSep_map, bigSep_eq_bigSepL tailList (by decide)]
  rfl

theorem hostOps1_fresh : (hostOps1 : List (HloOp τ sig (Elt F))).Forall fun op => op.fresh = ∅ := by
  simp only [List.Forall]; repeat' constructor

theorem hostOps1_tail : ∀ op ∈ (hostOps1 : List (HloOp τ sig (Elt F))), op.bufs ⊆ tailSet := by
  intro op hop
  simp only [List.mem_cons, List.mem_nil_iff, or_false] at hop
  rcases hop with rfl | rfl | rfl | rfl | rfl <;>
    simp only [StableHlo.reshape_bufs, StableHlo.binary_bufs, StableHlo.nullary_bufs, Finset.insert_subset_iff, Finset.singleton_subset_iff] <;>
    repeat' constructor
  all_goals exact mem_tailSet (by decide)

/-- The buffers at the region's exit, as far as the later operations read them: the two outputs at what the last
    point wrote back, everything else as the region found it. -/
def Wx (c : Dev nD) : Valuation τ sig (Elt F) :=
  Function.update (Function.update (V0 m c) (Proc.devRef .tc main_v33_0) ((dats m 0 c).arrAt 5 cfg0.N))
    (Proc.devRef .tc main_v33_1) ((dats m 0 c).arrAt 6 cfg0.N)

theorem Wx_5 (c : Dev nD) : Wx m c (Proc.devRef .tc main_v33_0) = (dats m 0 c).arrAt 5 cfg0.N := by
  unfold Wx
  rw [Function.update_of_ne (StableHlo.devRef_ne_of_ne (by decide)), Function.update_self]

theorem Wx_6 (c : Dev nD) : Wx m c (Proc.devRef .tc main_v33_1) = (dats m 0 c).arrAt 6 cfg0.N := by
  unfold Wx
  rw [Function.update_self]

theorem Wx_of_ne (c : Dev nD) (b : Ref sig .tc) (h5 : b ≠ main_v33_0) (h6 : b ≠ main_v33_1) : Wx m c (Proc.devRef .tc b) = V m c b := by
  unfold Wx
  rw [Function.update_of_ne (StableHlo.devRef_ne_of_ne h6), Function.update_of_ne (StableHlo.devRef_ne_of_ne h5)]

theorem after1_5 (Wv : Valuation τ sig (Elt F)) : StableHlo.after hostOps1 Wv (Proc.devRef .tc main_v33_0) = Wv (Proc.devRef .tc main_v33_0) := by
  after_results

theorem after1_6 (Wv : Valuation τ sig (Elt F)) : StableHlo.after hostOps1 Wv (Proc.devRef .tc main_v33_1) = Wv (Proc.devRef .tc main_v33_1) := by
  after_results

theorem after1_37 (Wv : Valuation τ sig (Elt F)) : StableHlo.after hostOps1 Wv (Proc.devRef .tc main_v37)
    = lossOf (Wv (Proc.devRef .tc main_v33_0)) (Wv (Proc.devRef .tc main_v33_1)) := by
  after_results
  rfl

/-- The five bypassing buffers the later operations write. -/
abbrev tail5 : List (Ref sig .tc) := [main_v34, main_v35, main_v36, main_cst, main_v37]

theorem bigSep_tail5 {M : Type} [URA M] (Φ : Ref sig .tc → sProp M) :
    bigSep tail5.toFinset Φ = iprop(Φ main_v34 ∗ Φ main_v35 ∗ Φ main_v36 ∗ Φ main_cst ∗ Φ main_v37) :=
  bigSep_eq_bigSepL tail5 (by decide) Φ

theorem bigSepL_tailList {M : Type} [URA M] (Φ : Ref sig .tc → sProp M) :
    bigSepL tailList Φ = iprop(Φ main_v33_0 ∗ Φ main_v33_1 ∗ Φ main_v34 ∗ Φ main_v35 ∗ Φ main_v36 ∗ Φ main_cst ∗ Φ main_v37) := rfl

/-- The bypassing buffers the later operations leave alone: the four arguments among them. -/
def restSet : Finset (Ref sig .tc) :=
  ((Finset.univ.filter fun b : Ref sig .tc => ¬ b.isScoped) \ Finset.univ.image (Pipeline.arrRef spec0)) \ tail5.toFinset

theorem tail5_sub : tail5.toFinset ⊆ ((Finset.univ.filter fun b : Ref sig .tc => ¬ b.isScoped) \ Finset.univ.image (Pipeline.arrRef spec0)) := by
  decide

/-- The bypassing buffers are those five and the rest. -/
theorem rest_split (c : Dev nD) :
    (Pipeline.unscopedRest (Ix := Unit) (Name := ℕ) (U := UR sig nD τ) (Lvl := ℕ) spec0 c (V m c) : sProp 𝕄)
      = iprop(((((c.tc : Thread nD τ).loc main_v34) ↦{fullShare} V m c main_v34) ∗ (((c.tc : Thread nD τ).loc main_v35) ↦{fullShare} V m c main_v35)
          ∗ (((c.tc : Thread nD τ).loc main_v36) ↦{fullShare} V m c main_v36) ∗ (((c.tc : Thread nD τ).loc main_cst) ↦{fullShare} V m c main_cst)
          ∗ (((c.tc : Thread nD τ).loc main_v37) ↦{fullShare} V m c main_v37))
        ∗ bigSep restSet fun b => (((c.tc : Thread nD τ).loc b) ↦{fullShare} V m c b : sProp 𝕄)) := by
  unfold Pipeline.unscopedRest restSet
  rw [bigSep_sdiff_split tail5_sub, bigSep_tail5]
  rfl

/-- The windows' arrays at the region's exit, one by one. -/
theorem arrays_exit (c : Dev nD) :
    ((dats m 0 c).arrays ((dats m 0 c).arrAt · cfg0.N) : sProp 𝕄)
      = iprop((((c.tc : Thread nD τ).loc main_v20) ↦{fullShare.left} (dats m 0 c).arrAt 0 cfg0.N)
          ∗ (((c.tc : Thread nD τ).loc main_v20) ↦{fullShare.right} (dats m 0 c).arrAt 1 cfg0.N)
          ∗ (((c.tc : Thread nD τ).loc main_v30) ↦{fullShare} (dats m 0 c).arrAt 2 cfg0.N)
          ∗ (((c.tc : Thread nD τ).loc main_v31) ↦{fullShare} (dats m 0 c).arrAt 3 cfg0.N)
          ∗ (((c.tc : Thread nD τ).loc main_v32) ↦{fullShare} (dats m 0 c).arrAt 4 cfg0.N)
          ∗ (((c.tc : Thread nD τ).loc main_v33_0) ↦{fullShare} (dats m 0 c).arrAt 5 cfg0.N)
          ∗ (((c.tc : Thread nD τ).loc main_v33_1) ↦{fullShare} (dats m 0 c).arrAt 6 cfg0.N)) := by
  unfold Dat.arrays
  rw [bigSep_W0]
  simp only [View.set_whole, share_0, share_1, share_2, share_3, share_4, share_5, share_6]

/-- What the later operations run within, at the region's exit. -/
theorem held_entry (c : Dev nD) :
    (StableHlo.held (c.tc : Thread nD τ) tailSet (Wx m c) : sProp 𝕄)
      = iprop((((c.tc : Thread nD τ).loc main_v33_0) ↦{fullShare} (dats m 0 c).arrAt 5 cfg0.N)
          ∗ (((c.tc : Thread nD τ).loc main_v33_1) ↦{fullShare} (dats m 0 c).arrAt 6 cfg0.N)
          ∗ (((c.tc : Thread nD τ).loc main_v34) ↦{fullShare} V m c main_v34) ∗ (((c.tc : Thread nD τ).loc main_v35) ↦{fullShare} V m c main_v35)
          ∗ (((c.tc : Thread nD τ).loc main_v36) ↦{fullShare} V m c main_v36) ∗ (((c.tc : Thread nD τ).loc main_cst) ↦{fullShare} V m c main_cst)
          ∗ (((c.tc : Thread nD τ).loc main_v37) ↦{fullShare} V m c main_v37)) := by
  rw [held_tail, bigSepL_tailList, Wx_5, Wx_6, Wx_of_ne m c main_v34 (by decide) (by decide), Wx_of_ne m c main_v35 (by decide) (by decide),
    Wx_of_ne m c main_v36 (by decide) (by decide), Wx_of_ne m c main_cst (by decide) (by decide), Wx_of_ne m c main_v37 (by decide) (by decide)]

/-- And after them: the two outputs as they were, the five written buffers at the operations' results. -/
theorem held_exit (c : Dev nD) :
    (StableHlo.held (c.tc : Thread nD τ) tailSet (StableHlo.after hostOps1 (Wx m c)) : sProp 𝕄)
      = iprop((((c.tc : Thread nD τ).loc main_v33_0) ↦{fullShare} (dats m 0 c).arrAt 5 cfg0.N)
          ∗ (((c.tc : Thread nD τ).loc main_v33_1) ↦{fullShare} (dats m 0 c).arrAt 6 cfg0.N)
          ∗ (((c.tc : Thread nD τ).loc main_v34) ↦{fullShare} StableHlo.after hostOps1 (Wx m c) (Proc.devRef .tc main_v34))
          ∗ (((c.tc : Thread nD τ).loc main_v35) ↦{fullShare} StableHlo.after hostOps1 (Wx m c) (Proc.devRef .tc main_v35))
          ∗ (((c.tc : Thread nD τ).loc main_v36) ↦{fullShare} StableHlo.after hostOps1 (Wx m c) (Proc.devRef .tc main_v36))
          ∗ (((c.tc : Thread nD τ).loc main_cst) ↦{fullShare} StableHlo.after hostOps1 (Wx m c) (Proc.devRef .tc main_cst))
          ∗ (((c.tc : Thread nD τ).loc main_v37) ↦{fullShare} StableHlo.after hostOps1 (Wx m c) (Proc.devRef .tc main_v37))) := by
  rw [held_tail, bigSepL_tailList, after1_5, after1_6, Wx_5, Wx_6]

/-- What the later operations leave of the bypassing buffers. -/
def Zafter (c : Dev nD) : sProp 𝕄 :=
  iprop((bigSep restSet fun b => (((c.tc : Thread nD τ).loc b) ↦{fullShare} V m c b : sProp 𝕄))
    ∗ (((c.tc : Thread nD τ).loc main_v34) ↦{fullShare} StableHlo.after hostOps1 (Wx m c) (Proc.devRef .tc main_v34))
    ∗ (((c.tc : Thread nD τ).loc main_v35) ↦{fullShare} StableHlo.after hostOps1 (Wx m c) (Proc.devRef .tc main_v35))
    ∗ (((c.tc : Thread nD τ).loc main_v36) ↦{fullShare} StableHlo.after hostOps1 (Wx m c) (Proc.devRef .tc main_v36))
    ∗ (((c.tc : Thread nD τ).loc main_cst) ↦{fullShare} StableHlo.after hostOps1 (Wx m c) (Proc.devRef .tc main_cst))
    ∗ (((c.tc : Thread nD τ).loc main_v37) ↦{fullShare} StableHlo.after hostOps1 (Wx m c) (Proc.devRef .tc main_v37)))

set_option backward.isDefEq.respectTransparency.types false in
/-- From the region's exit the five later operations run within the two outputs and the five buffers they write; the
    input arrays, at their shares, and every other bypassing buffer are not touched. -/
theorem tail_run (c : Dev nD) (Q' : PUnit → sProp 𝕄) :
    iprop((iprop((dats m 0 c).arrays ((dats m 0 c).arrAt · cfg0.N) ∗ Zafter m c) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (pcfgs (F := F)) defs₀) (Variants.lift Variants.none) (c.tc : Thread nD τ) none) Set.univ
          (Pipeline.chain [StableHlo.seq hostOps1]) Q' := by
  rw [arrays_exit, rest_split, Zafter,
    show (Pipeline.chain [StableHlo.seq hostOps1] : Prog (TpuEff nD τ sig (Elt F) (Pipeline.Sig Λ₀ (Fin 1) fun p => (pcfgs (F := F) p).Adm) .tc) PUnit)
      = Pipeline.chain (([hostOps1] : List (List (HloOp τ sig (Elt F)))).map StableHlo.seq ++ []) from rfl]
  iintro ⟨Hk, Hb, ⟨A0, A1, A2, A3, A4, A5, A6⟩, ⟨Z34, Z35, Z36, Zc, Z37⟩, HR⟩
  ihave Hh := (Entails.of_eq (held_entry m c).symm) $$ [A5 A6 Z34 Z35 Z36 Zc Z37]
  · isplitl [A5]; · iexact A5
    isplitl [A6]; · iexact A6
    isplitl [Z34]; · iexact Z34
    isplitl [Z35]; · iexact Z35
    isplitl [Z36]; · iexact Z36
    isplitl [Zc]; · iexact Zc
    iexact Z37
  iapply (Pipeline.wp_seqs_then (pcfgs (F := F)) defs₀ Variants.none c tailSet [] [hostOps1]
    (fun ops ho op h => by
      simp only [List.mem_cons, List.mem_nil_iff, or_false] at ho
      subst ho
      exact hostOps1_tail op h)
    (fun ops ho op h => by
      simp only [List.mem_cons, List.mem_nil_iff, or_false] at ho
      subst ho
      exact (List.forall_iff_forall_mem.mp hostOps1_fresh) op h)
    (Wx m c)) $$ [Hb Hh]
  · isplitl [Hb] <;> iassumption
  iintro ⟨Hb, Hh⟩
  rw [Pipeline.chain_nil, wp_pure]
  simp only [List.flatten_cons, List.flatten_nil, List.append_nil]
  ihave Hh' := (Entails.of_eq (held_exit m c)) $$ Hh
  icases Hh' with ⟨A5, A6, Z34, Z35, Z36, Zc, Z37⟩
  imodintro
  iapply Hk
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    iexact A6
  isplitl [HR]; · iexact HR
  isplitl [Z34]; · iexact Z34
  isplitl [Z35]; · iexact Z35
  isplitl [Z36]; · iexact Z36
  isplitl [Zc]; · iexact Zc
  iexact Z37

/-! ## The invariant at the region's two ends -/

/-- At entry the two cells hold anything: the scoped buffers that are no staging buffer. -/
theorem phi_in (c : Dev nD) (A B : sProp 𝕄) :
    iprop(A ∗ B ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl, ← scopedRest_cells]
  iintro ⟨-, -, HR⟩; iexact HR

/-- After the last point the cells hold the carried sums; forgetting which, they are the scoped rest again. -/
theorem phi_out (c : Dev nD) :
    (dats m 0 c).Φ (Fin.last cfg0.N)
      ⊢ iprop((emp : sProp 𝕄) ∗ Pipeline.scopedRest (Ix := Unit) (Name := ℕ) (U := UR sig nD τ) (Lvl := ℕ) (Val := Elt F) spec0 c) := by
  rw [show (dats m 0 c).Φ (Fin.last cfg0.N) = PhiS m c cfg0.N (le_refl _) from rfl,
    PhiS_pos m c cfg0.N _ (by rw [show cfg0.N = 64 from N_0]; decide), scopedRest_cells]
  iintro ⟨H0, H1⟩
  isplitr; · iempintro
  isplitl [H0]; · iexists _; iexact H0
  iexists _; iexact H1

theorem rest_X (c : Dev nD) :
    (Pipeline.unscopedRest (Ix := Unit) (Name := ℕ) (U := UR sig nD τ) (Lvl := ℕ) spec0 c (V m c) : sProp 𝕄)
      ⊢ iprop((emp : sProp 𝕄) ∗ Pipeline.unscopedRest (Ix := Unit) (Name := ℕ) (U := UR sig nD τ) (Lvl := ℕ) spec0 c (V m c)) := by
  iintro H; isplitr; · iempintro
  iexact H

/-! ## The final state -/

/-- What is read off the final state: the result buffer at the operations' value, every untouched bypassing buffer as
    the region found it. -/
def QYp (c : Dev nD) (s : MemSt nD τ sig (Elt F)) : Prop :=
  s.mem ((c.tc : Thread nD τ).loc main_v37) = StableHlo.after hostOps1 (Wx m c) (Proc.devRef .tc main_v37)
    ∧ ∀ b ∈ restSet, s.mem ((c.tc : Thread nD τ).loc b) = V m c b

theorem read_end (c : Dev nD) (s' : Phys nD τ sig (Elt F)) :
    iprop((emp : sProp 𝕄) ∗ Zafter m c ∗ SI s') ⊢ |={Set.univ}=> iprop(⌜QYp m c s'.mem⌝ ∗ SI s') := by
  unfold Zafter
  iintro ⟨-, ⟨HR, -, -, -, -, H37⟩, HSI⟩
  icombine HSI H37 gives %h
  ihave Hr := (pointsTo_read_all restSet (fun b => (c.tc : Thread nD τ).loc b) (V m c) s') $$ [HR HSI]
  · isplitl [HR] <;> iassumption
  icases Hr with ⟨%hr, HSI⟩
  imodintro
  isplitr; · ipureintro; exact ⟨Buf.eq_of_forall_mem_univ h, hr⟩
  iexact HSI

/-! ## The run -/

abbrev EP : Emb (UR sig nD τ) 𝕄 := emb₁

/-- The launch's ghost state: the staging cells' rounds, nothing owed. -/
def u₀ : UR sig nD τ := initOf (Pipeline.cells cfgs cellOf_inj) (Pipeline.launchToks cfgs cellOf_inj)

set_option backward.isDefEq.respectTransparency.types false in
/-- From any memory with zero counters every weakly fair execution of @main ends, the result at `lossOf` of the
    carried sums after point 63 and the arguments unchanged. -/
theorem run_main : θ_run defs (onTc (τ := τ) (main (F := F))) ⟨m, fun _ => 0, ρ⟩ (fun r => ∀ c : Dev nD,
      r.2.mem ((c.tc : Thread nD τ).loc main_v37) = lossOf (accAt m c 63 lastPt).1 (accAt m c 63 lastPt).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_noSem_pf_tail (fun p => (cfgs p).toPCfg) (fun p => (cfgs p).toPCfg_adm) (dats m) () cellOf_inj (0 : Fin 1)
    winFacts₀0 (Pipeline.PreFacts.none _) EP defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := u₀) (hu₀ := .rfl)
    (V := V m) (hmain := hmain m)
    (hsplit := arrs_split m)
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := Zafter m)
    (hX := fun c => by rw [Pipeline.unscopedRestP_none]; exact rest_X m c)
    (hin := fun c => phi_in m c _ _)
    (hout := phi_out m)
    (htail := tail_run m)
    (QY := QYp m)
    (hY := read_end m)
    (hQ := fun s h c => by
      obtain ⟨-, -, h37, hr⟩ := h c
      refine ⟨?_, ?_, ?_, ?_, ?_⟩
      · rw [h37, after1_37, Wx_5, Wx_6, arrAt_out5, arrAt_out6]
      · rw [hr main_arg0 (by decide), V_arg0]
      · rw [hr main_arg1 (by decide), V_arg1]
      · rw [hr main_arg2 (by decide), V_arg2]
      · rw [hr main_arg3 (by decide), V_arg3])

end Cert.KernelIdeal.Hand

end
-- ==== Proof.BitsRun.Acc.lean ====
/-
  The two running sums the kernel carries across its 64 grid points, and the data of its pipeline built on them.

  At grid point `t` the body reads five blocks — 128 sample rows, all 8192 sample rows (the same array again), the 128
  rows' labels, all labels, the 128 rows' weights — and adds to two one-word scratch cells: the 128 rows' weighted
  means, and their weights. Point 0 zeroes the cells first; point 63 copies them to the two outputs. `accAt n` is the
  pair of cells after point `n`, by recursion on `n`; the invariant between points holds the cells at `accAt`.
  The row-block window and the all-rows window are views of one array, which they hold at half a share each.
-/
import proofs.«413265_j2430951490101_1_alg».proof.Proof.Gen.Kernel.Launch
import proofs.«413265_j2430951490101_1_alg».proof.Proof.Gen.Kernel.Skeleton
import proofs.«413265_j2430951490101_1_alg».proof.Proof.Gen.Kernel.Points
import Idealize.ShloMosaic.Lib.Pipeline.FrameBody
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffers when the region is entered: the 38 host operations before it have run. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The carried sums -/

/-- What point `t` makes of the two cells `s0`, `s1`: `s0` plus the block's weighted means, `s1` plus its weights. -/
def stepAt (c : Dev nD) (t : Fin cfg0.N) (s0 s1 : Vec F S1x1 .f32) : Vec F S1x1 .f32 × Vec F S1x1 .f32 :=
  (k0_pay2 (k0_pay6 (iblk m c 2 t) (iblk m c 3 t)) (k0_pay7 (iblk m c 0 t) (iblk m c 1 t) (iblk m c 2 t) (iblk m c 3 t))
      (k0_pay8 (grid0.coords t)) (iblk m c 4 t) s0,
   k0_pay3 (iblk m c 4 t) s1)

/-- The two cells after point `n`: from zero at point 0, each later point adding its block. -/
def accAt (c : Dev nD) : (n : ℕ) → n < cfg0.N → Vec F S1x1 .f32 × Vec F S1x1 .f32
  | 0, hn => stepAt m c ⟨0, hn⟩ (k0_pay4 (F := F)) (k0_pay5 (F := F))
  | n + 1, hn => stepAt m c ⟨n + 1, hn⟩ (accAt c n (Nat.lt_of_succ_lt hn)).1 (accAt c n (Nat.lt_of_succ_lt hn)).2

theorem accAt_zero (c : Dev nD) (hn : 0 < cfg0.N) :
    accAt m c 0 hn = stepAt m c ⟨0, hn⟩ (k0_pay4 (F := F)) (k0_pay5 (F := F)) := rfl

theorem accAt_succ (c : Dev nD) (n : ℕ) (hn : n + 1 < cfg0.N) :
    accAt m c (n + 1) hn = stepAt m c ⟨n + 1, hn⟩ (accAt m c n (Nat.lt_of_succ_lt hn)).1 (accAt m c n (Nat.lt_of_succ_lt hn)).2 := rfl

/-- At a point after the first, over what the point before left. -/
theorem accAt_pos (c : Dev nD) (t : Fin cfg0.N) (ht : t.val ≠ 0) :
    accAt m c t.val t.isLt = stepAt m c t (accAt m c (t.val - 1) (Nat.lt_of_le_of_lt (Nat.sub_le _ _) t.isLt)).1
      (accAt m c (t.val - 1) (Nat.lt_of_le_of_lt (Nat.sub_le _ _) t.isLt)).2 := by
  obtain ⟨n, hn⟩ := t
  cases n with
  | zero => exact absurd rfl ht
  | succ n => rfl

/-! ## The scratch cells and the invariant between points -/

/-- The two scratch cells, whole scoped buffers of the kernel's own. -/
abbrev cell0 : Memref sig .tc .vmem S1x1 .f32 := Memref.whole cc0_scratch0
abbrev cell1 : Memref sig .tc .vmem S1x1 .f32 := Memref.whole cc0_scratch1

/-- Before the first point the cells hold anything; before point `n + 1` what point `n` left. -/
def PhiS (c : Dev nD) : (n : ℕ) → n ≤ cfg0.N → sProp 𝕄
  | 0, _ => iprop((∃ d, owns (c : Thread nD τ) cell0 fullShare d) ∗ (∃ d, owns (c : Thread nD τ) cell1 fullShare d))
  | n + 1, hn => iprop(owns (c : Thread nD τ) cell0 fullShare (accAt m c n hn).1 ∗ owns (c : Thread nD τ) cell1 fullShare (accAt m c n hn).2)

theorem PhiS_zero (c : Dev nD) (n : ℕ) (h : n ≤ cfg0.N) (hz : n = 0) :
    PhiS m c n h = iprop((∃ d, owns (c : Thread nD τ) cell0 fullShare d) ∗ (∃ d, owns (c : Thread nD τ) cell1 fullShare d)) := by
  subst hz; rfl

theorem PhiS_succ (c : Dev nD) (n : ℕ) (hn : n < cfg0.N) :
    PhiS m c (n + 1) hn = iprop(owns (c : Thread nD τ) cell0 fullShare (accAt m c n hn).1 ∗ owns (c : Thread nD τ) cell1 fullShare (accAt m c n hn).2) := rfl

theorem PhiS_pos (c : Dev nD) (n : ℕ) (h : n ≤ cfg0.N) (hz : n ≠ 0) :
    PhiS m c n h = iprop(owns (c : Thread nD τ) cell0 fullShare (accAt m c (n - 1) (by omega)).1
      ∗ owns (c : Thread nD τ) cell1 fullShare (accAt m c (n - 1) (by omega)).2) := by
  cases n with
  | zero => exact absurd rfl hz
  | succ n => rfl

/-- The scoped buffers that are no staging buffer are the two cells, each at something. -/
theorem scopedRest_cells (c : Dev nD) :
    (Pipeline.scopedRest (Ix := Unit) (Name := ℕ) (U := UR sig nD τ) (Lvl := ℕ) (Val := Elt F) spec0 c : sProp 𝕄)
      = iprop((∃ d, owns (c : Thread nD τ) cell0 fullShare d) ∗ (∃ d, owns (c : Thread nD τ) cell1 fullShare d)) := by
  rw [scopedRest0_eq]; simp only [cell0, cell1, owns_whole]; try rfl

/-! ## The pipeline's proof data -/

/-- On core `c`: the arrays as the region finds them; after the body each input's buffer at its block, the two outputs'
    at the carried sums; the invariant the cells at `accAt`; the shared array at half a share per window; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (accAt m c t.val t.isLt).1
    | ⟨6, _⟩ => (accAt m c t.val t.isLt).2
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (accAt m c t.val t.isLt).1 := by dsimp only [dats]
theorem after_6 (c : Dev nD) (t : Fin cfg0.N) : (dats m 0 c).after 6 t = (accAt m c t.val t.isLt).2 := by dsimp only [dats]

/-- The grid has 64 points: 63 is the last. -/
theorem lastPt : 63 < cfg0.N := by rw [show cfg0.N = 64 from N_0]; omega

/-- What the five host operations after the region make of the two outputs: a fixed multiple of their quotient. -/
def lossOf (a b : Vec F S1x1 .f32) : (⟨S_, .f32⟩ : BufTy).Contents (Elt F) :=
  mulf (constant S_ .f32 0xBFB6DB6E#32) (Host.divf (shapeCast S_ a shapeCasts_S1x1_S_) (shapeCast S_ b shapeCasts_S1x1_S_))

end Cert.Kernel.Hand

end
-- ==== Proof.BitsRun.Obligation.lean ====
/-
  The kernel's body at every grid point meets the pipeline's obligation for the carried sums: handed the five input
  blocks and the two cells at what the point before left (anything, at the first point), it leaves the inputs as they
  were, the cells at this point's sums and, at the last point, the two outputs at the cells.

  The body has two conditionals on the grid coordinate: the first zeroes the cells at point 0, the second copies them
  to the outputs at point 63. So the 64 points fall into three control cases — the first point, the 62 middle points,
  the last point — and the body's triple is stated once per case, on any whole buffers and over any contents; the
  obligation at a point is the triple of that point's case at the point's buffers and blocks.
-/
import proofs.«413265_j2430951490101_1_alg».proof.Proof.BitsRun.Acc
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Whole-buffer stores -/

/-- Every access of the body is through the rectangle at offsets `[0, 0]`: the zero offsets. -/
theorem hz : (![0, 0] : Fin 2 → Nat) = fun _ => 0 := funext fun a => by fin_cases a <;> rfl

/-- A store through the whole-buffer rectangle, made last, is what the buffer then reads, whatever was stored before. -/
theorem read_writes_cons_unit {sg : RefSig} {κ : Kind} {sp : Space} {S : Shape} {e : EltTy} (v : View sg κ sp S e)
    (f : v.ty.Contents (Elt F)) {off : Fin S.rank → Nat} (h : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

/-! ## The two conditions over the grid -/

/-- The first conditional's test, from the grid coordinate: `(coordinate = 0) ≠ 0` as the body computes it. -/
abbrev cond1 (i : grid0.Coords) : Prop :=
  (Scalar.cmpi .ne (Scalar.extui (Scalar.cmpi .eq (BitVec.ofNat 32 (i 0).val) 0#32)) 0#32) = 1#1

/-- The first test holds at the first point only — decided over the grid. -/
theorem hcond1 : ∀ t : Fin cfg0.N, cond1 (grid0.coords t) ↔ t.val = 0 :=
  (by decide +kernel : ∀ t : Fin grid0.N, cond1 (grid0.coords t) ↔ t.val = 0)

/-- The second test holds at the last point only — decided over the grid. -/
theorem hcond2 : ∀ t : Fin cfg0.N, k0_cond2 (grid0.coords t) = 1#1 ↔ t.val = 63 :=
  (by decide +kernel : ∀ t : Fin grid0.N, k0_cond2 (grid0.coords t) = 1#1 ↔ t.val = 63)

/-- Where the second test fails the two outputs are idle and not written back; where it holds they are live. -/
theorem idleAt5 : ∀ t : Fin cfg0.N, ¬k0_cond2 (grid0.coords t) = 1#1 → cfg0.idle 5 (grid0.coords t) = true := by decide +kernel
theorem idleAt6 : ∀ t : Fin cfg0.N, ¬k0_cond2 (grid0.coords t) = 1#1 → cfg0.idle 6 (grid0.coords t) = true := by decide +kernel
theorem noFlush5 : ∀ t : Fin cfg0.N, ¬k0_cond2 (grid0.coords t) = 1#1 → (cfg0.win 5).flush t = false := by decide +kernel
theorem noFlush6 : ∀ t : Fin cfg0.N, ¬k0_cond2 (grid0.coords t) = 1#1 → (cfg0.win 6).flush t = false := by decide +kernel
theorem liveAt5 : ∀ t : Fin cfg0.N, k0_cond2 (grid0.coords t) = 1#1 → cfg0.idle 5 (grid0.coords t) = false := by decide +kernel
theorem liveAt6 : ∀ t : Fin cfg0.N, k0_cond2 (grid0.coords t) = 1#1 → cfg0.idle 6 (grid0.coords t) = false := by decide +kernel

/-! ## What the body finds in the inputs' buffers -/

/-- Each input's current buffer holds its block at every point, fetched there or not. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-! ## The buffers the body is called on at a point -/

/-- Each window's current buffer at point `t`, as the pipeline passes it to the body, and its wholeness. -/
abbrev ms0 (t : Fin cfg0.N) : Memref sig .tc .vmem S128x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x1 .f32 := win0_6.stage (cfg0.slots t 6)
abbrev hs6 (t : Fin cfg0.N) : (ms6 t).IsWhole := hstage0_6 ((cfg0.slots t 6).cast nbuf0_6)

/-! ## The body's triple in each control case

On whole buffers `a1 … a9` (five inputs, two outputs, two cells), the inputs at contents `x0 … x4`. In every case the
inputs come back as they were, cell `a8` ends at the first payload over what it held and cell `a9` at the second.
The payloads' loads are through the whole-buffer rectangle and read the contents; a cell loaded after a store in the
same pass reads that store's payload. -/

/-- The first point: the first conditional taken, the second not. The cells come at anything and are zeroed first, so
    they end at the payloads over the zero words; the outputs are not touched. -/
theorem runA (c : Dev nD) (i : grid0.Coords)
    (a1 : Memref sig .tc .vmem S128x256 .bf16) (h1 : a1.IsWhole) (a2 : Memref sig .tc .vmem S8192x256 .bf16) (h2 : a2.IsWhole)
    (a3 : Memref sig .tc .vmem S128x1 .i32) (h3 : a3.IsWhole) (a4 : Memref sig .tc .vmem S1x8192 .i32) (h4 : a4.IsWhole)
    (a5 : Memref sig .tc .vmem S128x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (a9 : Memref sig .tc .vmem S1x1 .f32) (h9 : a9.IsWhole)
    (hc1 : cond1 i) (hc2 : ¬k0_cond2 i = 1#1)
    (x0 : Vec F S128x256 .bf16) (x1 : Vec F S8192x256 .bf16) (x2 : Vec F S128x1 .i32) (x3 : Vec F S1x8192 .i32)
    (x4 : Vec F S128x1 .f32) (y5 y6 : Vec F S1x1 .f32) (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
        ∗ owns (c : Thread nD τ) a6 fullShare y5 ∗ owns (c : Thread nD τ) a7 fullShare y6
        ∗ (∃ d, owns (c : Thread nD τ) a8 fullShare d) ∗ (∃ d, owns (c : Thread nD τ) a9 fullShare d)
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
            ∗ owns (c : Thread nD τ) a6 fullShare y5 ∗ owns (c : Thread nD τ) a7 fullShare y6
            ∗ owns (c : Thread nD τ) a8 fullShare (k0_pay2 (k0_pay6 x2 x3) (k0_pay7 x0 x1 x2 x3) (k0_pay8 i) x4 (k0_pay4 (F := F)))
            ∗ owns (c : Thread nD τ) a9 fullShare (k0_pay3 x4 (k0_pay5 (F := F)))) -∗ K ⟨⟩))
      ⊢ wp frame (wpE (defs₀ (F := F)) Variants.none c none) E (cc0_kernel i a1 h1 a2 h2 a3 h3 a4 h4 a5 h5 a6 h6 a7 h7 a8 h8 a9 h9) K := by
  simp only [cc0_kernel_eq_skeleton]; unfold cc0_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h7.eq_unread hf7
  sl_exec (disch := first | exact hc1 | exact hc2)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    (try sl_unfold_words)
    rw [read_writes_cons_unit _ _ hz]
    simp only [View.readAt_eq_ld, h1.read_unread, h2.read_unread, h3.read_unread, h4.read_unread, h5.read_unread,
      h8.read_unread, h9.read_unread, View.ld_unit_zero (S := S128x256) hz, View.ld_unit_zero (S := S8192x256) hz,
      View.ld_unit_zero (S := S128x1) hz, View.ld_unit_zero (S := S1x8192) hz, View.ld_unit_zero (S := S1x1) hz, View.readCov_unit_zero (S := S1x1) _ hz]
  · iexists _; isplitr
    swap; · iexact H9
    ipureintro
    (try sl_unfold_words)
    rw [read_writes_cons_unit _ _ hz]
    simp only [View.readAt_eq_ld, h1.read_unread, h2.read_unread, h3.read_unread, h4.read_unread, h5.read_unread,
      h8.read_unread, h9.read_unread, View.ld_unit_zero (S := S128x256) hz, View.ld_unit_zero (S := S8192x256) hz,
      View.ld_unit_zero (S := S128x1) hz, View.ld_unit_zero (S := S1x8192) hz, View.ld_unit_zero (S := S1x1) hz, View.readCov_unit_zero (S := S1x1) _ hz]

/-- A middle point: neither conditional taken. The cells come at `s0`, `s1` and end at the payloads over them; the
    outputs are not touched. -/
theorem runB (c : Dev nD) (i : grid0.Coords)
    (a1 : Memref sig .tc .vmem S128x256 .bf16) (h1 : a1.IsWhole) (a2 : Memref sig .tc .vmem S8192x256 .bf16) (h2 : a2.IsWhole)
    (a3 : Memref sig .tc .vmem S128x1 .i32) (h3 : a3.IsWhole) (a4 : Memref sig .tc .vmem S1x8192 .i32) (h4 : a4.IsWhole)
    (a5 : Memref sig .tc .vmem S128x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (a9 : Memref sig .tc .vmem S1x1 .f32) (h9 : a9.IsWhole)
    (hc1 : ¬cond1 i) (hc2 : ¬k0_cond2 i = 1#1)
    (x0 : Vec F S128x256 .bf16) (x1 : Vec F S8192x256 .bf16) (x2 : Vec F S128x1 .i32) (x3 : Vec F S1x8192 .i32)
    (x4 : Vec F S128x1 .f32) (y5 y6 s0 s1 : Vec F S1x1 .f32) (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
        ∗ owns (c : Thread nD τ) a6 fullShare y5 ∗ owns (c : Thread nD τ) a7 fullShare y6
        ∗ owns (c : Thread nD τ) a8 fullShare s0 ∗ owns (c : Thread nD τ) a9 fullShare s1
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
            ∗ owns (c : Thread nD τ) a6 fullShare y5 ∗ owns (c : Thread nD τ) a7 fullShare y6
            ∗ owns (c : Thread nD τ) a8 fullShare (k0_pay2 (k0_pay6 x2 x3) (k0_pay7 x0 x1 x2 x3) (k0_pay8 i) x4 s0)
            ∗ owns (c : Thread nD τ) a9 fullShare (k0_pay3 x4 s1)) -∗ K ⟨⟩))
      ⊢ wp frame (wpE (defs₀ (F := F)) Variants.none c none) E (cc0_kernel i a1 h1 a2 h2 a3 h3 a4 h4 a5 h5 a6 h6 a7 h7 a8 h8 a9 h9) K := by
  simp only [cc0_kernel_eq_skeleton]; unfold cc0_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := h1.eq_unread hf1; obtain rfl := h2.eq_unread hf2; obtain rfl := h3.eq_unread hf3; obtain rfl := h4.eq_unread hf4
  obtain rfl := h5.eq_unread hf5; obtain rfl := h6.eq_unread hf6; obtain rfl := h7.eq_unread hf7; obtain rfl := h8.eq_unread hf8
  obtain rfl := h9.eq_unread hf9
  sl_exec (disch := first | exact hc1 | exact hc2)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact hf6
    iexact H6
  isplitl [H7]
  · iexists _; isplitr; · ipureintro; exact hf7
    iexact H7
  isplitl [H8]
  · iexists _; isplitr
    swap; · iexact H8
    ipureintro
    rw [read_writes_cons_unit _ _ hz]
    simp only [View.readAt_eq_ld, h1.read_unread, h2.read_unread, h3.read_unread, h4.read_unread, h5.read_unread,
      h8.read_unread, h9.read_unread, View.ld_unit_zero (S := S128x256) hz, View.ld_unit_zero (S := S8192x256) hz,
      View.ld_unit_zero (S := S128x1) hz, View.ld_unit_zero (S := S1x8192) hz, View.ld_unit_zero (S := S1x1) hz]
  iexists _; isplitr
  swap; · iexact H9
  ipureintro
  rw [read_writes_cons_unit _ _ hz]
  simp only [View.readAt_eq_ld, h1.read_unread, h2.read_unread, h3.read_unread, h4.read_unread, h5.read_unread,
      h8.read_unread, h9.read_unread, View.ld_unit_zero (S := S128x256) hz, View.ld_unit_zero (S := S8192x256) hz,
      View.ld_unit_zero (S := S128x1) hz, View.ld_unit_zero (S := S1x8192) hz, View.ld_unit_zero (S := S1x1) hz]

/-- The last point: the second conditional taken, the first not. The cells as at a middle point; then each output's
    buffer, come at anything, is stored whole with its cell's new contents. -/
theorem runC (c : Dev nD) (i : grid0.Coords)
    (a1 : Memref sig .tc .vmem S128x256 .bf16) (h1 : a1.IsWhole) (a2 : Memref sig .tc .vmem S8192x256 .bf16) (h2 : a2.IsWhole)
    (a3 : Memref sig .tc .vmem S128x1 .i32) (h3 : a3.IsWhole) (a4 : Memref sig .tc .vmem S1x8192 .i32) (h4 : a4.IsWhole)
    (a5 : Memref sig .tc .vmem S128x1 .f32) (h5 : a5.IsWhole) (a6 : Memref sig .tc .vmem S1x1 .f32) (h6 : a6.IsWhole)
    (a7 : Memref sig .tc .vmem S1x1 .f32) (h7 : a7.IsWhole) (a8 : Memref sig .tc .vmem S1x1 .f32) (h8 : a8.IsWhole)
    (a9 : Memref sig .tc .vmem S1x1 .f32) (h9 : a9.IsWhole)
    (hc1 : ¬cond1 i) (hc2 : k0_cond2 i = 1#1)
    (x0 : Vec F S128x256 .bf16) (x1 : Vec F S8192x256 .bf16) (x2 : Vec F S128x1 .i32) (x3 : Vec F S1x8192 .i32)
    (x4 : Vec F S128x1 .f32) (s0 s1 : Vec F S1x1 .f32) (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
        ∗ (∃ d, owns (c : Thread nD τ) a6 fullShare d) ∗ (∃ d, owns (c : Thread nD τ) a7 fullShare d)
        ∗ owns (c : Thread nD τ) a8 fullShare s0 ∗ owns (c : Thread nD τ) a9 fullShare s1
        ∗ (iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare x4
            ∗ owns (c : Thread nD τ) a6 fullShare (k0_pay2 (k0_pay6 x2 x3) (k0_pay7 x0 x1 x2 x3) (k0_pay8 i) x4 s0)
            ∗ owns (c : Thread nD τ) a7 fullShare (k0_pay3 x4 s1)
            ∗ owns (c : Thread nD τ) a8 fullShare (k0_pay2 (k0_pay6 x2 x3) (k0_pay7 x0 x1 x2 x3) (k0_pay8 i) x4 s0)
            ∗ owns (c : Thread nD τ) a9 fullShare (k0_pay3 x4 s1)) -∗ K ⟨⟩))
      ⊢ wp frame (wpE (defs₀ (F := F)) Variants.none c none) E (cc0_kernel i a1 h1 a2 h2 a3 h3 a4 h4 a5 h5 a6 h6 a7 h7 a8 h8 a9 h9) K := by
  simp only [cc0_kernel_eq_skeleton]; unfold cc0_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := h1.eq_unread hf1; obtain rfl := h2.eq_unread hf2; obtain rfl := h3.eq_unread hf3; obtain rfl := h4.eq_unread hf4
  obtain rfl := h5.eq_unread hf5; obtain rfl := h8.eq_unread hf8; obtain rfl := h9.eq_unread hf9
  sl_exec (disch := first | exact hc1 | exact hc2)
  sl_step
  iapply Hk
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr
    swap; · iexact H6
    ipureintro
    (try sl_unfold_words)
    rw [read_writes_cons_unit _ _ hz]
    simp only [View.readAt_eq_ld, h1.read_unread, h2.read_unread, h3.read_unread, h4.read_unread, h5.read_unread,
      h8.read_unread, h9.read_unread, View.ld_unit_zero (S := S128x256) hz, View.ld_unit_zero (S := S8192x256) hz,
      View.ld_unit_zero (S := S128x1) hz, View.ld_unit_zero (S := S1x8192) hz, View.ld_unit_zero (S := S1x1) hz, View.readCov_unit_zero (S := S1x1) _ hz]
  isplitl [H7]
  · iexists _; isplitr
    swap; · iexact H7
    ipureintro
    (try sl_unfold_words)
    rw [read_writes_cons_unit _ _ hz]
    simp only [View.readAt_eq_ld, h1.read_unread, h2.read_unread, h3.read_unread, h4.read_unread, h5.read_unread,
      h8.read_unread, h9.read_unread, View.ld_unit_zero (S := S128x256) hz, View.ld_unit_zero (S := S8192x256) hz,
      View.ld_unit_zero (S := S128x1) hz, View.ld_unit_zero (S := S1x8192) hz, View.ld_unit_zero (S := S1x1) hz, View.readCov_unit_zero (S := S1x1) _ hz]
  isplitl [H8]
  · iexists _; isplitr
    swap; · iexact H8
    ipureintro
    (try sl_unfold_words)
    rw [read_writes_cons_unit _ _ hz]
    simp only [View.readAt_eq_ld, h1.read_unread, h2.read_unread, h3.read_unread, h4.read_unread, h5.read_unread,
      h8.read_unread, h9.read_unread, View.ld_unit_zero (S := S128x256) hz, View.ld_unit_zero (S := S8192x256) hz,
      View.ld_unit_zero (S := S128x1) hz, View.ld_unit_zero (S := S1x8192) hz, View.ld_unit_zero (S := S1x1) hz, View.readCov_unit_zero (S := S1x1) _ hz]
  · iexists _; isplitr
    swap; · iexact H9
    ipureintro
    (try sl_unfold_words)
    rw [read_writes_cons_unit _ _ hz]
    simp only [View.readAt_eq_ld, h1.read_unread, h2.read_unread, h3.read_unread, h4.read_unread, h5.read_unread,
      h8.read_unread, h9.read_unread, View.ld_unit_zero (S := S128x256) hz, View.ld_unit_zero (S := S8192x256) hz,
      View.ld_unit_zero (S := S128x1) hz, View.ld_unit_zero (S := S1x8192) hz, View.ld_unit_zero (S := S1x1) hz, View.readCov_unit_zero (S := S1x1) _ hz]

/-! ## The sums at a point, case by case -/

theorem stepAt_fst (c : Dev nD) (t : Fin cfg0.N) (s0 s1 : Vec F S1x1 .f32) :
    (stepAt m c t s0 s1).1 = k0_pay2 (k0_pay6 (iblk m c 2 t) (iblk m c 3 t))
      (k0_pay7 (iblk m c 0 t) (iblk m c 1 t) (iblk m c 2 t) (iblk m c 3 t)) (k0_pay8 (grid0.coords t)) (iblk m c 4 t) s0 := rfl

theorem stepAt_snd (c : Dev nD) (t : Fin cfg0.N) (s0 s1 : Vec F S1x1 .f32) :
    (stepAt m c t s0 s1).2 = k0_pay3 (iblk m c 4 t) s1 := rfl

/-- At the first point the sums start from the zeroed cells. -/
theorem accAt_first (c : Dev nD) (t : Fin cfg0.N) (h : t.val = 0) :
    accAt m c t.val t.isLt = stepAt m c t (k0_pay4 (F := F)) (k0_pay5 (F := F)) := by
  obtain ⟨n, hn⟩ := t
  cases n with
  | zero => exact accAt_zero m c hn
  | succ n => exact absurd h (Nat.succ_ne_zero n)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (dats m 0 c).leavesExact 3 t ∗ (dats m 0 c).leavesExact 4 t ∗ (dats m 0 c).leavesExact 5 t
    ∗ (dats m 0 c).leavesExact 6 t)

set_option maxHeartbeats 1600000 in
/-- The body at any point. The inputs' buffers hold their blocks; the point's position says which of the three control
    cases it is in. At the first point the cells come at anything and leave at the first sums; afterwards they come at
    what the point before left and leave at this point's sums. An output comes back untouched before the last point,
    where it is idle and not written back, and at the last point holds its cell. The core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [show (dats m 0 c).leavesExact 3 t = owns (c : Thread nD τ) (ms3 t) fullShare ((dats m 0 c).after 3 t) from rfl, after_3]
  rw [show (dats m 0 c).leavesExact 4 t = owns (c : Thread nD τ) (ms4 t) fullShare ((dats m 0 c).after 4 t) from rfl, after_4]
  have hN : t.val < 64 := lt_of_lt_of_eq t.isLt (show cfg0.N = 64 from N_0)
  by_cases h0 : t.val = 0
  · have hc1 : cond1 (grid0.coords t) := (hcond1 t).mpr h0
    have hc2 : ¬k0_cond2 (grid0.coords t) = 1#1 := fun h => by have := (hcond2 t).mp h; omega
    rw [Dat.leavesExact_idle (dats m 0 c) 5 t (idleAt5 t hc2) (noFlush5 t hc2),
      Dat.leavesExact_idle (dats m 0 c) 6 t (idleAt6 t hc2) (noFlush6 t hc2)]
    rw [accAt_first m c t h0, stepAt_fst, stepAt_snd]
    rw [PhiS_castSucc m c t, PhiS_zero m c _ _ h0]
    iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) (ms0 t) (hs0 t) (ms1 t) (hs1 t) (ms2 t) (hs2 t) (ms3 t) (hs3 t) (ms4 t) (hs4 t)
      (ms5 t) (hs5 t) (ms6 t) (hs6 t) cell0 (Memref.isWhole_whole _) cell1 (Memref.isWhole_whole _) hc1 hc2
      (iblk m c 0 t) (iblk m c 1 t) (iblk m c 2 t) (iblk m c 3 t) (iblk m c 4 t)
      ((dats m 0 c).before 5 t d5) ((dats m 0 c).before 6 t d6) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    iintro ⟨H0, H1, H2, H3, H4, H5, H6, HS0, HS1⟩
    isplitl [HS0 HS1]
    · isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists _; iexact H6
  · have hc1 : ¬cond1 (grid0.coords t) := fun h => h0 ((hcond1 t).mp h)
    rw [PhiS_castSucc m c t, PhiS_pos m c _ _ h0]
    by_cases h63 : t.val = 63
    · have hc2 : k0_cond2 (grid0.coords t) = 1#1 := (hcond2 t).mpr h63
      rw [show (dats m 0 c).leavesExact 5 t = owns (c : Thread nD τ) (ms5 t) fullShare ((dats m 0 c).after 5 t) from by
        unfold Dat.leavesExact; rw [liveAt5 t hc2], after_5]
      rw [show (dats m 0 c).leavesExact 6 t = owns (c : Thread nD τ) (ms6 t) fullShare ((dats m 0 c).after 6 t) from by
        unfold Dat.leavesExact; rw [liveAt6 t hc2], after_6]
      rw [accAt_pos m c t h0, stepAt_fst, stepAt_snd]
      generalize accAt m c (t.val - 1) _ = s
      iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
      iapply (runC c (grid0.coords t) (ms0 t) (hs0 t) (ms1 t) (hs1 t) (ms2 t) (hs2 t) (ms3 t) (hs3 t) (ms4 t) (hs4 t)
        (ms5 t) (hs5 t) (ms6 t) (hs6 t) cell0 (Memref.isWhole_whole _) cell1 (Memref.isWhole_whole _) hc1 hc2
        (iblk m c 0 t) (iblk m c 1 t) (iblk m c 2 t) (iblk m c 3 t) (iblk m c 4 t) s.1 s.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      iintro ⟨H0, H1, H2, H3, H4, H5, H6, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc2 : ¬k0_cond2 (grid0.coords t) = 1#1 := fun h => h63 ((hcond2 t).mp h)
      rw [Dat.leavesExact_idle (dats m 0 c) 5 t (idleAt5 t hc2) (noFlush5 t hc2),
        Dat.leavesExact_idle (dats m 0 c) 6 t (idleAt6 t hc2) (noFlush6 t hc2)]
      rw [accAt_pos m c t h0, stepAt_fst, stepAt_snd]
      generalize accAt m c (t.val - 1) _ = s
      iintro ⟨⟨HS0, HS1⟩, Ho, ⟨%d0, H0⟩, ⟨%d1, H1⟩, ⟨%d2, H2⟩, ⟨%d3, H3⟩, ⟨%d4, H4⟩, ⟨%d5, H5⟩, ⟨%d6, H6⟩⟩
      iapply (runB c (grid0.coords t) (ms0 t) (hs0 t) (ms1 t) (hs1 t) (ms2 t) (hs2 t) (ms3 t) (hs3 t) (ms4 t) (hs4 t)
        (ms5 t) (hs5 t) (ms6 t) (hs6 t) cell0 (Memref.isWhole_whole _) cell1 (Memref.isWhole_whole _) hc1 hc2
        (iblk m c 0 t) (iblk m c 1 t) (iblk m c 2 t) (iblk m c 3 t) (iblk m c 4 t)
        ((dats m 0 c).before 5 t d5) ((dats m 0 c).before 6 t d6) s.1 s.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsRun.Share.lean ====
/-
  The pipeline's two output arrays at the region's exit: each is one word, its one block the whole array, written back
  at the last point only, so it ends holding the carried sum of that point.
-/
import proofs.«413265_j2430951490101_1_alg».proof.Proof.BitsRun.Acc
import Idealize.ShloMosaic.Lib.Pipeline.Value

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Both output windows' block index is zero at every point: the offsets of their one block vanish. -/
theorem off5_zero (t : Fin cfg0.N) : (fun a => win0_5.index t a * main_v33_0.ty.shape.size a) = fun _ => 0 :=
  funext fun a => by fin_cases a <;> rfl

theorem off6_zero (t : Fin cfg0.N) : (fun a => win0_6.index t a * main_v33_1.ty.shape.size a) = fun _ => 0 :=
  funext fun a => by fin_cases a <;> rfl

/-- The one write-back of the first output, at point 63, writes the first carried sum: the block read through zero
    offsets is the array. -/
theorem flushed5_eq (c : Dev nD) (t : Fin cfg0.N) (hf : (cfg0.win 5).flush t = true) :
    (dats m 0 c).flushed 5 t = ((cfg0.win 5).blk t).view.read (Elt F) (accAt m c 63 lastPt).1 := by
  have hN : cfg0.N = 64 := N_0
  have h63 : t.val = 63 := by have := (flush0_5 t).mp hf; have := t.isLt; omega
  obtain rfl : t = ⟨63, lastPt⟩ := Fin.ext h63
  show (cfg0.win 5).cut (grid0.coords ⟨63, lastPt⟩) ((dats m 0 c).after 5 ⟨63, lastPt⟩) = _
  rw [after_5]
  exact (Memref.read_access_unit_zero (Elt F) main_v33_0 (off5_zero _)
    (fun a => by rw [congrFun (off5_zero _) a]; simp) _).symm

/-- The first output array after the run: the first carried sum after point 63. -/
theorem arrAt_out5 (c : Dev nD) : (dats m 0 c).arrAt 5 cfg0.N = (accAt m c 63 lastPt).1 :=
  (dats m 0 c).arrAt_eq_of_cover 5 _ (flushed5_eq m c) fun i =>
    ⟨⟨63, lastPt⟩, (flush0_5 _).mpr rfl, by
      show i ∈ ((View.whole main_v33_0).slice (win0_5.rect ⟨63, lastPt⟩)).set
      rw [View.set_slice_whole]
      exact View.mem_set_unit_zero (off5_zero _) _ i⟩

/-- The one write-back of the second output, at point 63, writes the second carried sum. -/
theorem flushed6_eq (c : Dev nD) (t : Fin cfg0.N) (hf : (cfg0.win 6).flush t = true) :
    (dats m 0 c).flushed 6 t = ((cfg0.win 6).blk t).view.read (Elt F) (accAt m c 63 lastPt).2 := by
  have hN : cfg0.N = 64 := N_0
  have h63 : t.val = 63 := by have := (flush0_6 t).mp hf; have := t.isLt; omega
  obtain rfl : t = ⟨63, lastPt⟩ := Fin.ext h63
  show (cfg0.win 6).cut (grid0.coords ⟨63, lastPt⟩) ((dats m 0 c).after 6 ⟨63, lastPt⟩) = _
  rw [after_6]
  exact (Memref.read_access_unit_zero (Elt F) main_v33_1 (off6_zero _)
    (fun a => by rw [congrFun (off6_zero _) a]; simp) _).symm

/-- The second output array after the run: the second carried sum after point 63. -/
theorem arrAt_out6 (c : Dev nD) : (dats m 0 c).arrAt 6 cfg0.N = (accAt m c 63 lastPt).2 :=
  (dats m 0 c).arrAt_eq_of_cover 6 _ (flushed6_eq m c) fun i =>
    ⟨⟨63, lastPt⟩, (flush0_6 _).mpr rfl, by
      show i ∈ ((View.whole main_v33_1).slice (win0_6.rect ⟨63, lastPt⟩)).set
      rw [View.set_slice_whole]
      exact View.mem_set_unit_zero (off6_zero _) _ i⟩

end Cert.Kernel.Hand

end
-- ==== Proof.BitsRun.Launch.lean ====
/-
  The whole run of the kernel program: the 38 host operations, the pipelined region over its 64 points, the five host
  operations after it. It terminates without a fault, leaves the four arguments as they were, and leaves in the result
  the fixed multiple of the quotient of the two carried sums after the last point.
-/
import proofs.«413265_j2430951490101_1_alg».proof.Proof.BitsRun.Obligation
import proofs.«413265_j2430951490101_1_alg».proof.Proof.BitsRun.Share

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor

/-- @main reduces to the region continued by the five later operations, at the contents after the 38 earlier ones. -/
theorem hmain : Pipeline.HMainK (Ix := Unit) (Name := ℕ) (U := UR sig nD τ) (Lvl := ℕ) cfgs 0 defs₀ Variants.none m (main (F := F)) (V m)
      (fun _ => Pipeline.chain [StableHlo.seq hostOps1]) := by
  have h := Pipeline.hmain_around (Ix := Unit) (Name := ℕ) (U := UR sig nD τ) (Lvl := ℕ) cfgs 0 defs₀ Variants.none m (main (F := F)) [hostOps0] [hostOps1]
    hostOps0_sub hostOps0_fresh main_chain
  simp only [List.flatten_cons, List.flatten_nil, List.append_nil] at h
  exact h

/-! ## The arguments reach the region, and the end, as launched -/

theorem V_arg0 (c : Dev nD) : V m c main_arg0 = m ((c.tc : Thread nD τ).loc main_arg0) := by
  show StableHlo.after hostOps0 (fun b => m (c, b)) (Proc.devRef .tc main_arg0) = _
  after_results
theorem V_arg1 (c : Dev nD) : V m c main_arg1 = m ((c.tc : Thread nD τ).loc main_arg1) := by
  show StableHlo.after hostOps0 (fun b => m (c, b)) (Proc.devRef .tc main_arg1) = _
  after_results
theorem V_arg2 (c : Dev nD) : V m c main_arg2 = m ((c.tc : Thread nD τ).loc main_arg2) := by
  show StableHlo.after hostOps0 (fun b => m (c, b)) (Proc.devRef .tc main_arg2) = _
  after_results
theorem V_arg3 (c : Dev nD) : V m c main_arg3 = m ((c.tc : Thread nD τ).loc main_arg3) := by
  show StableHlo.after hostOps0 (fun b => m (c, b)) (Proc.devRef .tc main_arg3) = _
  after_results

/-! ## The windows' arrays at entry -/

theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl
theorem share_5 (c : Dev nD) : (dats m 0 c).share 5 = fullShare := rfl
theorem share_6 (c : Dev nD) : (dats m 0 c).share 6 = fullShare := rfl

/-- The six buffers behind the seven windows, each whole at the full share, make the windows' arrays at entry: the
    array the first two windows share is split into its two halves, every other buffer goes to its one window. -/
theorem arrs_split (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_W0, bigSep_eq_bigSepL_of_eq [main_v20, main_v30, main_v31, main_v32, main_v33_0, main_v33_1] (by decide) (by decide)]
  simp only [bigSepL_cons_cons, bigSepL_singleton, View.set_whole, share_0, share_1, share_2, share_3, share_4, share_5, share_6, Dat.arrAt, A_eq]
  refine (show iprop((((c.tc : Thread nD τ).loc main_v20) ↦{fullShare} V m c main_v20) ∗ (((c.tc : Thread nD τ).loc main_v30) ↦{fullShare} V m c main_v30)
      ∗ (((c.tc : Thread nD τ).loc main_v31) ↦{fullShare} V m c main_v31) ∗ (((c.tc : Thread nD τ).loc main_v32) ↦{fullShare} V m c main_v32)
      ∗ (((c.tc : Thread nD τ).loc main_v33_0) ↦{fullShare} V m c main_v33_0) ∗ (((c.tc : Thread nD τ).loc main_v33_1) ↦{fullShare} V m c main_v33_1)) ⊢ _ from ?_)
  iintro ⟨H0, H2, H3, H4, H5, H6⟩
  ihave H01 := (pointsTo_share (PosShare.mem_left_op_right fullShare)).1 $$ H0
  icases H01 with ⟨H0, H1⟩
  isplitl [H0]; · iexact H0
  isplitl [H1]; · iexact H1
  isplitl [H2]; · iexact H2
  isplitl [H3]; · iexact H3
  isplitl [H4]; · iexact H4
  isplitl [H5]; · iexact H5
  iexact H6

/-! ## The five operations after the region -/

/-- The buffers the five later operations touch: the two outputs, and five buffers that bypass the region. -/
abbrev tailList : List (Ref sig .tc) := [main_v33_0, main_v33_1, main_v34, main_v35, main_v36, main_cst, main_v37]
def tailSet : Finset (DevRef τ sig) := tailList.toFinset.map ⟨Proc.devRef (sig := sig) .tc, Proc.devRef_injective _⟩

theorem mem_tailSet {b : Ref sig .tc} (h : b ∈ tailList) : Proc.devRef (τ := τ) .tc b ∈ tailSet :=
  Finset.mem_map_of_mem _ (List.mem_toFinset.mpr h)

/-- Held at a valuation, they are seven points-tos. -/
theorem held_tail (c : Dev nD) (Wv : Valuation τ sig (Elt F)) :
    (StableHlo.held (c.tc : Thread nD τ) tailSet Wv : sProp 𝕄)
      = bigSepL tailList fun b => (((c.tc : Thread nD τ).loc b) ↦{fullShare} Wv (Proc.devRef .tc b) : sProp 𝕄) := by
  unfold StableHlo.held tailSet
  rw [bigSep_map, bigSep_eq_bigSepL tailList (by decide)]
  rfl

theorem hostOps1_fresh : (hostOps1 : List (HloOp τ sig (Elt F))).Forall fun op => op.fresh = ∅ := by
  simp only [List.Forall]; repeat' constructor

theorem hostOps1_tail : ∀ op ∈ (hostOps1 : List (HloOp τ sig (Elt F))), op.bufs ⊆ tailSet := by
  intro op hop
  simp only [List.mem_cons, List.mem_nil_iff, or_false] at hop
  rcases hop with rfl | rfl | rfl | rfl | rfl <;>
    simp only [StableHlo.reshape_bufs, StableHlo.binary_bufs, StableHlo.nullary_bufs, Finset.insert_subset_iff, Finset.singleton_subset_iff] <;>
    repeat' constructor
  all_goals exact mem_tailSet (by decide)

/-- The buffers at the region's exit, as far as the later operations read them: the two outputs at what the last
    point wrote back, everything else as the region found it. -/
def Wx (c : Dev nD) : Valuation τ sig (Elt F) :=
  Function.update (Function.update (V0 m c) (Proc.devRef .tc main_v33_0) ((dats m 0 c).arrAt 5 cfg0.N))
    (Proc.devRef .tc main_v33_1) ((dats m 0 c).arrAt 6 cfg0.N)

theorem Wx_5 (c : Dev nD) : Wx m c (Proc.devRef .tc main_v33_0) = (dats m 0 c).arrAt 5 cfg0.N := by
  unfold Wx
  rw [Function.update_of_ne (StableHlo.devRef_ne_of_ne (by decide)), Function.update_self]

theorem Wx_6 (c : Dev nD) : Wx m c (Proc.devRef .tc main_v33_1) = (dats m 0 c).arrAt 6 cfg0.N := by
  unfold Wx
  rw [Function.update_self]

theorem Wx_of_ne (c : Dev nD) (b : Ref sig .tc) (h5 : b ≠ main_v33_0) (h6 : b ≠ main_v33_1) : Wx m c (Proc.devRef .tc b) = V m c b := by
  unfold Wx
  rw [Function.update_of_ne (StableHlo.devRef_ne_of_ne h6), Function.update_of_ne (StableHlo.devRef_ne_of_ne h5)]

theorem after1_5 (Wv : Valuation τ sig (Elt F)) : StableHlo.after hostOps1 Wv (Proc.devRef .tc main_v33_0) = Wv (Proc.devRef .tc main_v33_0) := by
  after_results

theorem after1_6 (Wv : Valuation τ sig (Elt F)) : StableHlo.after hostOps1 Wv (Proc.devRef .tc main_v33_1) = Wv (Proc.devRef .tc main_v33_1) := by
  after_results

theorem after1_37 (Wv : Valuation τ sig (Elt F)) : StableHlo.after hostOps1 Wv (Proc.devRef .tc main_v37)
    = lossOf (Wv (Proc.devRef .tc main_v33_0)) (Wv (Proc.devRef .tc main_v33_1)) := by
  after_results
  rfl

/-- The five bypassing buffers the later operations write. -/
abbrev tail5 : List (Ref sig .tc) := [main_v34, main_v35, main_v36, main_cst, main_v37]

theorem bigSep_tail5 {M : Type} [URA M] (Φ : Ref sig .tc → sProp M) :
    bigSep tail5.toFinset Φ = iprop(Φ main_v34 ∗ Φ main_v35 ∗ Φ main_v36 ∗ Φ main_cst ∗ Φ main_v37) :=
  bigSep_eq_bigSepL tail5 (by decide) Φ

theorem bigSepL_tailList {M : Type} [URA M] (Φ : Ref sig .tc → sProp M) :
    bigSepL tailList Φ = iprop(Φ main_v33_0 ∗ Φ main_v33_1 ∗ Φ main_v34 ∗ Φ main_v35 ∗ Φ main_v36 ∗ Φ main_cst ∗ Φ main_v37) := rfl

/-- The bypassing buffers the later operations leave alone: the four arguments among them. -/
def restSet : Finset (Ref sig .tc) :=
  ((Finset.univ.filter fun b : Ref sig .tc => ¬ b.isScoped) \ Finset.univ.image (Pipeline.arrRef spec0)) \ tail5.toFinset

theorem tail5_sub : tail5.toFinset ⊆ ((Finset.univ.filter fun b : Ref sig .tc => ¬ b.isScoped) \ Finset.univ.image (Pipeline.arrRef spec0)) := by
  decide

/-- The bypassing buffers are those five and the rest. -/
theorem rest_split (c : Dev nD) :
    (Pipeline.unscopedRest (Ix := Unit) (Name := ℕ) (U := UR sig nD τ) (Lvl := ℕ) spec0 c (V m c) : sProp 𝕄)
      = iprop(((((c.tc : Thread nD τ).loc main_v34) ↦{fullShare} V m c main_v34) ∗ (((c.tc : Thread nD τ).loc main_v35) ↦{fullShare} V m c main_v35)
          ∗ (((c.tc : Thread nD τ).loc main_v36) ↦{fullShare} V m c main_v36) ∗ (((c.tc : Thread nD τ).loc main_cst) ↦{fullShare} V m c main_cst)
          ∗ (((c.tc : Thread nD τ).loc main_v37) ↦{fullShare} V m c main_v37))
        ∗ bigSep restSet fun b => (((c.tc : Thread nD τ).loc b) ↦{fullShare} V m c b : sProp 𝕄)) := by
  unfold Pipeline.unscopedRest restSet
  rw [bigSep_sdiff_split tail5_sub, bigSep_tail5]
  rfl

/-- The windows' arrays at the region's exit, one by one. -/
theorem arrays_exit (c : Dev nD) :
    ((dats m 0 c).arrays ((dats m 0 c).arrAt · cfg0.N) : sProp 𝕄)
      = iprop((((c.tc : Thread nD τ).loc main_v20) ↦{fullShare.left} (dats m 0 c).arrAt 0 cfg0.N)
          ∗ (((c.tc : Thread nD τ).loc main_v20) ↦{fullShare.right} (dats m 0 c).arrAt 1 cfg0.N)
          ∗ (((c.tc : Thread nD τ).loc main_v30) ↦{fullShare} (dats m 0 c).arrAt 2 cfg0.N)
          ∗ (((c.tc : Thread nD τ).loc main_v31) ↦{fullShare} (dats m 0 c).arrAt 3 cfg0.N)
          ∗ (((c.tc : Thread nD τ).loc main_v32) ↦{fullShare} (dats m 0 c).arrAt 4 cfg0.N)
          ∗ (((c.tc : Thread nD τ).loc main_v33_0) ↦{fullShare} (dats m 0 c).arrAt 5 cfg0.N)
          ∗ (((c.tc : Thread nD τ).loc main_v33_1) ↦{fullShare} (dats m 0 c).arrAt 6 cfg0.N)) := by
  unfold Dat.arrays
  rw [bigSep_W0]
  simp only [View.set_whole, share_0, share_1, share_2, share_3, share_4, share_5, share_6]

/-- What the later operations run within, at the region's exit. -/
theorem held_entry (c : Dev nD) :
    (StableHlo.held (c.tc : Thread nD τ) tailSet (Wx m c) : sProp 𝕄)
      = iprop((((c.tc : Thread nD τ).loc main_v33_0) ↦{fullShare} (dats m 0 c).arrAt 5 cfg0.N)
          ∗ (((c.tc : Thread nD τ).loc main_v33_1) ↦{fullShare} (dats m 0 c).arrAt 6 cfg0.N)
          ∗ (((c.tc : Thread nD τ).loc main_v34) ↦{fullShare} V m c main_v34) ∗ (((c.tc : Thread nD τ).loc main_v35) ↦{fullShare} V m c main_v35)
          ∗ (((c.tc : Thread nD τ).loc main_v36) ↦{fullShare} V m c main_v36) ∗ (((c.tc : Thread nD τ).loc main_cst) ↦{fullShare} V m c main_cst)
          ∗ (((c.tc : Thread nD τ).loc main_v37) ↦{fullShare} V m c main_v37)) := by
  rw [held_tail, bigSepL_tailList, Wx_5, Wx_6, Wx_of_ne m c main_v34 (by decide) (by decide), Wx_of_ne m c main_v35 (by decide) (by decide),
    Wx_of_ne m c main_v36 (by decide) (by decide), Wx_of_ne m c main_cst (by decide) (by decide), Wx_of_ne m c main_v37 (by decide) (by decide)]

/-- And after them: the two outputs as they were, the five written buffers at the operations' results. -/
theorem held_exit (c : Dev nD) :
    (StableHlo.held (c.tc : Thread nD τ) tailSet (StableHlo.after hostOps1 (Wx m c)) : sProp 𝕄)
      = iprop((((c.tc : Thread nD τ).loc main_v33_0) ↦{fullShare} (dats m 0 c).arrAt 5 cfg0.N)
          ∗ (((c.tc : Thread nD τ).loc main_v33_1) ↦{fullShare} (dats m 0 c).arrAt 6 cfg0.N)
          ∗ (((c.tc : Thread nD τ).loc main_v34) ↦{fullShare} StableHlo.after hostOps1 (Wx m c) (Proc.devRef .tc main_v34))
          ∗ (((c.tc : Thread nD τ).loc main_v35) ↦{fullShare} StableHlo.after hostOps1 (Wx m c) (Proc.devRef .tc main_v35))
          ∗ (((c.tc : Thread nD τ).loc main_v36) ↦{fullShare} StableHlo.after hostOps1 (Wx m c) (Proc.devRef .tc main_v36))
          ∗ (((c.tc : Thread nD τ).loc main_cst) ↦{fullShare} StableHlo.after hostOps1 (Wx m c) (Proc.devRef .tc main_cst))
          ∗ (((c.tc : Thread nD τ).loc main_v37) ↦{fullShare} StableHlo.after hostOps1 (Wx m c) (Proc.devRef .tc main_v37))) := by
  rw [held_tail, bigSepL_tailList, after1_5, after1_6, Wx_5, Wx_6]

/-- What the later operations leave of the bypassing buffers. -/
def Zafter (c : Dev nD) : sProp 𝕄 :=
  iprop((bigSep restSet fun b => (((c.tc : Thread nD τ).loc b) ↦{fullShare} V m c b : sProp 𝕄))
    ∗ (((c.tc : Thread nD τ).loc main_v34) ↦{fullShare} StableHlo.after hostOps1 (Wx m c) (Proc.devRef .tc main_v34))
    ∗ (((c.tc : Thread nD τ).loc main_v35) ↦{fullShare} StableHlo.after hostOps1 (Wx m c) (Proc.devRef .tc main_v35))
    ∗ (((c.tc : Thread nD τ).loc main_v36) ↦{fullShare} StableHlo.after hostOps1 (Wx m c) (Proc.devRef .tc main_v36))
    ∗ (((c.tc : Thread nD τ).loc main_cst) ↦{fullShare} StableHlo.after hostOps1 (Wx m c) (Proc.devRef .tc main_cst))
    ∗ (((c.tc : Thread nD τ).loc main_v37) ↦{fullShare} StableHlo.after hostOps1 (Wx m c) (Proc.devRef .tc main_v37)))

set_option backward.isDefEq.respectTransparency.types false in
/-- From the region's exit the five later operations run within the two outputs and the five buffers they write; the
    input arrays, at their shares, and every other bypassing buffer are not touched. -/
theorem tail_run (c : Dev nD) (Q' : PUnit → sProp 𝕄) :
    iprop((iprop((dats m 0 c).arrays ((dats m 0 c).arrAt · cfg0.N) ∗ Zafter m c) -∗ Q' ⟨⟩)
        ∗ boundary (c.tc : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (pcfgs (F := F)) defs₀) (Variants.lift Variants.none) (c.tc : Thread nD τ) none) Set.univ
          (Pipeline.chain [StableHlo.seq hostOps1]) Q' := by
  rw [arrays_exit, rest_split, Zafter,
    show (Pipeline.chain [StableHlo.seq hostOps1] : Prog (TpuEff nD τ sig (Elt F) (Pipeline.Sig Λ₀ (Fin 1) fun p => (pcfgs (F := F) p).Adm) .tc) PUnit)
      = Pipeline.chain (([hostOps1] : List (List (HloOp τ sig (Elt F)))).map StableHlo.seq ++ []) from rfl]
  iintro ⟨Hk, Hb, ⟨A0, A1, A2, A3, A4, A5, A6⟩, ⟨Z34, Z35, Z36, Zc, Z37⟩, HR⟩
  ihave Hh := (Entails.of_eq (held_entry m c).symm) $$ [A5 A6 Z34 Z35 Z36 Zc Z37]
  · isplitl [A5]; · iexact A5
    isplitl [A6]; · iexact A6
    isplitl [Z34]; · iexact Z34
    isplitl [Z35]; · iexact Z35
    isplitl [Z36]; · iexact Z36
    isplitl [Zc]; · iexact Zc
    iexact Z37
  iapply (Pipeline.wp_seqs_then (pcfgs (F := F)) defs₀ Variants.none c tailSet [] [hostOps1]
    (fun ops ho op h => by
      simp only [List.mem_cons, List.mem_nil_iff, or_false] at ho
      subst ho
      exact hostOps1_tail op h)
    (fun ops ho op h => by
      simp only [List.mem_cons, List.mem_nil_iff, or_false] at ho
      subst ho
      exact (List.forall_iff_forall_mem.mp hostOps1_fresh) op h)
    (Wx m c)) $$ [Hb Hh]
  · isplitl [Hb] <;> iassumption
  iintro ⟨Hb, Hh⟩
  rw [Pipeline.chain_nil, wp_pure]
  simp only [List.flatten_cons, List.flatten_nil, List.append_nil]
  ihave Hh' := (Entails.of_eq (held_exit m c)) $$ Hh
  icases Hh' with ⟨A5, A6, Z34, Z35, Z36, Zc, Z37⟩
  imodintro
  iapply Hk
  isplitl [A0 A1 A2 A3 A4 A5 A6]
  · isplitl [A0]; · iexact A0
    isplitl [A1]; · iexact A1
    isplitl [A2]; · iexact A2
    isplitl [A3]; · iexact A3
    isplitl [A4]; · iexact A4
    isplitl [A5]; · iexact A5
    iexact A6
  isplitl [HR]; · iexact HR
  isplitl [Z34]; · iexact Z34
  isplitl [Z35]; · iexact Z35
  isplitl [Z36]; · iexact Z36
  isplitl [Zc]; · iexact Zc
  iexact Z37

/-! ## The invariant at the region's two ends -/

/-- At entry the two cells hold anything: the scoped buffers that are no staging buffer. -/
theorem phi_in (c : Dev nD) (A B : sProp 𝕄) :
    iprop(A ∗ B ∗ Pipeline.scopedRest (Ix := Unit) (Name := ℕ) (U := UR sig nD τ) (Lvl := ℕ) (Val := Elt F) spec0 c) ⊢ (dats m 0 c).Φ 0 := by
  rw [show (dats m 0 c).Φ 0 = PhiS m c 0 (Nat.zero_le _) from rfl, PhiS_zero m c 0 _ rfl, ← scopedRest_cells]
  iintro ⟨-, -, HR⟩; iexact HR

/-- After the last point the cells hold the carried sums; forgetting which, they are the scoped rest again. -/
theorem phi_out (c : Dev nD) :
    (dats m 0 c).Φ (Fin.last cfg0.N)
      ⊢ iprop((emp : sProp 𝕄) ∗ Pipeline.scopedRest (Ix := Unit) (Name := ℕ) (U := UR sig nD τ) (Lvl := ℕ) (Val := Elt F) spec0 c) := by
  rw [show (dats m 0 c).Φ (Fin.last cfg0.N) = PhiS m c cfg0.N (le_refl _) from rfl,
    PhiS_pos m c cfg0.N _ (by rw [show cfg0.N = 64 from N_0]; decide), scopedRest_cells]
  iintro ⟨H0, H1⟩
  isplitr; · iempintro
  isplitl [H0]; · iexists _; iexact H0
  iexists _; iexact H1

theorem rest_X (c : Dev nD) :
    (Pipeline.unscopedRest (Ix := Unit) (Name := ℕ) (U := UR sig nD τ) (Lvl := ℕ) spec0 c (V m c) : sProp 𝕄)
      ⊢ iprop((emp : sProp 𝕄) ∗ Pipeline.unscopedRest (Ix := Unit) (Name := ℕ) (U := UR sig nD τ) (Lvl := ℕ) spec0 c (V m c)) := by
  iintro H; isplitr; · iempintro
  iexact H

/-! ## The final state -/

/-- What is read off the final state: the result buffer at the operations' value, every untouched bypassing buffer as
    the region found it. -/
def QYp (c : Dev nD) (s : MemSt nD τ sig (Elt F)) : Prop :=
  s.mem ((c.tc : Thread nD τ).loc main_v37) = StableHlo.after hostOps1 (Wx m c) (Proc.devRef .tc main_v37)
    ∧ ∀ b ∈ restSet, s.mem ((c.tc : Thread nD τ).loc b) = V m c b

theorem read_end (c : Dev nD) (s' : Phys nD τ sig (Elt F)) :
    iprop((emp : sProp 𝕄) ∗ Zafter m c ∗ SI s') ⊢ |={Set.univ}=> iprop(⌜QYp m c s'.mem⌝ ∗ SI s') := by
  unfold Zafter
  iintro ⟨-, ⟨HR, -, -, -, -, H37⟩, HSI⟩
  icombine HSI H37 gives %h
  ihave Hr := (pointsTo_read_all restSet (fun b => (c.tc : Thread nD τ).loc b) (V m c) s') $$ [HR HSI]
  · isplitl [HR] <;> iassumption
  icases Hr with ⟨%hr, HSI⟩
  imodintro
  isplitr; · ipureintro; exact ⟨Buf.eq_of_forall_mem_univ h, hr⟩
  iexact HSI

/-! ## The run -/

abbrev EP : Emb (UR sig nD τ) 𝕄 := emb₁

/-- The launch's ghost state: the staging cells' rounds, nothing owed. -/
def u₀ : UR sig nD τ := initOf (Pipeline.cells cfgs cellOf_inj) (Pipeline.launchToks cfgs cellOf_inj)

set_option backward.isDefEq.respectTransparency.types false in
/-- From any memory with zero counters every weakly fair execution of @main ends, the result at `lossOf` of the
    carried sums after point 63 and the arguments unchanged. -/
theorem run_main : θ_run defs (onTc (τ := τ) (main (F := F))) ⟨m, fun _ => 0, ρ⟩ (fun r => ∀ c : Dev nD,
      r.2.mem ((c.tc : Thread nD τ).loc main_v37) = lossOf (accAt m c 63 lastPt).1 (accAt m c 63 lastPt).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_region_noSem_pf_tail (fun p => (cfgs p).toPCfg) (fun p => (cfgs p).toPCfg_adm) (dats m) () cellOf_inj (0 : Fin 1)
    winFacts₀0 (Pipeline.PreFacts.none _) EP defs₀ Variants.none m ρ main (fun _ => Pipeline.chain [StableHlo.seq hostOps1])
    (hbody := fun c => (body_obligation m c).loose) (hne := block_pos0) (harr := arr_whole0) (hstage := stage_whole0)
    (howed := fun _ _ => rfl)
    (u₀ := u₀) (hu₀ := .rfl)
    (V := V m) (hmain := hmain m)
    (hsplit := arrs_split m)
    (hpf := fun _ k => k.elim0)
    (X := fun _ => iprop(emp)) (Y := fun _ => iprop(emp))
    (Z := fun c => Pipeline.unscopedRest (Ix := Unit) (Name := ℕ) (U := UR sig nD τ) (Lvl := ℕ) spec0 c (V m c))
    (Z' := Zafter m)
    (hX := fun c => by rw [Pipeline.unscopedRestP_none]; exact rest_X m c)
    (hin := fun c => phi_in m c _ _)
    (hout := phi_out m)
    (htail := tail_run m)
    (QY := QYp m)
    (hY := read_end m)
    (hQ := fun s h c => by
      obtain ⟨-, -, h37, hr⟩ := h c
      refine ⟨?_, ?_, ?_, ?_, ?_⟩
      · rw [h37, after1_37, Wx_5, Wx_6, arrAt_out5, arrAt_out6]
      · rw [hr main_arg0 (by decide), V_arg0]
      · rw [hr main_arg1 (by decide), V_arg1]
      · rw [hr main_arg2 (by decide), V_arg2]
      · rw [hr main_arg3 (by decide), V_arg3])

end Cert.Kernel.Hand

end
-- ==== Proof.Spec.lean ====
/-
  The pixel-contrast loss as a function of the sampled feature rows and their labels, over the extended reals.

  `cf r k` is feature `k` of sample `r` (8192 samples, view-major; 256 features), `lab r` the class word of sample `r`,
  `κ` the inverse temperature. Row `r` of the similarity matrix is `G r c = ∑ k, cf r k * cf c k`, scaled by `κ` and
  shifted by its own maximum. With `e = exp` of that, the negatives of row `r` are the columns of another class and
  its positives the columns of its own class other than `r` itself:
      logProb r c = shifted r c - log (e r c + ∑ c' negative, e r c')
      rowMean r   = (∑ c positive, logProb r c) / (number of positives of r)
  and the loss is a fixed multiple of (∑ r, rowMean r * weight r) / (∑ r, weight r), a row of class `0` weighing nothing.
  Both programs compute exactly these sums; they differ in how the rows are grouped (128 at a time against all at once)
  and in how the scale `κ` is spelt (a product against a quotient).
-/
import Idealize.ShloMosaic.PureOps.Ideal
import Idealize.ShloMosaic.PureOps.Ideal.Laws

noncomputable section

namespace Cert.Spec

open Idealize.ShloMosaic

variable (cf : Fin 8192 → Fin 256 → EReal) (lab : Fin 8192 → BitVec 32) (κ : EReal)

/-- The similarity of samples `r` and `c`. -/
def gram (r c : Fin 8192) : EReal := ∑ k : Fin 256, cf r k * cf c k

/-- Scaled by the inverse temperature. -/
def logit (r c : Fin 8192) : EReal := gram cf r c * κ

/-- The largest scaled similarity of row `r` (the fold of `max` from `-∞`). -/
def rowMax (r : Fin 8192) : EReal := Finset.univ.fold max (⊥ : EReal) (fun c : Fin 8192 => logit cf κ r c)

/-- Row `r` shifted by its maximum. -/
def shifted (r c : Fin 8192) : EReal := logit cf κ r c - rowMax cf κ r

/-- Its exponential. -/
def ex (r c : Fin 8192) : EReal := Ideal.exp (shifted cf κ r c)

/-- `1` on a column of another class than row `r`'s, `0` on one of its own. -/
def negMask (r c : Fin 8192) : EReal := if lab r = lab c then 0 else 1

/-- The mass of row `r`'s negatives. -/
def negSum (r : Fin 8192) : EReal := ∑ c : Fin 8192, ex cf κ r c * negMask lab r c

/-- The log-probability of column `c` against row `r`'s negatives. -/
def logProb (r c : Fin 8192) : EReal := shifted cf κ r c - Ideal.log (ex cf κ r c + negSum cf lab κ r)

/-- `1` on a column of row `r`'s class other than `r` itself, else `0`. -/
def posMask (r c : Fin 8192) : EReal := if lab r = lab c ∧ r ≠ c then 1 else 0

/-- The positives' log-probabilities, summed, -/
def posSum (r : Fin 8192) : EReal := ∑ c : Fin 8192, posMask lab r c * logProb cf lab κ r c

/-- and counted. -/
def posCount (r : Fin 8192) : EReal := ∑ c : Fin 8192, posMask lab r c

/-- Their mean. -/
def rowMean (r : Fin 8192) : EReal := Ideal.div (posSum cf lab κ r) (posCount lab r)

/-- A row of class `0` weighs nothing, any other `1`. -/
def weight (r : Fin 8192) : EReal := if lab r = 0#32 then 0 else 1

/-- The weighted sum of the rows' means, -/
def wsum : EReal := ∑ r : Fin 8192, rowMean cf lab κ r * weight lab r

/-- and the total weight. -/
def wtot : EReal := ∑ r : Fin 8192, weight lab r

/-- The rows taken 128 at a time, block after block, are all the rows: a sum over the 8192 rows is the sum over the
    64 blocks of the sums over each block's 128 rows. -/
def rowOf (t : Fin 64) (p : Fin 128) : Fin 8192 := ⟨128 * t.val + p.val, by have := t.isLt; have := p.isLt; omega⟩

theorem sum_blocks {M : Type} [AddCommMonoid M] (f : Fin 8192 → M) :
    ∑ r : Fin 8192, f r = ∑ t : Fin 64, ∑ p : Fin 128, f (rowOf t p) := by
  rw [← Fintype.sum_prod_type' (f := fun (t : Fin 64) (p : Fin 128) => f (rowOf t p))]
  refine (Fintype.sum_equiv (finProdFinEquiv : Fin 64 × Fin 128 ≃ Fin 8192) _ _ ?_).symm
  rintro ⟨t, p⟩
  refine congrArg f (Fin.ext ?_)
  show 128 * t.val + p.val = p.val + 128 * t.val
  omega

end Cert.Spec

end
-- ==== Proof.IdealRun.Blocks.lean ====
/-
  What the kernel's five windows hold at a grid point, at the extended reals, in terms of the program's arguments:
  the 38 host operations before the region gather the sampled feature rows (the same chain of operations as the
  reference's, the final rounding to bf16 being the identity here), tile the 128 anchor labels over the 64 views as a
  column and as a row, and tile the labels' weights; block `t` of a row-blocked window is rows `128 t … 128 t + 127`.
-/
import proofs.«413265_j2430951490101_1_alg».proof.Proof.IdealRun.Acc
import proofs.«413265_j2430951490101_1_alg».proof.Proof.Gen.ReferenceIdeal.Read
import proofs.«413265_j2430951490101_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Spec (rowOf)

variable (m : (ℓ : Loc nD τ sig) → Buf (Elt Ideal) ℓ) (c : Dev nD)

/-- The sampled feature rows the region finds: the reference's own gather chain of the three first arguments. -/
def cfOf (r : Fin 8192) (k : Fin 256) : EReal :=
  Cert.ReferenceIdeal.Read.val_main_v19 (F := Ideal) (m ((c.tc : Thread nD τ).loc main_arg0)) (m ((c.tc : Thread nD τ).loc main_arg1))
    (m ((c.tc : Thread nD τ).loc main_arg2)) (ix2 r k)

/-- The label of sample `r`: the 128 anchor labels repeated over the 64 views. -/
def labOf (r : Fin 8192) : BitVec 32 :=
  m ((c.tc : Thread nD τ).loc main_arg3) (ix1 (⟨r.val % 128, Nat.mod_lt _ (by decide)⟩ : Fin 128))

/-- A point of the grid as a block number. -/
def blockNo (t : Fin cfg0.N) : Fin 64 := ⟨t.val, lt_of_lt_of_eq t.isLt (show cfg0.N = 64 from N_0)⟩

/-- The grid has one axis: a point's coordinate is the point's own number. -/
theorem coords_blockNo (t : Fin cfg0.N) : ((grid0.coords t) 0).val = (blockNo t).val :=
  (by decide +kernel : ∀ t : Fin grid0.N, ((grid0.coords t) 0).val = t.val) t

/-! ## A block read is the array read at the block's rows -/

/-- The five input windows' block indices at point `t`, decided over the 64 points: the row-blocked windows sit at block
    `(t, 0)`, the resident ones at `(0, 0)`. -/
theorem idx_rows : ∀ t : Fin cfg0.N,
    win0_0.index t (0 : Fin 2) = t.val ∧ win0_0.index t (1 : Fin 2) = 0
  ∧ win0_1.index t (0 : Fin 2) = 0 ∧ win0_1.index t (1 : Fin 2) = 0
  ∧ win0_2.index t (0 : Fin 2) = t.val ∧ win0_2.index t (1 : Fin 2) = 0
  ∧ win0_3.index t (0 : Fin 2) = 0 ∧ win0_3.index t (1 : Fin 2) = 0
  ∧ win0_4.index t (0 : Fin 2) = t.val ∧ win0_4.index t (1 : Fin 2) = 0 :=
  (by decide +kernel : ∀ t : Fin grid0.N, _)

/-- Window 0 over any array: entry `(p, k)` of block `t` is the array's entry `(128 t + p, k)`. -/
theorem read0 (A : (⟨S8192x256, .bf16⟩ : BufTy).Contents (Elt Ideal)) (t : Fin cfg0.N) (p : Fin 128) (k : Fin 256) :
    ((cfg0.win 0).blk t).view.read (Elt Ideal) A (ix2 p k) = A (ix2 (rowOf (blockNo t) p) k) := by
  obtain ⟨e0, e1, -⟩ := idx_rows t
  show A (((cfg0.win 0).blk t).view.emb (ix2 p k)) = A _
  refine congrArg A (funext fun a => Fin.ext ?_)
  match a with
  | ⟨0, _⟩ => show win0_0.index t (0 : Fin 2) * 128 + 1 * p.val = 128 * t.val + p.val; omega
  | ⟨1, _⟩ => show win0_0.index t (1 : Fin 2) * 256 + 1 * k.val = k.val; omega

/-- Window 1 over any array: the one block is the whole array. -/
theorem read1 (A : (⟨S8192x256, .bf16⟩ : BufTy).Contents (Elt Ideal)) (t : Fin cfg0.N) (r : Fin 8192) (k : Fin 256) :
    ((cfg0.win 1).blk t).view.read (Elt Ideal) A (ix2 r k) = A (ix2 r k) := by
  obtain ⟨-, -, e0, e1, -⟩ := idx_rows t
  show A (((cfg0.win 1).blk t).view.emb (ix2 r k)) = A _
  refine congrArg A (funext fun a => Fin.ext ?_)
  match a with
  | ⟨0, _⟩ => show win0_1.index t (0 : Fin 2) * 8192 + 1 * r.val = r.val; omega
  | ⟨1, _⟩ => show win0_1.index t (1 : Fin 2) * 256 + 1 * k.val = k.val; omega

/-- Window 2 over any column: entry `p` of block `t` is the column's entry `128 t + p`. -/
theorem read2 (A : (⟨S8192x1, .i32⟩ : BufTy).Contents (Elt Ideal)) (t : Fin cfg0.N) (p : Fin 128) :
    ((cfg0.win 2).blk t).view.read (Elt Ideal) A (ix2 p (0 : Fin 1)) = A (ix2 (rowOf (blockNo t) p) (0 : Fin 1)) := by
  obtain ⟨-, -, -, -, e0, e1, -⟩ := idx_rows t
  show A (((cfg0.win 2).blk t).view.emb (ix2 p (0 : Fin 1))) = A _
  refine congrArg A (funext fun a => Fin.ext ?_)
  match a with
  | ⟨0, _⟩ => show win0_2.index t (0 : Fin 2) * 128 + 1 * p.val = 128 * t.val + p.val; omega
  | ⟨1, _⟩ => show win0_2.index t (1 : Fin 2) * 1 + 1 * 0 = 0; omega

/-- Window 3 over any row: the one block is the whole row. -/
theorem read3 (A : (⟨S1x8192, .i32⟩ : BufTy).Contents (Elt Ideal)) (t : Fin cfg0.N) (r : Fin 8192) :
    ((cfg0.win 3).blk t).view.read (Elt Ideal) A (ix2 (0 : Fin 1) r) = A (ix2 (0 : Fin 1) r) := by
  obtain ⟨-, -, -, -, -, -, e0, e1, -⟩ := idx_rows t
  show A (((cfg0.win 3).blk t).view.emb (ix2 (0 : Fin 1) r)) = A _
  refine congrArg A (funext fun a => Fin.ext ?_)
  match a with
  | ⟨0, _⟩ => show win0_3.index t (0 : Fin 2) * 1 + 1 * 0 = 0; omega
  | ⟨1, _⟩ => show win0_3.index t (1 : Fin 2) * 8192 + 1 * r.val = r.val; omega

/-- Window 4 over any column: entry `p` of block `t` is the column's entry `128 t + p`. -/
theorem read4 (A : (⟨S8192x1, .f32⟩ : BufTy).Contents (Elt Ideal)) (t : Fin cfg0.N) (p : Fin 128) :
    ((cfg0.win 4).blk t).view.read (Elt Ideal) A (ix2 p (0 : Fin 1)) = A (ix2 (rowOf (blockNo t) p) (0 : Fin 1)) := by
  obtain ⟨-, -, -, -, -, -, -, -, e0, e1⟩ := idx_rows t
  show A (((cfg0.win 4).blk t).view.emb (ix2 p (0 : Fin 1))) = A _
  refine congrArg A (funext fun a => Fin.ext ?_)
  match a with
  | ⟨0, _⟩ => show win0_4.index t (0 : Fin 2) * 128 + 1 * p.val = 128 * t.val + p.val; omega
  | ⟨1, _⟩ => show win0_4.index t (1 : Fin 2) * 1 + 1 * 0 = 0; omega

/-! ## What the host operations leave in the windows' arrays -/

section Tile
variable {α : Type}

/-- 128 entries laid out as one row, copied down 64 rows, and read off row after row: the 128 entries 64 times over. -/
abbrev tiled (L : S128.Idx → α) : S8192.Idx → α :=
  shapeCast S8192 (broadcastInDim S64x128 ![0, 1] bcast_S1x128_S64x128_0_1 (shapeCast S1x128 L shapeCasts_S128_S1x128)) shapeCasts_S64x128_S8192

/-- Entry `r` of the tiling is entry `r mod 128`. -/
theorem tiled_apply (L : S128.Idx → α) (r : Fin 8192) :
    tiled L (ix1 r) = L (ix1 (⟨r.val % 128, Nat.mod_lt _ (by decide)⟩ : Fin 128)) := by
  have hr : r.val < 8192 := r.isLt
  refine (shapeCast_apply _ shapeCasts_S64x128_S8192 (ix1 r)
    (ix2 (⟨r.val / 128, by omega⟩ : Fin 64) (⟨r.val % 128, Nat.mod_lt _ (by decide)⟩ : Fin 128)) ?_).trans ?_
  · rewrite [Shape.rowMajor_val_two, Shape.rowMajor_val_one]
    show r.val / 128 * 128 + r.val % 128 = r.val
    omega
  refine (broadcastInDim_apply ![0, 1] bcast_S1x128_S64x128_0_1 _ _
    (ix2 (0 : Fin 1) (⟨r.val % 128, Nat.mod_lt _ (by decide)⟩ : Fin 128)) (fun a => ?_)).trans ?_
  · match a with
    | ⟨0, _⟩ => show 0 = if (1 : Nat) = 1 then 0 else r.val / 128; rw [if_pos rfl]
    | ⟨1, _⟩ => show r.val % 128 = if (128 : Nat) = 1 then 0 else r.val % 128; rw [if_neg (by decide)]
  refine shapeCast_apply L shapeCasts_S128_S1x128 _ (ix1 _) ?_
  rewrite [Shape.rowMajor_val_one, Shape.rowMajor_val_two]
  show r.val % 128 = 0 * 128 + r.val % 128
  omega

/-- A vector of 8192 entries as a column, read at row `r`. -/
theorem col_apply (X : S8192.Idx → α) (r : Fin 8192) :
    shapeCast S8192x1 X shapeCasts_S8192_S8192x1 (ix2 r (0 : Fin 1)) = X (ix1 r) := by
  refine shapeCast_apply X shapeCasts_S8192_S8192x1 _ (ix1 r) ?_
  rewrite [Shape.rowMajor_val_one, Shape.rowMajor_val_two]
  show r.val = r.val * 1 + 0
  omega

/-- The same vector as a row, read at column `r`. -/
theorem row_apply (X : S8192.Idx → α) (r : Fin 8192) :
    shapeCast S1x8192 X shapeCasts_S8192_S1x8192 (ix2 (0 : Fin 1) r) = X (ix1 r) := by
  refine shapeCast_apply X shapeCasts_S8192_S1x8192 _ (ix1 r) ?_
  rewrite [Shape.rowMajor_val_one, Shape.rowMajor_val_two]
  show r.val = 0 * 8192 + r.val
  omega

end Tile

/-- The weight of a label word, as the host computes it: the bit of `w ≠ 0` read as a number. -/
theorem weight_word (w : BitVec 32) :
    (FloatOps.uitofp (F := Ideal) .f32 (IntOp.cmpi .ne w 0#32) : EReal) = if w = 0#32 then 0 else 1 := by
  show (((IntOp.cmpi .ne w 0#32).toNat : ℝ) : EReal) = _
  by_cases h : w = 0#32
  · subst h
    rw [if_pos rfl]
    simp [IntOp.cmpi]
  · rw [if_neg h]
    have hb : (w != 0#32) = true := by simpa using h
    simp [IntOp.cmpi, hb]

/-- The sampled features: the host's gather chain is the reference's, operation for operation, and the rounding to bf16 that
    follows it is the identity on extended reals. -/
theorem arr20_apply (r : Fin 8192) (k : Fin 256) : V m c main_v20 (ix2 r k) = cfOf m c r k := by
  have e : @Eq (FVec Ideal S8192x256 .bf16) (V m c main_v20)
      (truncf (F := Ideal) (s := S8192x256) (φ := .f32) .bf16
        (Cert.ReferenceIdeal.Read.val_main_v19 (F := Ideal) (m ((c.tc : Thread nD τ).loc main_arg0))
          (m ((c.tc : Thread nD τ).loc main_arg1)) (m ((c.tc : Thread nD τ).loc main_arg2))) bitsLt_bf16_f32) := by
    dsimp only [V, V0, hostOps0]
    after_results_simp
    rfl
  rw [e]
  rfl

/-- The labels as a column: the 128 labels tiled, entry `r` the label `r mod 128`. -/
theorem arr30_apply (r : Fin 8192) : V m c main_v30 (ix2 r (0 : Fin 1)) = labOf m c r := by
  have e : (V m c main_v30 : S8192x1.Idx → BitVec 32)
      = shapeCast S8192x1 (tiled (m ((c.tc : Thread nD τ).loc main_arg3))) shapeCasts_S8192_S8192x1 := by
    dsimp only [V, V0, hostOps0]
    after_results_simp
    rfl
  rw [e, col_apply, tiled_apply]
  rfl

/-- The same labels as a row. -/
theorem arr31_apply (r : Fin 8192) : V m c main_v31 (ix2 (0 : Fin 1) r) = labOf m c r := by
  have e : (V m c main_v31 : S1x8192.Idx → BitVec 32)
      = shapeCast S1x8192 (tiled (m ((c.tc : Thread nD τ).loc main_arg3))) shapeCasts_S8192_S1x8192 := by
    dsimp only [V, V0, hostOps0]
    after_results_simp
    rfl
  rw [e, row_apply, tiled_apply]
  rfl

/-- The weights as a column: the bit of "label ≠ 0" as a number, tiled like the labels. -/
theorem arr32_apply (r : Fin 8192) : V m c main_v32 (ix2 r (0 : Fin 1)) = Cert.Spec.weight (labOf m c) r := by
  have e : (V m c main_v32 : S8192x1.Idx → EReal)
      = shapeCast S8192x1 (tiled (uitofp (F := Ideal) .f32 (cmpi .ne (m ((c.tc : Thread nD τ).loc main_arg3))
          (broadcastInDim S128 ![] bcast_S_S128 (constantI S_ 32 0#32))))) shapeCasts_S8192_S8192x1 := by
    dsimp only [V, V0, hostOps0]
    after_results_simp
    rfl
  rw [e, col_apply, tiled_apply]
  exact weight_word _

/-! ## The five windows at a grid point -/

/-- The row block: rows `128 t …` of the sampled features. -/
theorem iblk0_apply (t : Fin cfg0.N) (p : Fin 128) (k : Fin 256) :
    (iblk m c 0 t : Vec Ideal S128x256 .bf16) (ix2 p k) = cfOf m c (rowOf (blockNo t) p) k :=
  (read0 (V m c main_v20) t p k).trans (arr20_apply m c _ k)

/-- The resident window: all the sampled features, at every point. -/
theorem iblk1_apply (t : Fin cfg0.N) (r : Fin 8192) (k : Fin 256) :
    (iblk m c 1 t : Vec Ideal S8192x256 .bf16) (ix2 r k) = cfOf m c r k :=
  (read1 (V m c main_v20) t r k).trans (arr20_apply m c r k)

/-- The row block's labels. -/
theorem iblk2_apply (t : Fin cfg0.N) (p : Fin 128) :
    (iblk m c 2 t : Vec Ideal S128x1 .i32) (ix2 p (0 : Fin 1)) = labOf m c (rowOf (blockNo t) p) :=
  (read2 (V m c main_v30) t p).trans (arr30_apply m c _)

/-- All the labels, as a row. -/
theorem iblk3_apply (t : Fin cfg0.N) (r : Fin 8192) :
    (iblk m c 3 t : Vec Ideal S1x8192 .i32) (ix2 (0 : Fin 1) r) = labOf m c r :=
  (read3 (V m c main_v31) t r).trans (arr31_apply m c r)

/-- The row block's weights. -/
theorem iblk4_apply (t : Fin cfg0.N) (p : Fin 128) :
    (iblk m c 4 t : Vec Ideal S128x1 .f32) (ix2 p (0 : Fin 1)) = Cert.Spec.weight (labOf m c) (rowOf (blockNo t) p) :=
  (read4 (V m c main_v32) t p).trans (arr32_apply m c _)

end Cert.KernelIdeal.Hand

end
-- ==== Proof.Consts.lean ====
/-
  The float words the two programs spell, as the extended reals they denote.
-/
import Idealize.ShloMosaic.PureOps.Ideal
import Idealize.ShloMosaic.PureOps.Ideal.Laws

noncomputable section

namespace Cert.Consts

open Idealize.ShloMosaic

/-- `1.0` denotes `1`. -/
theorem ofBits_one : Ideal.ofBits .f32 0x3F800000#32 = 1 := by
  simp [Ideal.ofBits, Ideal.ieee, -EReal.coe_mul]; norm_num

/-- `0.0` denotes `0`. -/
theorem ofBits_zero : Ideal.ofBits .f32 0x00000000#32 = 0 := Ideal.ofBits_zero_f32

/-- The pattern of `-∞` denotes `⊥`. -/
theorem ofBits_negInf : Ideal.ofBits .f32 0xFF800000#32 = ⊥ := by
  simp [Ideal.ofBits, Ideal.ieee]

/-- The reference's temperature, the f32 nearest `0.1`, denotes `13421773 / 134217728`. -/
theorem ofBits_temp : Ideal.ofBits .f32 0x3DCCCCCD#32 = ((13421773 / 134217728 : ℝ) : EReal) := by
  simp [Ideal.ofBits, Ideal.ieee, -EReal.coe_mul]; norm_num

/-- The inverse temperature both programs scale by: the reciprocal of the reference's temperature. -/
def κ : EReal := ((134217728 / 13421773 : ℝ) : EReal)

/-- Dividing by the temperature is multiplying by its reciprocal, on every extended real. -/
theorem div_temp (x : EReal) : Ideal.div x (Ideal.ofBits .f32 0x3DCCCCCD#32) = x * κ := by
  rw [ofBits_temp, Ideal.div_coe (by norm_num : (13421773 / 134217728 : ℝ) ≠ 0)]
  unfold κ
  norm_num

end Cert.Consts

end
-- ==== Proof.Rows.Kernel.lean ====
/-
  One grid point of the kernel, read at the extended reals: from the point's five blocks the body adds to the first
  cell the weighted means of the block's 128 rows and to the second their weights — the rows' means being exactly the
  specification's `rowMean`.
-/
import proofs.«413265_j2430951490101_1_alg».proof.Proof.Gen.KernelIdeal.Skeleton
import proofs.«413265_j2430951490101_1_alg».proof.Proof.Spec
import proofs.«413265_j2430951490101_1_alg».proof.Proof.Consts
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Rows

open Cert.KernelIdeal Cert.KernelIdeal.Gen
open Idealize.ShloMosaic Idealize.ShloMosaic.ValueIdx
open Cert.Spec (rowOf)

/-- The kernel's named scale is the reciprocal of the reference's temperature. -/
theorem inv_temp : Named.named (F := Ideal) Cert.KernelIdeal.κ "inv_temp" (φ := .f32) 0x41200000#32 = Cert.Consts.κ :=
  IdealRules.named_const.ideal_named_scalar _ _ _ _ rfl

/-! ## Reductions and keepdims layouts read at coordinates -/

/-- The sum over the 128 rows of a one-column vector, read at its one index. -/
theorem colSum_apply (src : FVec Ideal S128x1 .f32) (h : S128x1.Reduces [0] S1) (hφ : FKind.Formats .f32)
    (hacc : (0x00000000#32 : BitVec 32) = FKind.add.neutral .f32 hφ) :
    multiReduction (F := Ideal) .add [0] S1 src 0x00000000#32 h hφ hacc (ix1 (0 : Fin 1))
      = ∑ p : Fin 128, src (ix2 p (0 : Fin 1)) := by
  refine (Ideal.multiReduction_add_single src 0x00000000#32 h hφ hacc (ix1 (0 : Fin 1))).trans ?_
  refine Finset.sum_congr rfl fun p _ => congrArg src ?_
  funext a
  match a with
  | ⟨0, _⟩ => rfl
  | ⟨1, _⟩ => rfl

/-- A one-element vector viewed as a one-by-one matrix. -/
theorem cast_1_1x1 {α : Type} (x : S1.Idx → α) (h : S1.ShapeCasts S1x1) :
    shapeCast S1x1 x h (ix2 (0 : Fin 1) (0 : Fin 1)) = x (ix1 (0 : Fin 1)) :=
  shapeCast_a_1a_apply x h 0 0

/-- A vector viewed as a one-column matrix reads, at `(i, u)`, the vector at `i`. -/
theorem cast_a_a1 {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along the lanes reads, at `(p, c)`, the column at `p`. -/
theorem bcast_a1_ab {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a lane reduction of a 128×8192 vector reads at row `p`, lane `c`. -/
theorem lift_lane (h : S128x8192.Reduces [1] S128) (p : Fin 128) (c : Fin 8192) :
    h.lift (ix1 p) c = ix2 p c := by
  funext a
  match a with
  | ⟨0, _⟩ => rfl
  | ⟨1, _⟩ => rfl

/-- The sum along the lanes of a 128×8192 vector, read at row `p`. -/
theorem rowSum_apply (src : FVec Ideal S128x8192 .f32) (h : S128x8192.Reduces [1] S128) (hφ : FKind.Formats .f32)
    (hacc : (0x00000000#32 : BitVec 32) = FKind.add.neutral .f32 hφ) (p : Fin 128) :
    multiReduction (F := Ideal) .add [1] S128 src 0x00000000#32 h hφ hacc (ix1 p)
      = ∑ c : Fin 8192, src (ix2 p c) := by
  refine (Ideal.multiReduction_add_single src 0x00000000#32 h hφ hacc (ix1 p)).trans ?_
  exact Finset.sum_congr rfl fun c _ => congrArg src (lift_lane h p c)

/-- The maximum along the lanes of a 128×8192 vector from `-∞`, read at row `p`. -/
theorem rowMax_apply (src : FVec Ideal S128x8192 .f32) (h : S128x8192.Reduces [1] S128) (hφ : FKind.Formats .f32)
    (hacc : (0xFF800000#32 : BitVec 32) = FKind.maximumf.neutral .f32 hφ) (p : Fin 128) :
    multiReduction (F := Ideal) .maximumf [1] S128 src 0xFF800000#32 h hφ hacc (ix1 p)
      = Finset.univ.fold max (⊥ : EReal) (fun c : Fin 8192 => src (ix2 p c)) := by
  refine (Ideal.multiReduction_maximumf_single src 0xFF800000#32 h hφ hacc (ix1 p)).trans ?_
  have e : (src ∘ h.lift (ix1 p)) = fun c : Fin 8192 => src (ix2 p c) :=
    funext fun c => congrArg src (lift_lane h p c)
  rw [e]
  exact congrArg (fun z => Finset.univ.fold max z fun c : Fin 8192 => src (ix2 p c)) Cert.Consts.ofBits_negInf

/-! ## The matrix product -/

theorem lhs_dot_0 (j : S128x8192.Idx) (q : dot_S128x256_S256x8192_S128x8192_1_0_0_1_n_n.contr.Idx) :
    (dot_S128x256_S256x8192_S128x8192_1_0_0_1_n_n.lhsIdx j q 0).val = (j 0).val := by
  unfold DotDims.lhsIdx
  rw [dif_neg (show ¬(0 : Fin S128x256.rank) ∈ dot_S128x256_S256x8192_S128x8192_1_0_0_1_n_n.lhsBatch by decide), dif_pos (show (0 : Fin S128x256.rank) ∈ dot_S128x256_S256x8192_S128x8192_1_0_0_1_n_n.lhsNonContracting by decide)]
  rfl
theorem lhs_dot_1 (j : S128x8192.Idx) (q : dot_S128x256_S256x8192_S128x8192_1_0_0_1_n_n.contr.Idx) :
    (dot_S128x256_S256x8192_S128x8192_1_0_0_1_n_n.lhsIdx j q 1).val = (q ⟨0, by decide⟩).val :=
  dot_S128x256_S256x8192_S128x8192_1_0_0_1_n_n.lhsIdx_val_of_single rfl j q
theorem rhs_dot_0 (j : S128x8192.Idx) (q : dot_S128x256_S256x8192_S128x8192_1_0_0_1_n_n.contr.Idx) :
    (dot_S128x256_S256x8192_S128x8192_1_0_0_1_n_n.rhsIdx j q 0).val = (q ⟨0, by decide⟩).val :=
  dot_S128x256_S256x8192_S128x8192_1_0_0_1_n_n.rhsIdx_val_of_single rfl j q
theorem rhs_dot_1 (j : S128x8192.Idx) (q : dot_S128x256_S256x8192_S128x8192_1_0_0_1_n_n.contr.Idx) :
    (dot_S128x256_S256x8192_S128x8192_1_0_0_1_n_n.rhsIdx j q 1).val = (j 1).val := by
  unfold DotDims.rhsIdx
  rw [dif_neg (show ¬(1 : Fin S256x8192.rank) ∈ dot_S128x256_S256x8192_S128x8192_1_0_0_1_n_n.rhsBatch by decide), dif_pos (show (1 : Fin S256x8192.rank) ∈ dot_S128x256_S256x8192_S128x8192_1_0_0_1_n_n.rhsNonContracting by decide)]
  rfl

/-- The product of a 128×256 block with a 256×8192 matrix into the zero accumulator, read at `(p, c)`: the sum over
    the 256 features of the products. -/
theorem dot_apply (a : FVec Ideal S128x256 .bf16) (b : FVec Ideal S256x8192 .bf16) (p : Fin 128) (c : Fin 8192) :
    matmul dot_S128x256_S256x8192_S128x8192_1_0_0_1_n_n none a b (constant (F := Ideal) S128x8192 .f32 0x00000000#32) (ix2 p c)
      = ∑ k : Fin 256, a (ix2 p k) * b (ix2 k c) := by
  simp only [matmul]
  rw [Ideal.matmul_constant_zero_apply, ← Equiv.sum_comp (contrEquiv1 dot_S128x256_S256x8192_S128x8192_1_0_0_1_n_n 256 rfl rfl).symm]
  refine Finset.sum_congr rfl fun k _ => ?_
  have hk := contrEquiv1_symm_val dot_S128x256_S256x8192_S128x8192_1_0_0_1_n_n 256 rfl rfl k
  have el : dot_S128x256_S256x8192_S128x8192_1_0_0_1_n_n.lhsIdx (ix2 p c) ((contrEquiv1 dot_S128x256_S256x8192_S128x8192_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S128x256_S256x8192_S128x8192_1_0_0_1_n_n.rhsIdx (ix2 p c) ((contrEquiv1 dot_S128x256_S256x8192_S128x8192_1_0_0_1_n_n 256 rfl rfl).symm k) = ix2 k c := funext fun a => Fin.ext (by
    match a with
    | ⟨0, _⟩ => exact (rhs_dot_0 _ _).trans hk
    | ⟨1, _⟩ => exact rhs_dot_1 _ _)
  rw [el, er]

/-! ## Words and one-bit masks -/

/-- The comparison bit of two words is set exactly when they are equal. -/
theorem cmpi_eq_one_iff {w : ℕ} (a b : BitVec w) : IntOp.cmpi .eq a b = 1#1 ↔ a = b := by
  show BitVec.ofBool (a == b) = 1#1 ↔ a = b
  by_cases h : a = b
  · subst h; simp
  · rw [beq_eq_false_iff_ne.mpr h]
    exact ⟨fun h' => absurd h' (by decide), fun h' => absurd h' h⟩

/-- A select on a bit is the `if` on the bit being set. -/
theorem select_eq_ite {α : Type} (m : BitVec 1) (A B : α) : Scalar.select m A B = if m = 1#1 then A else B := rfl

/-- A select on "`a` and not `b`" (the conjunction with the complement, on one bit). -/
theorem select_and_not {α : Type} (a b : BitVec 1) (A B : α) :
    Scalar.select (IntOp.andi a (IntOp.xori b 1#1)) A B = if a = 1#1 ∧ ¬ b = 1#1 then A else B := by
  rcases BitVec.eq_zero_or_eq_one a with rfl | rfl <;> rcases BitVec.eq_zero_or_eq_one b with rfl | rfl <;> rfl

/-- Row `128·t + p` against column `c`, computed in 32-bit words: no wrap below 8192. -/
theorem row_word_eq_iff (t : Fin 64) (p : Fin 128) (c : Fin 8192) :
    IntOp.addi (Scalar.muli (BitVec.ofNat 32 t.val) 128#32) (BitVec.ofNat 32 p.val) = BitVec.ofNat 32 c.val
      ↔ rowOf t p = c := by
  have ht := t.isLt; have hp := p.isLt; have hc := c.isLt
  unfold IntOp.addi Scalar.muli IntOp.muli rowOf
  rw [← BitVec.toNat_inj, Fin.ext_iff]
  simp only [BitVec.toNat_add, BitVec.toNat_mul, BitVec.toNat_ofNat]
  omega

/-! ## The stages of the block's log-probabilities -/

/-- The block's similarities scaled by the inverse temperature. -/
def stLogit (x0 : Vec Ideal S128x256 .bf16) (x1 : Vec Ideal S8192x256 .bf16) : FVec Ideal S128x8192 .f32 :=
  mulf (matmul dot_S128x256_S256x8192_S128x8192_1_0_0_1_n_n none (shapeCast S128x256 x0 shapeCasts_S128x256_S128x256 : FVec Ideal S128x256 .bf16)
      (transpose S256x8192 [1, 0] (shapeCast S8192x256 x1 shapeCasts_S8192x256_S8192x256 : FVec Ideal S8192x256 .bf16)
        transposes_S8192x256_p1_0_S256x8192)
      (constant (F := Ideal) S128x8192 .f32 0x00000000#32))
    (broadcast S128x8192 (Named.named (F := Ideal) Cert.KernelIdeal.κ "inv_temp" (φ := .f32) 0x41200000#32))

/-- Each row shifted by its maximum. -/
def stShifted (x0 : Vec Ideal S128x256 .bf16) (x1 : Vec Ideal S8192x256 .bf16) : FVec Ideal S128x8192 .f32 :=
  subf (stLogit x0 x1) (broadcastTo S128x8192 (shapeCast S128x1
    (multiReduction (F := Ideal) .maximumf [1] S128 (stLogit x0 x1) 0xFF800000#32 reduces_S128x8192_S128 (.inl rfl) rfl)
    shapeCasts_S128_S128x1) broadcasts_S128x1_S128x8192)

/-- Its exponential. -/
def stEx (x0 : Vec Ideal S128x256 .bf16) (x1 : Vec Ideal S8192x256 .bf16) : FVec Ideal S128x8192 .f32 :=
  exp (stShifted x0 x1)

/-- The negatives' mask: `0` where the labels agree, else `1`. -/
def stNegMask (x2 : Vec Ideal S128x1 .i32) (x3 : Vec Ideal S1x8192 .i32) : FVec Ideal S128x8192 .f32 :=
  select (k0_pay6 (F := Ideal) x2 x3) (broadcast S128x8192 (Scalar.ofBits (F := Ideal) .f32 0x00000000#32))
    (broadcast S128x8192 (Scalar.ofBits (F := Ideal) .f32 0x3F800000#32))

/-- The rows' masses of negatives, as a column. -/
def stNegSum (x0 : Vec Ideal S128x256 .bf16) (x1 : Vec Ideal S8192x256 .bf16) (x2 : Vec Ideal S128x1 .i32)
    (x3 : Vec Ideal S1x8192 .i32) : FVec Ideal S128x1 .f32 :=
  shapeCast S128x1 (multiReduction (F := Ideal) .add [1] S128 (mulf (stEx x0 x1) (stNegMask x2 x3)) 0x00000000#32
    reduces_S128x8192_S128 (.inl rfl) rfl) shapeCasts_S128_S128x1

/-- The payload is these stages composed. -/
theorem pay7_eq (x0 : Vec Ideal S128x256 .bf16) (x1 : Vec Ideal S8192x256 .bf16) (x2 : Vec Ideal S128x1 .i32)
    (x3 : Vec Ideal S1x8192 .i32) :
    k0_pay7 (F := Ideal) x0 x1 x2 x3
      = subf (stShifted x0 x1) (log (addf (stEx x0 x1)
          (broadcastTo S128x8192 (stNegSum x0 x1 x2 x3) broadcasts_S128x1_S128x8192))) := rfl

section Stages
variable (x0 : Vec Ideal S128x256 .bf16) (x1 : Vec Ideal S8192x256 .bf16) (x2 : Vec Ideal S128x1 .i32)
  (x3 : Vec Ideal S1x8192 .i32) (t : Fin 64)
  (cf : Fin 8192 → Fin 256 → EReal) (lab : Fin 8192 → BitVec 32)

/-- The scaled similarity of row `128·t + p` and column `c`. -/
theorem logit_apply (h0 : ∀ (p : Fin 128) (k : Fin 256), x0 (ix2 p k) = cf (rowOf t p) k)
    (h1 : ∀ (r : Fin 8192) (k : Fin 256), x1 (ix2 r k) = cf r k) (p : Fin 128) (c : Fin 8192) :
    stLogit x0 x1 (ix2 p c) = Cert.Spec.logit cf Cert.Consts.κ (rowOf t p) c := by
  unfold stLogit
  rw [mulf_apply, broadcast_apply, inv_temp, shapeCast_self, shapeCast_self, dot_apply]
  unfold Cert.Spec.logit Cert.Spec.gram
  refine congrArg (· * Cert.Consts.κ) (Finset.sum_congr rfl fun k _ => ?_)
  rw [transpose_ix2_apply, h0, h1]

/-- Shifted by the row's maximum. -/
theorem shifted_apply (h0 : ∀ (p : Fin 128) (k : Fin 256), x0 (ix2 p k) = cf (rowOf t p) k)
    (h1 : ∀ (r : Fin 8192) (k : Fin 256), x1 (ix2 r k) = cf r k) (p : Fin 128) (c : Fin 8192) :
    stShifted x0 x1 (ix2 p c) = Cert.Spec.shifted cf Cert.Consts.κ (rowOf t p) c := by
  unfold stShifted
  rw [subf_apply, bcast_a1_ab, cast_a_a1, logit_apply x0 x1 t cf h0 h1]
  unfold Cert.Spec.shifted Cert.Spec.rowMax
  refine congrArg (Cert.Spec.logit cf Cert.Consts.κ (rowOf t p) c - ·) ((rowMax_apply _ _ _ _ p).trans ?_)
  exact congrArg (Finset.univ.fold max (⊥ : EReal)) (funext fun c' => logit_apply x0 x1 t cf h0 h1 p c')

/-- Its exponential. -/
theorem ex_apply (h0 : ∀ (p : Fin 128) (k : Fin 256), x0 (ix2 p k) = cf (rowOf t p) k)
    (h1 : ∀ (r : Fin 8192) (k : Fin 256), x1 (ix2 r k) = cf r k) (p : Fin 128) (c : Fin 8192) :
    stEx x0 x1 (ix2 p c) = Cert.Spec.ex cf Cert.Consts.κ (rowOf t p) c := by
  unfold stEx Cert.Spec.ex
  show Ideal.exp (stShifted x0 x1 (ix2 p c)) = _
  rw [shifted_apply x0 x1 t cf h0 h1]

/-- The label-equality bit of row `128·t + p` and column `c`. -/
theorem pay6_iff (h2 : ∀ p : Fin 128, x2 (ix2 p (0 : Fin 1)) = lab (rowOf t p))
    (h3 : ∀ r : Fin 8192, x3 (ix2 (0 : Fin 1) r) = lab r) (p : Fin 128) (c : Fin 8192) :
    k0_pay6 (F := Ideal) x2 x3 (ix2 p c) = 1#1 ↔ lab (rowOf t p) = lab c := by
  unfold k0_pay6
  rw [shapeCast_self, shapeCast_self]
  show IntOp.cmpi .eq (broadcastTo S128x8192 x2 broadcasts_S128x1_S128x8192 (ix2 p c))
      (broadcastTo S128x8192 x3 broadcasts_S1x8192_S128x8192 (ix2 p c)) = 1#1 ↔ _
  rw [bcast_a1_ab, broadcastTo_1b_ab_apply, cmpi_eq_one_iff]
  exact (h2 p) ▸ (h3 c) ▸ Iff.rfl

/-- The negatives' mask. -/
theorem negMask_apply (h2 : ∀ p : Fin 128, x2 (ix2 p (0 : Fin 1)) = lab (rowOf t p))
    (h3 : ∀ r : Fin 8192, x3 (ix2 (0 : Fin 1) r) = lab r) (p : Fin 128) (c : Fin 8192) :
    stNegMask x2 x3 (ix2 p c) = Cert.Spec.negMask lab (rowOf t p) c := by
  unfold stNegMask Cert.Spec.negMask
  rw [select_apply, broadcast_apply, broadcast_apply, select_eq_ite]
  exact if_congr (pay6_iff x2 x3 t lab h2 h3 p c) Cert.Consts.ofBits_zero Cert.Consts.ofBits_one

/-- The mass of the row's negatives. -/
theorem negSum_apply (h0 : ∀ (p : Fin 128) (k : Fin 256), x0 (ix2 p k) = cf (rowOf t p) k)
    (h1 : ∀ (r : Fin 8192) (k : Fin 256), x1 (ix2 r k) = cf r k)
    (h2 : ∀ p : Fin 128, x2 (ix2 p (0 : Fin 1)) = lab (rowOf t p))
    (h3 : ∀ r : Fin 8192, x3 (ix2 (0 : Fin 1) r) = lab r) (p : Fin 128) :
    stNegSum x0 x1 x2 x3 (ix2 p (0 : Fin 1)) = Cert.Spec.negSum cf lab Cert.Consts.κ (rowOf t p) := by
  unfold stNegSum Cert.Spec.negSum
  rw [cast_a_a1]
  refine (rowSum_apply _ _ _ _ p).trans (Finset.sum_congr rfl fun c _ => ?_)
  rw [mulf_apply, ex_apply x0 x1 t cf h0 h1, negMask_apply x2 x3 t lab h2 h3]

/-- The block's log-probabilities. -/
theorem logProb_apply (h0 : ∀ (p : Fin 128) (k : Fin 256), x0 (ix2 p k) = cf (rowOf t p) k)
    (h1 : ∀ (r : Fin 8192) (k : Fin 256), x1 (ix2 r k) = cf r k)
    (h2 : ∀ p : Fin 128, x2 (ix2 p (0 : Fin 1)) = lab (rowOf t p))
    (h3 : ∀ r : Fin 8192, x3 (ix2 (0 : Fin 1) r) = lab r) (p : Fin 128) (c : Fin 8192) :
    k0_pay7 (F := Ideal) x0 x1 x2 x3 (ix2 p c) = Cert.Spec.logProb cf lab Cert.Consts.κ (rowOf t p) c := by
  rw [pay7_eq, subf_apply]
  show _ - Ideal.log (addf (stEx x0 x1) (broadcastTo S128x8192 (stNegSum x0 x1 x2 x3) broadcasts_S128x1_S128x8192) (ix2 p c)) = _
  rw [addf_apply, bcast_a1_ab, shifted_apply x0 x1 t cf h0 h1, ex_apply x0 x1 t cf h0 h1,
    negSum_apply x0 x1 x2 x3 t cf lab h0 h1 h2 h3]
  rfl

end Stages

/-! ## The self mask, and the cell's update -/

/-- The self mask's bit at row `p`, column `c` of point `t`'s block: row `128·t + p` is column `c`. -/
theorem pay8_iff (i : grid0.Coords) (t : Fin 64) (hi : (i 0).val = t.val) (p : Fin 128) (c : Fin 8192) :
    k0_pay8 i (ix2 p c) = 1#1 ↔ rowOf t p = c := by
  unfold k0_pay8
  show IntOp.cmpi .eq
      (broadcastTo S128x8192 (addi (broadcast S128x1 (Scalar.muli (BitVec.ofNat 32 (i 0).val) 128#32))
        (iota .tc S128x1 32 [0] iota_S128x1_d0_w32)) broadcasts_S128x1_S128x8192 (ix2 p c))
      (broadcastTo S128x8192 (iota .tc S1x8192 32 [1] iota_S1x8192_d1_w32) broadcasts_S1x8192_S128x8192 (ix2 p c)) = 1#1 ↔ _
  rw [bcast_a1_ab, broadcastTo_1b_ab_apply, cmpi_eq_one_iff]
  show IntOp.addi (Scalar.muli (BitVec.ofNat 32 (i 0).val) 128#32) (iota .tc S128x1 32 [0] iota_S128x1_d0_w32 (ix2 p (0 : Fin 1)))
      = iota .tc S1x8192 32 [1] iota_S1x8192_d1_w32 (ix2 (0 : Fin 1) c) ↔ _
  rw [iota_single_apply, iota_single_apply, hi]
  exact row_word_eq_iff t p c

/-- The cell's update from any three blocks that are, index by index, the label-equality bit, the
    log-probabilities and the self bit of point `t`'s rows: the weighted sum of the rows' means is added. -/
theorem pay2_apply (m22 : IVec S128x8192 1) (L : FVec Ideal S128x8192 .f32) (m40 : IVec S128x8192 1)
    (x4 : Vec Ideal S128x1 .f32) (s : Vec Ideal S1x1 .f32) (t : Fin 64)
    (cf : Fin 8192 → Fin 256 → EReal) (lab : Fin 8192 → BitVec 32)
    (h22 : ∀ (p : Fin 128) (c : Fin 8192), m22 (ix2 p c) = 1#1 ↔ lab (rowOf t p) = lab c)
    (hL : ∀ (p : Fin 128) (c : Fin 8192), L (ix2 p c) = Cert.Spec.logProb cf lab Cert.Consts.κ (rowOf t p) c)
    (h40 : ∀ (p : Fin 128) (c : Fin 8192), m40 (ix2 p c) = 1#1 ↔ rowOf t p = c)
    (h4 : ∀ p : Fin 128, x4 (ix2 p (0 : Fin 1)) = Cert.Spec.weight lab (rowOf t p)) :
    k0_pay2 (F := Ideal) m22 L m40 x4 s (ix2 (0 : Fin 1) (0 : Fin 1))
      = s (ix2 (0 : Fin 1) (0 : Fin 1))
        + ∑ p : Fin 128, Cert.Spec.rowMean cf lab Cert.Consts.κ (rowOf t p) * Cert.Spec.weight lab (rowOf t p) := by
  -- the positives' mask at an index
  have hmask : ∀ (p : Fin 128) (c : Fin 8192),
      select (andi m22 (xori m40 (constantI S128x8192 1 1#1)))
        (broadcast S128x8192 (Scalar.ofBits (F := Ideal) .f32 0x3F800000#32))
        (broadcast S128x8192 (Scalar.ofBits (F := Ideal) .f32 0x00000000#32)) (ix2 p c)
        = Cert.Spec.posMask lab (rowOf t p) c := by
    intro p c
    rw [select_apply, broadcast_apply, broadcast_apply]
    show Scalar.select (IntOp.andi (m22 (ix2 p c)) (IntOp.xori (m40 (ix2 p c)) 1#1)) _ _ = _
    rw [select_and_not]
    unfold Cert.Spec.posMask
    exact if_congr (and_congr (h22 p c) (not_congr (h40 p c))) Cert.Consts.ofBits_one Cert.Consts.ofBits_zero
  unfold k0_pay2 k0_pay1
  dsimp only
  rw [shapeCast_self, shapeCast_self, addf_apply, cast_1_1x1]
  refine congrArg (s (ix2 (0 : Fin 1) (0 : Fin 1)) + ·) ((colSum_apply _ _ _ _).trans (Finset.sum_congr rfl fun p _ => ?_))
  rw [mulf_apply, divf_apply, cast_a_a1, cast_a_a1, h4 p]
  refine congrArg (· * Cert.Spec.weight lab (rowOf t p)) ?_
  unfold Cert.Spec.rowMean
  refine congrArg₂ Ideal.div ((rowSum_apply _ _ _ _ p).trans ?_) ((rowSum_apply _ _ _ _ p).trans ?_)
  · unfold Cert.Spec.posSum
    refine Finset.sum_congr rfl fun c _ => ?_
    rw [mulf_apply, hmask p c, hL p c]
  · unfold Cert.Spec.posCount
    exact Finset.sum_congr rfl fun c _ => hmask p c

section
variable (x0 : Vec Ideal S128x256 .bf16) (x1 : Vec Ideal S8192x256 .bf16) (x2 : Vec Ideal S128x1 .i32)
  (x3 : Vec Ideal S1x8192 .i32) (x4 : Vec Ideal S128x1 .f32) (s : Vec Ideal S1x1 .f32)
  (t : Fin 64) (i : grid0.Coords) (hi : (i 0).val = t.val)
  (cf : Fin 8192 → Fin 256 → EReal) (lab : Fin 8192 → BitVec 32)
  (h0 : ∀ (p : Fin 128) (k : Fin 256), x0 (ix2 p k) = cf (rowOf t p) k)
  (h1 : ∀ (r : Fin 8192) (k : Fin 256), x1 (ix2 r k) = cf r k)
  (h2 : ∀ p : Fin 128, x2 (ix2 p (0 : Fin 1)) = lab (rowOf t p))
  (h3 : ∀ r : Fin 8192, x3 (ix2 (0 : Fin 1) r) = lab r)
  (h4 : ∀ p : Fin 128, x4 (ix2 p (0 : Fin 1)) = Cert.Spec.weight lab (rowOf t p))

include hi h0 h1 h2 h3 h4 in
/-- The first cell after the point: what it held plus the block's weighted row means. -/
theorem step_wsum :
    k0_pay2 (F := Ideal) (k0_pay6 x2 x3) (k0_pay7 x0 x1 x2 x3) (k0_pay8 i) x4 s (ix2 (0 : Fin 1) (0 : Fin 1))
      = s (ix2 (0 : Fin 1) (0 : Fin 1))
        + ∑ p : Fin 128, Cert.Spec.rowMean cf lab Cert.Consts.κ (rowOf t p) * Cert.Spec.weight lab (rowOf t p) :=
  pay2_apply _ _ _ x4 s t cf lab (pay6_iff x2 x3 t lab h2 h3) (logProb_apply x0 x1 x2 x3 t cf lab h0 h1 h2 h3)
    (pay8_iff i t hi) h4

include h4 in
/-- The second cell after the point: what it held plus the block's weights. -/
theorem step_wtot :
    k0_pay3 (F := Ideal) x4 s (ix2 (0 : Fin 1) (0 : Fin 1))
      = s (ix2 (0 : Fin 1) (0 : Fin 1)) + ∑ p : Fin 128, Cert.Spec.weight lab (rowOf t p) := by
  unfold k0_pay3 k0_pay1
  rw [shapeCast_self, shapeCast_self, addf_apply, cast_1_1x1]
  refine congrArg (s (ix2 (0 : Fin 1) (0 : Fin 1)) + ·) ?_
  refine (colSum_apply x4 _ _ _).trans ?_
  exact Finset.sum_congr rfl fun p _ => h4 p

end

/-- The zero the first point starts both cells from. -/
theorem zero_cell0 : k0_pay4 (F := Ideal) (ix2 (0 : Fin 1) (0 : Fin 1)) = 0 := by
  unfold k0_pay4
  rw [shapeCast_self, broadcast_apply]
  exact Cert.Consts.ofBits_zero
theorem zero_cell1 : k0_pay5 (F := Ideal) (ix2 (0 : Fin 1) (0 : Fin 1)) = 0 := by
  unfold k0_pay5
  rw [shapeCast_self, broadcast_apply]
  exact Cert.Consts.ofBits_zero

end Cert.KernelIdeal.Rows

end
-- ==== Proof.IdealRun.Value.lean ====
/-
  The kernel program's result as the specification's loss. After point `n` the first carried cell holds the sum,
  over blocks `0 … n`, of the block's 128 weighted row means, the second the blocks' weights: by induction on `n`,
  each point adding its block to what the point before left, the first starting from zero. After the last point the
  blocks are all 64, that is every one of the 8192 rows, so the cells hold the specification's `wsum` and `wtot`.
-/
import proofs.«413265_j2430951490101_1_alg».proof.Proof.IdealRun.Blocks
import proofs.«413265_j2430951490101_1_alg».proof.Proof.Rows.Kernel

noncomputable section

namespace Cert.KernelIdeal.Hand

open Cert.KernelIdeal Cert.KernelIdeal.Gen
open Idealize.ShloMosaic Idealize.ShloMosaic.TcCoe Idealize.ShloMosaic.ValueIdx
open Idealize.SL.Sem
open Cert.Spec (rowOf)

variable (m : (ℓ : Loc nD τ sig) → Buf (Elt Ideal) ℓ) (c : Dev nD)

/-- Block `t`'s 128 weighted row means, summed; -/
def blockSum (t : Fin 64) : EReal :=
  ∑ p : Fin 128, Cert.Spec.rowMean (cfOf m c) (labOf m c) Cert.Consts.κ (rowOf t p) * Cert.Spec.weight (labOf m c) (rowOf t p)

/-- and its 128 weights. -/
def blockWt (t : Fin 64) : EReal := ∑ p : Fin 128, Cert.Spec.weight (labOf m c) (rowOf t p)

/-- The point's five blocks, each at its literal shape. -/
abbrev rowsBlk (t : Fin cfg0.N) : Vec Ideal S128x256 .bf16 := iblk m c 0 t
abbrev allRows (t : Fin cfg0.N) : Vec Ideal S8192x256 .bf16 := iblk m c 1 t
abbrev labCol (t : Fin cfg0.N) : Vec Ideal S128x1 .i32 := iblk m c 2 t
abbrev labRow (t : Fin cfg0.N) : Vec Ideal S1x8192 .i32 := iblk m c 3 t
abbrev wtCol (t : Fin cfg0.N) : Vec Ideal S128x1 .f32 := iblk m c 4 t

theorem stepAt_eq (t : Fin cfg0.N) (s0 s1 : Vec Ideal S1x1 .f32) :
    stepAt m c t s0 s1 =
      (k0_pay2 (k0_pay6 (labCol m c t) (labRow m c t)) (k0_pay7 (rowsBlk m c t) (allRows m c t) (labCol m c t) (labRow m c t))
          (k0_pay8 (grid0.coords t)) (wtCol m c t) s0,
       k0_pay3 (wtCol m c t) s1) := rfl

/-- One point adds its block's sum to the first cell, -/
theorem step_fst (t : Fin cfg0.N) (s0 s1 : Vec Ideal S1x1 .f32) :
    (stepAt m c t s0 s1).1 (ix2 (0 : Fin 1) (0 : Fin 1)) = s0 (ix2 (0 : Fin 1) (0 : Fin 1)) + blockSum m c (blockNo t) := by
  rw [stepAt_eq]
  exact Cert.KernelIdeal.Rows.step_wsum (rowsBlk m c t) (allRows m c t) (labCol m c t) (labRow m c t) (wtCol m c t) s0
    (blockNo t) (grid0.coords t) (coords_blockNo t) (cfOf m c) (labOf m c)
    (iblk0_apply m c t) (iblk1_apply m c t) (iblk2_apply m c t) (iblk3_apply m c t) (iblk4_apply m c t)

/-- and its weights to the second. -/
theorem step_snd (t : Fin cfg0.N) (s0 s1 : Vec Ideal S1x1 .f32) :
    (stepAt m c t s0 s1).2 (ix2 (0 : Fin 1) (0 : Fin 1)) = s1 (ix2 (0 : Fin 1) (0 : Fin 1)) + blockWt m c (blockNo t) := by
  rw [stepAt_eq]
  exact Cert.KernelIdeal.Rows.step_wtot (wtCol m c t) s1 (blockNo t) (labOf m c) (iblk4_apply m c t)

/-- Block `k`'s sum, `0` past the grid: the summand of the running sums. -/
def sumAt (k : ℕ) : EReal := if h : k < cfg0.N then blockSum m c (blockNo ⟨k, h⟩) else 0
def wtAt (k : ℕ) : EReal := if h : k < cfg0.N then blockWt m c (blockNo ⟨k, h⟩) else 0

/-- The cells after point `n`: the blocks `0 … n` summed. -/
theorem accAt_apply (n : ℕ) (hn : n < cfg0.N) :
    (accAt m c n hn).1 (ix2 (0 : Fin 1) (0 : Fin 1)) = ∑ k ∈ Finset.range (n + 1), sumAt m c k
    ∧ (accAt m c n hn).2 (ix2 (0 : Fin 1) (0 : Fin 1)) = ∑ k ∈ Finset.range (n + 1), wtAt m c k := by
  induction n with
  | zero =>
    rw [accAt_zero, step_fst, step_snd, Cert.KernelIdeal.Rows.zero_cell0, Cert.KernelIdeal.Rows.zero_cell1,
      Finset.sum_range_one, Finset.sum_range_one]
    unfold sumAt wtAt
    rw [dif_pos hn, dif_pos hn]
    exact ⟨zero_add _, zero_add _⟩
  | succ n ih =>
    obtain ⟨ih1, ih2⟩ := ih (Nat.lt_of_succ_lt hn)
    rw [accAt_succ, step_fst, step_snd, ih1, ih2, Finset.sum_range_succ _ (n + 1), Finset.sum_range_succ _ (n + 1)]
    refine ⟨congrArg _ ?_, congrArg _ ?_⟩
    · unfold sumAt; rw [dif_pos hn]
    · unfold wtAt; rw [dif_pos hn]

/-- All 64 blocks are all 8192 rows. -/
theorem sum_sumAt : ∑ k ∈ Finset.range 64, sumAt m c k = Cert.Spec.wsum (cfOf m c) (labOf m c) Cert.Consts.κ := by
  unfold Cert.Spec.wsum
  rw [Cert.Spec.sum_blocks, Finset.sum_range]
  refine Finset.sum_congr rfl fun t _ => ?_
  unfold sumAt
  rw [dif_pos (lt_of_lt_of_eq t.isLt (show (64 : ℕ) = cfg0.N from N_0.symm))]
  rfl

theorem sum_wtAt : ∑ k ∈ Finset.range 64, wtAt m c k = Cert.Spec.wtot (labOf m c) := by
  unfold Cert.Spec.wtot
  rw [Cert.Spec.sum_blocks, Finset.sum_range]
  refine Finset.sum_congr rfl fun t _ => ?_
  unfold wtAt
  rw [dif_pos (lt_of_lt_of_eq t.isLt (show (64 : ℕ) = cfg0.N from N_0.symm))]
  rfl

/-- After the last point the cells hold the specification's two sums. -/
theorem acc_last :
    (accAt m c 63 lastPt).1 (ix2 (0 : Fin 1) (0 : Fin 1)) = Cert.Spec.wsum (cfOf m c) (labOf m c) Cert.Consts.κ
    ∧ (accAt m c 63 lastPt).2 (ix2 (0 : Fin 1) (0 : Fin 1)) = Cert.Spec.wtot (labOf m c) := by
  obtain ⟨h1, h2⟩ := accAt_apply m c 63 lastPt
  exact ⟨h1.trans (sum_sumAt m c), h2.trans (sum_wtAt m c)⟩

/-- The kernel's loss: the fixed multiple of the quotient of the two sums. -/
theorem lossOf_apply (a b : Vec Ideal S1x1 .f32) :
    lossOf a b ix0 = Ideal.ofBits .f32 0xBFB6DB6E#32 * Ideal.div (a (ix2 (0 : Fin 1) (0 : Fin 1))) (b (ix2 (0 : Fin 1) (0 : Fin 1))) := by
  have hk : ((S1x1 : Shape).rowMajor (ix2 (0 : Fin 1) (0 : Fin 1))).val = ((S_ : Shape).rowMajor ix0).val := by
    have h1 := ((S1x1 : Shape).rowMajor (ix2 (0 : Fin 1) (0 : Fin 1))).isLt
    have h2 := ((S_ : Shape).rowMajor ix0).isLt
    have e1 : (S1x1 : Shape).numel = 1 := by decide
    have e2 : (S_ : Shape).numel = 1 := by decide
    omega
  unfold lossOf
  show FloatOps.mulf (FloatOps.ofBits (F := Ideal) .f32 0xBFB6DB6E#32)
      (FloatOps.hostDivf (shapeCast S_ a shapeCasts_S1x1_S_ ix0) (shapeCast S_ b shapeCasts_S1x1_S_ ix0)) = _
  rw [shapeCast_apply a shapeCasts_S1x1_S_ ix0 (ix2 (0 : Fin 1) (0 : Fin 1)) hk,
    shapeCast_apply b shapeCasts_S1x1_S_ ix0 (ix2 (0 : Fin 1) (0 : Fin 1)) hk]
  rfl

end Cert.KernelIdeal.Hand

end
-- ==== Proof.Rows.Reference.lean ====
/-
  The reference, read at the extended reals: its two final sums are the specification's `wsum` and `wtot` of the
  sampled feature rows it gathers and of the labels tiled over the 64 views.
-/
import proofs.«413265_j2430951490101_1_alg».proof.Proof.Gen.ReferenceIdeal.Read
import proofs.«413265_j2430951490101_1_alg».proof.Proof.Spec
import proofs.«413265_j2430951490101_1_alg».proof.Proof.Consts
import Idealize.ShloMosaic.Lib.ValueIdx
import Idealize.ShloMosaic.Lib.ValueIdxRank1
import Idealize.ShloMosaic.Lib.ValueLayout
import Idealize.ShloMosaic.Lib.Pipeline.Value
import Idealize.ShloMosaic.PureOps.Ideal.Laws

noncomputable section

namespace Cert.ReferenceIdeal.Rows

open Cert.ReferenceIdeal Cert.ReferenceIdeal.Gen Cert.ReferenceIdeal.Read
open Idealize.ShloMosaic Idealize.ShloMosaic.ValueIdx

variable (x0 : (⟨S8x256x128x128, .f32⟩ : BufTy).Contents (Elt Ideal)) (x1 : (⟨S128, .i32⟩ : BufTy).Contents (Elt Ideal))
  (x2 : (⟨S128x64, .i32⟩ : BufTy).Contents (Elt Ideal)) (x3 : (⟨S128, .i32⟩ : BufTy).Contents (Elt Ideal))

/-- The sampled feature rows: sample `r` (view-major), feature `k`. -/
def cf (r : Fin 8192) (k : Fin 256) : EReal := val_main_v19 (F := Ideal) x0 x1 x2 (ix2 r k)

/-- The label of sample `r`: the 128 anchor labels repeated over the 64 views. -/
def lab (r : Fin 8192) : BitVec 32 := x3 (ix1 (⟨r.val % 128, Nat.mod_lt _ (by decide)⟩ : Fin 128))

/-! ### The similarity matrix, scaled, and its row maximum -/

/-- Row `r`, feature `k` of the left factor. -/
theorem lidx21 (r c : Fin 8192) (k : Fin 256) : lidx_main_v21 (ix2 r c) k = ix2 r k :=
  funext fun a => Fin.ext (by match a with | ⟨0, _⟩ => rfl | ⟨1, _⟩ => rfl)

/-- The right factor is the transpose: feature `k`, column `c` of it is row `c`, feature `k` of the rows. -/
theorem ridx21 (r c : Fin 8192) (k : Fin 256) : idx_main_v20 (ridx_main_v21 (ix2 r c) k) = ix2 c k :=
  funext fun a => Fin.ext (by match a with | ⟨0, _⟩ => rfl | ⟨1, _⟩ => rfl)

/-- The product of the rows with their transpose is the Gram matrix. -/
theorem gram_at (r c : Fin 8192) :
    val_main_v21 (F := Ideal) x0 x1 x2 (ix2 r c) = Cert.Spec.gram (cf x0 x1 x2) r c := by
  rw [val_main_v21_apply]
  unfold Cert.Spec.gram cf
  refine Finset.sum_congr rfl fun k _ => ?_
  rw [val_main_v20_apply, lidx21, ridx21]

/-- Divided by the temperature: multiplied by its reciprocal. -/
theorem logit_at (r c : Fin 8192) :
    val_main_v23 (F := Ideal) x0 x1 x2 (ix2 r c) = Cert.Spec.logit (cf x0 x1 x2) Cert.Consts.κ r c := by
  rw [val_main_v23_apply, val_main_v22_apply, val_main_cst_apply, gram_at, Ideal.hostDivf_def, Ideal.ofBits_def,
    Cert.Consts.div_temp]
  rfl

/-- The maximum over the columns, from `-∞`. -/
theorem rowMax_at (r : Fin 8192) :
    val_main_v24 (F := Ideal) x0 x1 x2 (ix1 r) = Cert.Spec.rowMax (cf x0 x1 x2) Cert.Consts.κ r := by
  unfold val_main_v24
  have hy : ∀ c : Fin 8192, val_main_v23 (F := Ideal) x0 x1 x2 (ix2 r c)
      = Cert.Spec.logit (cf x0 x1 x2) Cert.Consts.κ r c := fun c => logit_at x0 x1 x2 r c
  generalize val_main_v23 (F := Ideal) x0 x1 x2 = y at hy ⊢
  have hR : S8192x8192.Reduces [1] S8192 := by decide
  have e := Host.reduce_eq_fold_single (α := Ideal .f32) (FloatOps.maximumf (F := Ideal) (φ := .f32)) y
    (val_main_cst_3 (F := Ideal)) reducesTo_S8192x8192_S8192_d1 hR h_S_ (ix1 r)
  refine e.trans ?_
  rw [val_main_cst_3_apply, Ideal.ofBits_def, Cert.Consts.ofBits_negInf]
  unfold Cert.Spec.rowMax
  refine Finset.fold_congr fun c _ => ?_
  rw [← hy c]
  exact congrArg y (funext fun a => Fin.ext (by match a with | ⟨0, _⟩ => rfl | ⟨1, _⟩ => rfl))

/-- The column of row maxima, spread over the columns. -/
theorem idx2526 (r c : Fin 8192) : idx_main_v25 (idx_main_v26 (ix2 r c)) = ix1 r :=
  funext fun a => Fin.ext (by match a with | ⟨0, _⟩ => rfl)

/-- Each row shifted by its maximum. -/
theorem shifted_at (r c : Fin 8192) :
    val_main_v27 (F := Ideal) x0 x1 x2 (ix2 r c) = Cert.Spec.shifted (cf x0 x1 x2) Cert.Consts.κ r c := by
  rw [val_main_v27_apply, val_main_v26_apply, val_main_v25_apply, idx2526, logit_at, rowMax_at, Ideal.subf_def]
  rfl

/-! ### The masks -/

/-- A one-bit equality test converted to a float is `1` where the words agree and `0` elsewhere. -/
theorem uitofp_cmpi_eq (a b : BitVec 32) :
    FloatOps.uitofp (F := Ideal) .f32 (IntOp.cmpi .eq a b) = if a = b then (1 : EReal) else 0 := by
  show (((BitVec.ofBool (a == b)).toNat : ℝ) : EReal) = _
  by_cases h : a = b
  · simp [h]
  · simp [h]

/-- A one-bit inequality test converted to a float is `0` where the words agree and `1` elsewhere. -/
theorem uitofp_cmpi_ne (a b : BitVec 32) :
    FloatOps.uitofp (F := Ideal) .f32 (IntOp.cmpi .ne a b) = if a = b then (0 : EReal) else 1 := by
  show (((BitVec.ofBool (a != b)).toNat : ℝ) : EReal) = _
  by_cases h : a = b
  · simp [h]
  · simp [h]

theorem one_sub_one : (1 : EReal) - 1 = 0 := by
  have h : ((1 : ℝ) : EReal) - ((1 : ℝ) : EReal) = ((0 : ℝ) : EReal) := by rw [← EReal.coe_sub]; norm_num
  simpa using h

/-- The 128 × 128 label-equality mask is tiled over the 64 × 64 pairs of views: entry (r, c) reads the row label at
    `r % 128` -/
theorem idxRow (r c : Fin 8192) :
    idx_main_v28 (idx_main_v30 (idx_main_v34 (idx_main_v35 (idx_main_v36 (ix2 r c)))))
      = ix1 (⟨r.val % 128, Nat.mod_lt _ (by decide)⟩ : Fin 128) :=
  funext fun a => Fin.ext (by
    match a with
    | ⟨0, _⟩ =>
      show (((0 * 128 + (r.val * 8192 + c.val) / 8192 % 128) * 1 + 0) * 128 + (r.val * 8192 + c.val) % 128) / 128
        = r.val % 128
      have := r.isLt; have := c.isLt; omega)

/-- and the column label at `c % 128`. -/
theorem idxCol (r c : Fin 8192) :
    idx_main_v29 (idx_main_v31 (idx_main_v34 (idx_main_v35 (idx_main_v36 (ix2 r c)))))
      = ix1 (⟨c.val % 128, Nat.mod_lt _ (by decide)⟩ : Fin 128) :=
  funext fun a => Fin.ext (by
    match a with
    | ⟨0, _⟩ =>
      show (((0 * 128 + (r.val * 8192 + c.val) / 8192 % 128) * 1 + 0) * 128 + (r.val * 8192 + c.val) % 128) % 128
        = c.val % 128
      have := r.isLt; have := c.isLt; omega)

/-- The tiled mask: `1` where the two samples have the same label. -/
theorem mask_at (r c : Fin 8192) :
    val_main_v36 (F := Ideal) x3 (ix2 r c) = if lab x3 r = lab x3 c then 1 else 0 := by
  rw [val_main_v36_apply, val_main_v35_apply, val_main_v34_apply, val_main_v33_apply, val_main_v32_apply,
    val_main_v30_apply, val_main_v28_apply, val_main_v31_apply, val_main_v29_apply, idxRow, idxCol, uitofp_cmpi_eq]
  rfl

/-- Its complement marks the negatives. -/
theorem negMask_at (r c : Fin 8192) :
    val_main_v38 (F := Ideal) x3 (ix2 r c) = Cert.Spec.negMask (lab x3) r c := by
  rw [val_main_v38_apply, val_main_v37_apply, val_main_cst_4_apply, mask_at, Ideal.subf_def, Ideal.ofBits_def,
    Cert.Consts.ofBits_one]
  unfold Cert.Spec.negMask
  split
  · exact one_sub_one
  · exact sub_zero 1

/-- Two row and column numbers below 8192 are equal as 32-bit words exactly when they are equal. -/
theorem word_eq_iff (r c : Fin 8192) :
    IntOp.addi (BitVec.ofNat 32 r.val) 0#32 = BitVec.ofNat 32 c.val ↔ r = c := by
  unfold IntOp.addi
  rw [BitVec.add_zero]
  constructor
  · intro h
    have h' := congrArg BitVec.toNat h
    simp only [BitVec.toNat_ofNat] at h'
    have := r.isLt; have := c.isLt
    exact Fin.ext (by omega)
  · rintro rfl; rfl

/-- The identity matrix, from the row and the column numbers. -/
theorem eye_at (r c : Fin 8192) :
    val_main_v44 (F := Ideal) (ix2 r c) = if r = c then 1 else 0 := by
  rw [val_main_v44_apply, val_main_v43_apply, val_main_v42_apply, val_main_v41_apply, val_main_c_5_apply,
    val_main_v39_apply, val_main_v40_apply, uitofp_cmpi_eq]
  exact if_congr (word_eq_iff r c) rfl rfl

/-- The positives: the same label, off the diagonal. -/
theorem posMask_at (r c : Fin 8192) :
    val_main_v47 (F := Ideal) x3 (ix2 r c) = Cert.Spec.posMask (lab x3) r c := by
  rw [val_main_v47_apply, val_main_v46_apply, val_main_v45_apply, val_main_cst_6_apply, mask_at, eye_at,
    Ideal.mulf_def, Ideal.subf_def, Ideal.ofBits_def, Cert.Consts.ofBits_one]
  unfold Cert.Spec.posMask
  by_cases h1 : lab x3 r = lab x3 c <;> by_cases h2 : r = c <;> simp [h1, h2, one_sub_one]

/-! ### The row sums and the row means -/

/-- The exponential of the shifted row. -/
theorem ex_at (r c : Fin 8192) :
    val_main_v48 (F := Ideal) x0 x1 x2 (ix2 r c) = Cert.Spec.ex (cf x0 x1 x2) Cert.Consts.κ r c := by
  rw [val_main_v48_apply, shifted_at, Ideal.hostUnary_exp_def]
  rfl

theorem idx50 (r k : Fin 8192) : idx_main_v50 (ix1 r) k = ix2 r k :=
  funext fun a => Fin.ext (by match a with | ⟨0, _⟩ => rfl | ⟨1, _⟩ => rfl)

theorem idx57 (r k : Fin 8192) : idx_main_v57 (ix1 r) k = ix2 r k :=
  funext fun a => Fin.ext (by match a with | ⟨0, _⟩ => rfl | ⟨1, _⟩ => rfl)

theorem idx58 (r k : Fin 8192) : idx_main_v58 (ix1 r) k = ix2 r k :=
  funext fun a => Fin.ext (by match a with | ⟨0, _⟩ => rfl | ⟨1, _⟩ => rfl)

theorem idx5152 (r c : Fin 8192) : idx_main_v51 (idx_main_v52 (ix2 r c)) = ix1 r :=
  funext fun a => Fin.ext (by match a with | ⟨0, _⟩ => rfl)

/-- The negatives' mass of a row: the sum from `0` over its columns. -/
theorem negSum_at (r : Fin 8192) :
    val_main_v50 (F := Ideal) x0 x1 x2 x3 (ix1 r)
      = Cert.Spec.negSum (cf x0 x1 x2) (lab x3) Cert.Consts.κ r := by
  rw [val_main_v50_apply, val_main_cst_7_apply, Ideal.ofBits_def, Cert.Consts.ofBits_zero, zero_add]
  unfold Cert.Spec.negSum
  refine Finset.sum_congr rfl fun k _ => ?_
  rw [idx50, val_main_v49_apply, ex_at, negMask_at, Ideal.mulf_def]

/-- The log-probability of a column against the row's negatives. -/
theorem logProb_at (r c : Fin 8192) :
    val_main_v55 (F := Ideal) x0 x1 x2 x3 (ix2 r c)
      = Cert.Spec.logProb (cf x0 x1 x2) (lab x3) Cert.Consts.κ r c := by
  rw [val_main_v55_apply, val_main_v54_apply, val_main_v53_apply, val_main_v52_apply, val_main_v51_apply, idx5152,
    shifted_at, ex_at, negSum_at, Ideal.subf_def, Ideal.hostUnary_log_def, Ideal.addf_def]
  rfl

/-- The positives' log-probabilities of a row, summed, -/
theorem posSum_at (r : Fin 8192) :
    val_main_v57 (F := Ideal) x0 x1 x2 x3 (ix1 r)
      = Cert.Spec.posSum (cf x0 x1 x2) (lab x3) Cert.Consts.κ r := by
  rw [val_main_v57_apply, val_main_cst_8_apply, Ideal.ofBits_def, Cert.Consts.ofBits_zero, zero_add]
  unfold Cert.Spec.posSum
  refine Finset.sum_congr rfl fun k _ => ?_
  rw [idx57, val_main_v56_apply, posMask_at, logProb_at, Ideal.mulf_def]

/-- and counted. -/
theorem posCount_at (r : Fin 8192) :
    val_main_v58 (F := Ideal) x3 (ix1 r) = Cert.Spec.posCount (lab x3) r := by
  rw [val_main_v58_apply, val_main_cst_9_apply, Ideal.ofBits_def, Cert.Consts.ofBits_zero, zero_add]
  unfold Cert.Spec.posCount
  refine Finset.sum_congr rfl fun k _ => ?_
  rw [idx58, posMask_at]

/-- Their quotient is the row's mean. -/
theorem rowMean_at (r : Fin 8192) :
    val_main_v59 (F := Ideal) x0 x1 x2 x3 (ix1 r)
      = Cert.Spec.rowMean (cf x0 x1 x2) (lab x3) Cert.Consts.κ r := by
  rw [val_main_v59_apply, posSum_at, posCount_at, Ideal.hostDivf_def]
  rfl

/-! ### The weights and the two totals -/

/-- The 128 anchor weights are tiled over the 64 views: sample `r` reads the label at `r % 128`. -/
theorem idxW (r : Fin 8192) :
    idx_main_v63 (idx_main_v64 (idx_main_v65 (ix1 r))) = ix1 (⟨r.val % 128, Nat.mod_lt _ (by decide)⟩ : Fin 128) :=
  funext fun a => Fin.ext (by
    match a with
    | ⟨0, _⟩ =>
      show 0 * 128 + r.val % 128 = r.val % 128
      omega)

/-- A sample of class `0` weighs nothing, any other `1`. -/
theorem weight_at (r : Fin 8192) :
    val_main_v65 (F := Ideal) x3 (ix1 r) = Cert.Spec.weight (lab x3) r := by
  rw [val_main_v65_apply, val_main_v64_apply, val_main_v63_apply, val_main_v62_apply, val_main_v61_apply,
    val_main_v60_apply, val_main_c_10_apply, idxW, uitofp_cmpi_ne]
  rfl

/-- The reference's weighted sum of row means. -/
theorem ref_wsum : val_main_v67 (F := Ideal) x0 x1 x2 x3 ix0 = Cert.Spec.wsum (cf x0 x1 x2) (lab x3) Cert.Consts.κ := by
  rw [val_main_v67_apply, val_main_cst_11_apply, Ideal.ofBits_def, Cert.Consts.ofBits_zero, zero_add,
    ← Equiv.sum_comp (idxEquiv1 (n := 8192)).symm]
  unfold Cert.Spec.wsum
  refine Finset.sum_congr rfl fun r _ => ?_
  show val_main_v66 (F := Ideal) x0 x1 x2 x3 (ix1 r) = _
  rw [val_main_v66_apply, rowMean_at, weight_at, Ideal.mulf_def]

/-- The reference's total weight. -/
theorem ref_wtot : val_main_v68 (F := Ideal) x3 ix0 = Cert.Spec.wtot (lab x3) := by
  rw [val_main_v68_apply, val_main_cst_12_apply, Ideal.ofBits_def, Cert.Consts.ofBits_zero, zero_add,
    ← Equiv.sum_comp (idxEquiv1 (n := 8192)).symm]
  unfold Cert.Spec.wtot
  refine Finset.sum_congr rfl fun r _ => ?_
  show val_main_v65 (F := Ideal) x3 (ix1 r) = _
  exact weight_at x3 r

end Cert.ReferenceIdeal.Rows

end
-- ==== Proof.Bridge.lean ====
/-
  The two idealized programs end with one value. The kernel program's result is the fixed multiple of
  `wsum / wtot` of the sampled feature rows and tiled labels it builds from its arguments; the reference's result is
  the same expression of the rows and labels IT builds from its arguments; and from agreeing arguments the two
  programs build the same rows (one chain of host operations, the kernel's extra rounding the identity on the extended
  reals) and the same labels.
-/
import proofs.«413265_j2430951490101_1_alg».proof.Proof.IdealRun.Value
import proofs.«413265_j2430951490101_1_alg».proof.Proof.Rows.Reference

noncomputable section

namespace Cert.Bridge

open Idealize.ShloMosaic Idealize.ShloMosaic.TcCoe Idealize.ShloMosaic.ValueIdx
open Idealize.SL.Sem

/-- The loss of sampled rows `cf` with labels `lab`: the fixed multiple of the quotient of the two sums. -/
def loss (cf : Fin 8192 → Fin 256 → EReal) (lab : Fin 8192 → BitVec 32) : EReal :=
  Ideal.ofBits .f32 0xBFB6DB6E#32 * Ideal.div (Cert.Spec.wsum cf lab Cert.Consts.κ) (Cert.Spec.wtot lab)

/-- The reference's result is the loss of its rows and labels. -/
theorem ref_loss (x0 : (⟨Cert.ReferenceIdeal.S8x256x128x128, .f32⟩ : BufTy).Contents (Elt Ideal))
    (x1 : (⟨Cert.ReferenceIdeal.S128, .i32⟩ : BufTy).Contents (Elt Ideal))
    (x2 : (⟨Cert.ReferenceIdeal.S128x64, .i32⟩ : BufTy).Contents (Elt Ideal))
    (x3 : (⟨Cert.ReferenceIdeal.S128, .i32⟩ : BufTy).Contents (Elt Ideal)) (i : Cert.ReferenceIdeal.S_.Idx) :
    Cert.ReferenceIdeal.Read.val_main_v70 (F := Ideal) x0 x1 x2 x3 i
      = loss (Cert.ReferenceIdeal.Rows.cf x0 x1 x2) (Cert.ReferenceIdeal.Rows.lab x3) := by
  obtain rfl := eq_ix0 i
  rw [Cert.ReferenceIdeal.Read.val_main_v70_apply, Cert.ReferenceIdeal.Read.val_main_v69_apply,
    Cert.ReferenceIdeal.Rows.ref_wsum, Cert.ReferenceIdeal.Rows.ref_wtot]
  rfl

/-- The kernel program's result is the loss of its rows and labels. -/
theorem ker_loss (m : (ℓ : Loc Cert.KernelIdeal.nD Cert.KernelIdeal.τ Cert.KernelIdeal.sig) → Buf (Elt Ideal) ℓ)
    (c : Dev Cert.KernelIdeal.nD) (i : Cert.KernelIdeal.S_.Idx) :
    Cert.KernelIdeal.Hand.lossOf (Cert.KernelIdeal.Hand.accAt m c 63 Cert.KernelIdeal.Hand.lastPt).1
        (Cert.KernelIdeal.Hand.accAt m c 63 Cert.KernelIdeal.Hand.lastPt).2 i
      = loss (Cert.KernelIdeal.Hand.cfOf m c) (Cert.KernelIdeal.Hand.labOf m c) := by
  obtain rfl := eq_ix0 i
  rw [Cert.KernelIdeal.Hand.lossOf_apply, (Cert.KernelIdeal.Hand.acc_last m c).1, (Cert.KernelIdeal.Hand.acc_last m c).2]
  rfl

end Cert.Bridge

end
-- ==== Proof.lean ====
/-
  The five claims. Both kernel programs — the word-level one and its idealization — run to the end without a fault and
  leave their arguments unchanged: the pipelined region's 64 points are followed through the two running sums it
  carries, whatever the float instance. The reference is a straight line of host operations. The idealization named
  one constant: the kernel's scale `10.0` stands for the reciprocal of the reference's temperature, the f32 nearest
  `0.1`, and the table gives it exactly that value. At the extended reals the kernel program's result is the loss of
  the sampled rows and labels (the rows taken 128 at a time, block after block) and so is the reference's (all rows at
  once; its quotient by the temperature is the product with the reciprocal): from agreeing arguments the two are equal.
-/
import proofs.«413265_j2430951490101_1_alg».proof.Defs
import proofs.«413265_j2430951490101_1_alg».proof.Proof.Gen.Kernel
import proofs.«413265_j2430951490101_1_alg».proof.Proof.Gen.Kernel.Skeleton
import proofs.«413265_j2430951490101_1_alg».proof.Proof.Gen.Kernel.Launch
import proofs.«413265_j2430951490101_1_alg».proof.Proof.Gen.Kernel.Points
import proofs.«413265_j2430951490101_1_alg».proof.Proof.Gen.KernelIdeal
import proofs.«413265_j2430951490101_1_alg».proof.Proof.Gen.KernelIdeal.Skeleton
import proofs.«413265_j2430951490101_1_alg».proof.Proof.Gen.KernelIdeal.Launch
import proofs.«413265_j2430951490101_1_alg».proof.Proof.Gen.KernelIdeal.Points
import proofs.«413265_j2430951490101_1_alg».proof.Proof.Gen.ReferenceIdeal
import proofs.«413265_j2430951490101_1_alg».proof.Proof.Gen.ReferenceIdeal.Run
import proofs.«413265_j2430951490101_1_alg».proof.Proof.Gen.ReferenceIdeal.Read
import proofs.«413265_j2430951490101_1_alg».proof.Proof.Gen.Pre_finite_inputs
import proofs.«413265_j2430951490101_1_alg».proof.Proof.IdealRun.Launch
import proofs.«413265_j2430951490101_1_alg».proof.Proof.BitsRun.Launch
import proofs.«413265_j2430951490101_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ =>
  (θ_run Cert.Kernel.defs _ _).mono (fun _ h c => (h c).2) (Cert.Kernel.Hand.run_main (F := Bits) m ρ)

/-- So does its idealization. -/
theorem frame_ki : Cert.frame_KernelIdeal := fun m ρ _ =>
  (θ_run Cert.KernelIdeal.defs _ _).mono (fun _ h c => (h c).2) (Cert.KernelIdeal.Hand.run_main (F := Ideal) m ρ)

/-- And the reference. -/
theorem frame_ri : Cert.frame_ReferenceIdeal := fun m ρ _ =>
  (θ_run Cert.ReferenceIdeal.defs _ _).mono (fun _ h c => (h c).2) (Cert.ReferenceIdeal.Value.run (F := Ideal) m ρ)

/-- The one named constant: the table gives the scale the reciprocal of the reference's temperature. -/
theorem preserves : Cert.preserves_Kernel_KernelIdeal :=
  IdealRules.named_const.statement Cert.KernelIdeal.κ "inv_temp" .f32 0x41200000#32 ((134217728 / 13421773 : ℝ) : EReal) rfl

/-- From agreeing arguments both idealized programs end with the loss of the same rows and labels. -/
theorem algebraic : Cert.algebraic_KernelIdeal_ReferenceIdeal := by
  intro m ρ m' ρ' _ hagree
  refine ⟨fun c => Cert.KernelIdeal.Hand.lossOf (Cert.KernelIdeal.Hand.accAt m c 63 Cert.KernelIdeal.Hand.lastPt).1
      (Cert.KernelIdeal.Hand.accAt m c 63 Cert.KernelIdeal.Hand.lastPt).2, Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq]
  funext i
  obtain ⟨h0, h1, h2, h3⟩ := hagree c
  rw [Cert.Bridge.ref_loss, h0, h1, h2, h3]
  exact (Cert.Bridge.ker_loss m c i).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
